-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x128 : Shape := ⟨2, ![16384, 128]⟩
abbrev S128x128 : Shape := ⟨2, ![128, 128]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S16384x16384 .f32) (main_arg1 : FVec F S16384x128 .f32) (main_arg2 : FVec F S128x128 .f32) (main_arg3 : FVec F S128x128 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S16384x16384 : Shape := ⟨2, ![16384, 16384]⟩
abbrev S16384x128 : Shape := ⟨2, ![16384, 128]⟩
abbrev S128x128 : Shape := ⟨2, ![128, 128]⟩
abbrev S1024x2048 : Shape := ⟨2, ![1024, 2048]⟩
abbrev S2048x128 : Shape := ⟨2, ![2048, 128]⟩
abbrev S1024x128 : Shape := ⟨2, ![1024, 128]⟩

abbrev nBuf : Space → Nat
  | .hbm => 8
  | .vmem => 16
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S16384x128, .f32⟩
  | .hbm, ⟨7, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S2048x128, .f32⟩
  | .local _ .vmem, ⟨3, _⟩ => ⟨S2048x128, .f32⟩
  | .local _ .vmem, ⟨4, _⟩ => ⟨S128x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x2048, .f32⟩
  | .local _ .vmem, ⟨9, _⟩ => ⟨S1024x2048, .f32⟩
  | .local _ .vmem, ⟨10, _⟩ => ⟨S2048x128, .f32⟩
  | .local _ .vmem, ⟨11, _⟩ => ⟨S2048x128, .f32⟩
  | .local _ .vmem, ⟨12, _⟩ => ⟨S128x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  transposes_S128x128_S128x128_1_0 : S128x128.Transposes [1, 0] S128x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S2048x128_S2048x128 : S2048x128.ShapeCasts S2048x128
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .f32 = 32 ∨ (Rect.block (s := S16384x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S16384x128.size a
  hwx0_3 : ∀ i : grid0.Coords, EltTy.bits .f32 = 32 ∨ (Rect.block (s := S16384x128) S1024x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .f32 = 32 ∨ (Rect.block (s := S16384x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S16384x128.size a
  hwx1_3 : ∀ i : grid1.Coords, EltTy.bits .f32 = 32 ∨ (Rect.block (s := S16384x128) S1024x128.size (cc1_transform_3 i) (hinb1_3 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x128 : Shape := ⟨2, ![16384, 128]⟩
abbrev S128x128 : Shape := ⟨2, ![128, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S128x128, .f32⟩
  | .hbm, ⟨3, _⟩ => ⟨S128x128, .f32⟩
  | .hbm, ⟨4, _⟩ => ⟨S16384x128, .f32⟩
  | .hbm, ⟨5, _⟩ => ⟨S128x128, .f32⟩
  | .hbm, ⟨6, _⟩ => ⟨S16384x128, .f32⟩
  | .hbm, ⟨7, _⟩ => ⟨S_, .f32⟩
  | .hbm, ⟨8, _⟩ => ⟨S16384x128, .f32⟩
  | .hbm, ⟨9, _⟩ => ⟨S16384x128, .f32⟩
  | .hbm, ⟨10, _⟩ => ⟨S16384x128, .f32⟩
  | .hbm, ⟨11, _⟩ => ⟨S128x128, .f32⟩
  | .hbm, ⟨12, _⟩ => ⟨S16384x128, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  transposes_S128x128_S128x128_1_0 : S128x128.Transposes [1, 0] S128x128
  bcast_S_S16384x128 : S_.BroadcastsInDim S16384x128 (![] : Fin 0 → Fin S16384x128.rank)
  dot_S16384x16384_S16384x128_S16384x128_1_0_0_1_n_n_wf : DotDims.WF S16384x16384 S16384x128 S16384x128 [1] [0] [0] [1] [] []
  dot_S16384x128_S128x128_S16384x128_1_0_0_1_n_n_wf : DotDims.WF S16384x128 S128x128 S16384x128 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.Kernel.Region0.Base.lean ====
/-
  An aggregate-and-project call (pipeline 0 of the program): what every grid point shares.

  The grid is 16 row blocks by 8 reduction steps; point t is row block t / 8 at step t % 8. The body
  has two guards on the step alone: the FIRST step (t % 8 = 0) clears the accumulator before adding,
  the LAST step (t % 8 = 7) projects the accumulator through the weight block (the program's first call then
  clamps at zero) and stores the output tile. No step is both. The three input windows are read at every point; the output
  window is stored at the last steps only, and only there is its block written back.

  The accumulator is a scratch buffer of the call's own. The region's scoped buffers that no window of
  this call stages are that scratch and the other call's eight staging buffers and scratch; the latter
  ride along untouched.
-/
import proofs.«107928_j84456236909326_1_alg».proof.Proof.Gen.Kernel.Launch
import proofs.«107928_j84456236909326_1_alg».proof.Proof.Gen.Kernel.Skeleton
import proofs.«107928_j84456236909326_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two guards, in closed form over the grid -/

/-- The guard of the clearing branch, from the grid coordinates: the reduction step is 0. -/
abbrev isFirst_r0 (i : grid0.Coords) : Prop :=
  (Scalar.cmpi .ne (Scalar.extui (Scalar.cmpi .eq (BitVec.ofNat 32 (i 1).val) 0#32)) 0#32) = 1#1
/-- It holds exactly at the points t with t % 8 = 0. -/
theorem isFirst_iff_r0 : ∀ t : Fin cfg0.N, isFirst_r0 (grid0.coords t) ↔ t.val % 8 = 0 :=
  (by decide +kernel : ∀ t : Fin grid0.N, isFirst_r0 (grid0.coords t) ↔ t.val % 8 = 0)

/-- The guard of the projecting branch: the reduction step is 7. -/
abbrev isLast_r0 (i : grid0.Coords) : Prop := k0_cond2 i = 1#1
/-- It holds exactly at the points t with t % 8 = 7. -/
theorem isLast_iff_r0 : ∀ t : Fin cfg0.N, isLast_r0 (grid0.coords t) ↔ t.val % 8 = 7 :=
  (by decide +kernel : ∀ t : Fin grid0.N, isLast_r0 (grid0.coords t) ↔ t.val % 8 = 7)

/-! ## Where the windows are live -/

/-- The three input windows are read at every point. -/
theorem live_in0_r0 : ∀ t : Fin cfg0.N, cfg0.idle 0 (grid0.coords t) = false := by decide +kernel
theorem live_in1_r0 : ∀ t : Fin cfg0.N, cfg0.idle 1 (grid0.coords t) = false := by decide +kernel
theorem live_in2_r0 : ∀ t : Fin cfg0.N, cfg0.idle 2 (grid0.coords t) = false := by decide +kernel
/-- Off the last steps the body stores nothing into the output tile, -/
theorem idle_out_r0 : ∀ t : Fin cfg0.N, ¬isLast_r0 (grid0.coords t) → cfg0.idle 3 (grid0.coords t) = true := by decide +kernel
/-- and its block is not written back there; -/
theorem noFlush_out_r0 : ∀ t : Fin cfg0.N, ¬isLast_r0 (grid0.coords t) → (cfg0.win 3).flush t = false := by decide +kernel
/-- at a last step it is stored. -/
theorem live_out_r0 : ∀ t : Fin cfg0.N, isLast_r0 (grid0.coords t) → cfg0.idle 3 (grid0.coords t) = false := by decide +kernel

/-! ## The buffers the body is called on -/

/-- The staging buffer each window is on at point t, as the pipeline passes it, and that it is a whole buffer. -/
abbrev bufA_r0 (t : Fin cfg0.N) : Memref sig .tc .vmem S1024x2048 .f32 := win0_0.stage (cfg0.slots t 0)
abbrev bufA_whole_r0 (t : Fin cfg0.N) : (bufA_r0 t).IsWhole := hstage0_0 ((cfg0.slots t 0).cast nbuf0_0)
abbrev bufM_r0 (t : Fin cfg0.N) : Memref sig .tc .vmem S2048x128 .f32 := win0_1.stage (cfg0.slots t 1)
abbrev bufM_whole_r0 (t : Fin cfg0.N) : (bufM_r0 t).IsWhole := hstage0_1 ((cfg0.slots t 1).cast nbuf0_1)
abbrev bufW_r0 (t : Fin cfg0.N) : Memref sig .tc .vmem S128x128 .f32 := win0_2.stage (cfg0.slots t 2)
abbrev bufW_whole_r0 (t : Fin cfg0.N) : (bufW_r0 t).IsWhole := hstage0_2 ((cfg0.slots t 2).cast nbuf0_2)
abbrev bufO_r0 (t : Fin cfg0.N) : Memref sig .tc .vmem S1024x128 .f32 := win0_3.stage (cfg0.slots t 3)
abbrev bufO_whole_r0 (t : Fin cfg0.N) : (bufO_r0 t).IsWhole := hstage0_3 ((cfg0.slots t 3).cast nbuf0_3)
/-- The accumulator: a whole scoped buffer of the call's own. -/
abbrev accBuf_r0 : Memref sig .tc .vmem S1024x128 .f32 := Memref.whole cc0_scratch0

/-- The scoped buffers of the core that this call neither stages nor accumulates in (the other call's), each
    whole at some contents: untouched by this region. -/
def bystanders_r0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The core's scoped buffers that no window of this call stages, listed with the accumulator first. -/
theorem scopedRest_split_r0 (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) :=
  Pipeline.scopedRest_eq_of_list spec0 c [cc0_scratch0, cc1_stg0_0, cc1_stg0_1, cc1_stg1_0, cc1_stg1_1, cc1_stg2_0, cc1_stg3_0, cc1_stg3_1, cc1_scratch0] (by decide) (by decide)

/-- What the region hands its body besides the windows: the accumulator at some contents, the bystanders, and the
    generator register at some state. -/
theorem classInv_eq_r0 (c : Dev nD) :
    (Pipeline.ΦA spec0 c : sProp 𝕄)
      = iprop(iprop((∃ d, owns (c : Thread nD τ) accBuf_r0 fullShare d) ∗ bystanders_r0 (F := F) c) ∗ (∃ r, prngReg c r)) := by
  unfold Pipeline.ΦA bystanders_r0; rw [scopedRest_split_r0]; simp only [accBuf_r0, owns_whole]; try rfl

end Cert.Kernel.Hand

end
-- ==== Proof.LibWholeStore.lean ====
/-
  A read after a store through the whole buffer.

  A buffer written piece by piece is read back through the last piece wherever that piece lies. When the last
  piece is the rectangle of the buffer's own sizes at zero offsets it lies everywhere, so the read returns its
  payload whatever the earlier pieces and the prior contents were: an accumulator overwritten whole.
-/
import Idealize.ShloMosaic.Lib.Writes
import Idealize.ShloMosaic.Lib.Pipeline.Value

noncomputable section

namespace Cert.Lib

open Idealize.ShloMosaic

variable {sig : RefSig} {κ : Kind} {sp : Space} {S : Shape} {e : EltTy} {Val : EltTy → Type}

/-- After any writes ending in a store through the whole-shape rectangle at zero offsets (however the zeros are
    spelt), a read of the buffer returns that store's payload. Stated over an abstract shape and view, so that a use
    at a large literal shape never unifies through the shape's extents. -/
theorem read_writes_cons_whole (v : View sig κ sp S e) (f : v.ty.Contents Val) {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  subst h; funext y
  have e := View.read_writes_cons_emb (Val := Val) v f (Rect.whole S) w L y
  rw [Rect.emb_whole_apply] at e
  exact e

end Cert.Lib

end
-- ==== Proof.Kernel.Region0.Runs.lean ====
/-
  The body of an aggregate-and-project call (pipeline 0), run once per kind of reduction step.

  On whole staging buffers holding an adjacency block `xa` (1024 x 2048) and a feature block `xm` (2048 x 128):
  * at a FIRST step the accumulator is overwritten with zeros, read back, and overwritten with
    zeros + xa·xm, so it ends at `k0_pay2 xa xm k0_pay1`;
  * at a MIDDLE step, holding `xs`, it ends at xs + xa·xm, `k0_pay2 xa xm xs`;
  * at a LAST step it ends likewise at acc = xs + xa·xm, and the output tile is overwritten with
    `k0_pay3 acc xw`: acc projected through the weight block `xw` (in the program's first call then clamped at zero).
  Every store is through the whole buffer, so what a buffer holds afterwards is the last payload stored
  into it, and every load reads what its buffer holds. The inputs' buffers are handed back as found.
-/
import proofs.«107928_j84456236909326_1_alg».proof.Proof.Kernel.Region0.Base
import proofs.«107928_j84456236909326_1_alg».proof.Proof.LibWholeStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every access of the body: zero on both axes. -/
theorem zeroOff_r0 : (![0, 0] : Fin 2 → Nat) = fun _ => 0 := by funext a; fin_cases a <;> rfl

set_option maxHeartbeats 1000000 in
/-- A first step: the accumulator, whatever it held, ends at zeros + xa·xm. -/
theorem run_first_r0 (c : Dev nD) (i : grid0.Coords)
    (arg2 : Memref sig .tc .vmem S1024x2048 .f32) (harg2 : arg2.IsWhole) (arg3 : Memref sig .tc .vmem S2048x128 .f32) (harg3 : arg3.IsWhole)
    (arg4 : Memref sig .tc .vmem S128x128 .f32) (harg4 : arg4.IsWhole) (arg5 : Memref sig .tc .vmem S1024x128 .f32) (harg5 : arg5.IsWhole)
    (arg6 : Memref sig .tc .vmem S1024x128 .f32) (harg6 : arg6.IsWhole)
    (hfirst : isFirst_r0 i) (hlast : ¬isLast_r0 i)
    (xa : Vec F S1024x2048 .f32) (xm : Vec F S2048x128 .f32) (E : Set ℕ) (K : PUnit → sProp 𝕄) :
    iprop(owns (c : Thread nD τ) arg2 fullShare xa ∗ owns (c : Thread nD τ) arg3 fullShare xm ∗ (∃ d, owns (c : Thread nD τ) arg6 fullShare d)
        ∗ (iprop(owns (c : Thread nD τ) arg2 fullShare xa ∗ owns (c : Thread nD τ) arg3 fullShare xm
            ∗ owns (c : Thread nD τ) arg6 fullShare (k0_pay2 xa xm k0_pay1)) -∗ K ⟨⟩))
      ⊢ wp frame (wpE (defs₀ (F := F)) Variants.none c none) E (cc0__agg_linear_kernel i arg2 harg2 arg3 harg3 arg4 harg4 arg5 harg5 arg6 harg6) K := by
  simp only [cc0__agg_linear_kernel_eq_skeleton]; unfold cc0__agg_linear_kernel_skel
  unfold owns
  iintro ⟨⟨%f2, %hf2, H2⟩, ⟨%f3, %hf3, H3⟩, ⟨%d6, %f6, -, H6⟩, Hk⟩
  obtain rfl := harg2.eq_unread hf2; obtain rfl := harg3.eq_unread hf3
  sl_exec (disch := first | exact hfirst | exact hlast)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H6
  ipureintro
  have hz := zeroOff_r0
  refine (Cert.Lib.read_writes_cons_whole (S := S1024x128) arg6.view f6 hz inb_S1024x128_S1024x128_0_0 _ _).trans ?_
  have hA : View.readAt (Elt F) arg2.view (Rect.unit ![0, 0] S1024x2048.size inb_S1024x2048_S1024x2048_0_0).toLoadRect (harg2.unread xa) = xa := by
    rw [View.readAt_eq_ld, harg2.read_unread]; exact View.ld_unit_zero (S := S1024x2048) hz _ xa
  have hB : View.readAt (Elt F) arg3.view (Rect.unit ![0, 0] S2048x128.size inb_S2048x128_S2048x128_0_0).toLoadRect (harg3.unread xm) = xm := by
    rw [View.readAt_eq_ld, harg3.read_unread]; exact View.ld_unit_zero (S := S2048x128) hz _ xm
  refine congr (congr (congrArg (k0_pay2 (F := F)) hA) hB) ?_
  sl_unfold_words
  exact View.readCov_unit_zero (S := S1024x128) arg6.view hz _ _

set_option maxHeartbeats 1000000 in
/-- A middle step: the accumulator goes from xs to xs + xa·xm. -/
theorem run_mid_r0 (c : Dev nD) (i : grid0.Coords)
    (arg2 : Memref sig .tc .vmem S1024x2048 .f32) (harg2 : arg2.IsWhole) (arg3 : Memref sig .tc .vmem S2048x128 .f32) (harg3 : arg3.IsWhole)
    (arg4 : Memref sig .tc .vmem S128x128 .f32) (harg4 : arg4.IsWhole) (arg5 : Memref sig .tc .vmem S1024x128 .f32) (harg5 : arg5.IsWhole)
    (arg6 : Memref sig .tc .vmem S1024x128 .f32) (harg6 : arg6.IsWhole)
    (hfirst : ¬isFirst_r0 i) (hlast : ¬isLast_r0 i)
    (xa : Vec F S1024x2048 .f32) (xm : Vec F S2048x128 .f32) (xs : Vec F S1024x128 .f32) (E : Set ℕ) (K : PUnit → sProp 𝕄) :
    iprop(owns (c : Thread nD τ) arg2 fullShare xa ∗ owns (c : Thread nD τ) arg3 fullShare xm ∗ owns (c : Thread nD τ) arg6 fullShare xs
        ∗ (iprop(owns (c : Thread nD τ) arg2 fullShare xa ∗ owns (c : Thread nD τ) arg3 fullShare xm
            ∗ owns (c : Thread nD τ) arg6 fullShare (k0_pay2 xa xm xs)) -∗ K ⟨⟩))
      ⊢ wp frame (wpE (defs₀ (F := F)) Variants.none c none) E (cc0__agg_linear_kernel i arg2 harg2 arg3 harg3 arg4 harg4 arg5 harg5 arg6 harg6) K := by
  simp only [cc0__agg_linear_kernel_eq_skeleton]; unfold cc0__agg_linear_kernel_skel
  unfold owns
  iintro ⟨⟨%f2, %hf2, H2⟩, ⟨%f3, %hf3, H3⟩, ⟨%f6, %hf6, H6⟩, Hk⟩
  obtain rfl := harg2.eq_unread hf2; obtain rfl := harg3.eq_unread hf3; obtain rfl := harg6.eq_unread hf6
  sl_exec (disch := first | exact hfirst | exact hlast)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H6
  ipureintro
  have hz := zeroOff_r0
  refine (Cert.Lib.read_writes_cons_whole (S := S1024x128) arg6.view _ hz inb_S1024x128_S1024x128_0_0 _ _).trans ?_
  have hA : View.readAt (Elt F) arg2.view (Rect.unit ![0, 0] S1024x2048.size inb_S1024x2048_S1024x2048_0_0).toLoadRect (harg2.unread xa) = xa := by
    rw [View.readAt_eq_ld, harg2.read_unread]; exact View.ld_unit_zero (S := S1024x2048) hz _ xa
  have hB : View.readAt (Elt F) arg3.view (Rect.unit ![0, 0] S2048x128.size inb_S2048x128_S2048x128_0_0).toLoadRect (harg3.unread xm) = xm := by
    rw [View.readAt_eq_ld, harg3.read_unread]; exact View.ld_unit_zero (S := S2048x128) hz _ xm
  refine congr (congr (congrArg (k0_pay2 (F := F)) hA) hB) ?_
  sl_unfold_words
  rw [View.readAt_eq_ld, harg6.read_unread]; exact View.ld_unit_zero (S := S1024x128) hz _ xs

set_option maxHeartbeats 1000000 in
/-- A last step: the accumulator goes from xs to acc = xs + xa·xm, and the output tile, whatever it held, ends at
    the projection of acc through xw. -/
theorem run_last_r0 (c : Dev nD) (i : grid0.Coords)
    (arg2 : Memref sig .tc .vmem S1024x2048 .f32) (harg2 : arg2.IsWhole) (arg3 : Memref sig .tc .vmem S2048x128 .f32) (harg3 : arg3.IsWhole)
    (arg4 : Memref sig .tc .vmem S128x128 .f32) (harg4 : arg4.IsWhole) (arg5 : Memref sig .tc .vmem S1024x128 .f32) (harg5 : arg5.IsWhole)
    (arg6 : Memref sig .tc .vmem S1024x128 .f32) (harg6 : arg6.IsWhole)
    (hfirst : ¬isFirst_r0 i) (hlast : isLast_r0 i)
    (xa : Vec F S1024x2048 .f32) (xm : Vec F S2048x128 .f32) (xw : Vec F S128x128 .f32) (xs : Vec F S1024x128 .f32) (E : Set ℕ) (K : PUnit → sProp 𝕄) :
    iprop(owns (c : Thread nD τ) arg2 fullShare xa ∗ owns (c : Thread nD τ) arg3 fullShare xm ∗ owns (c : Thread nD τ) arg4 fullShare xw
        ∗ (∃ d, owns (c : Thread nD τ) arg5 fullShare d) ∗ owns (c : Thread nD τ) arg6 fullShare xs
        ∗ (iprop(owns (c : Thread nD τ) arg2 fullShare xa ∗ owns (c : Thread nD τ) arg3 fullShare xm ∗ owns (c : Thread nD τ) arg4 fullShare xw
            ∗ owns (c : Thread nD τ) arg5 fullShare (k0_pay3 (k0_pay2 xa xm xs) xw)
            ∗ owns (c : Thread nD τ) arg6 fullShare (k0_pay2 xa xm xs)) -∗ K ⟨⟩))
      ⊢ wp frame (wpE (defs₀ (F := F)) Variants.none c none) E (cc0__agg_linear_kernel i arg2 harg2 arg3 harg3 arg4 harg4 arg5 harg5 arg6 harg6) K := by
  simp only [cc0__agg_linear_kernel_eq_skeleton]; unfold cc0__agg_linear_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4; obtain rfl := harg6.eq_unread hf6
  sl_exec (disch := first | exact hfirst | exact hlast)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  have hz := zeroOff_r0
  have hA : View.readAt (Elt F) arg2.view (Rect.unit ![0, 0] S1024x2048.size inb_S1024x2048_S1024x2048_0_0).toLoadRect (harg2.unread xa) = xa := by
    rw [View.readAt_eq_ld, harg2.read_unread]; exact View.ld_unit_zero (S := S1024x2048) hz _ xa
  have hB : View.readAt (Elt F) arg3.view (Rect.unit ![0, 0] S2048x128.size inb_S2048x128_S2048x128_0_0).toLoadRect (harg3.unread xm) = xm := by
    rw [View.readAt_eq_ld, harg3.read_unread]; exact View.ld_unit_zero (S := S2048x128) hz _ xm
  have hS : View.readAt (Elt F) arg6.view (Rect.unit ![0, 0] S1024x128.size inb_S1024x128_S1024x128_0_0).toLoadRect (harg6.unread xs) = xs := by
    rw [View.readAt_eq_ld, harg6.read_unread]; exact View.ld_unit_zero (S := S1024x128) hz _ xs
  have hW : View.readAt (Elt F) arg4.view (Rect.unit ![0, 0] S128x128.size inb_S128x128_S128x128_0_0).toLoadRect (harg4.unread xw) = xw := by
    rw [View.readAt_eq_ld, harg4.read_unread]; exact View.ld_unit_zero (S := S128x128) hz _ xw
  isplitl [H5]
  · iexists _; isplitr
    swap; · iexact H5
    ipureintro
    refine (Cert.Lib.read_writes_cons_whole (S := S1024x128) arg5.view f5 hz inb_S1024x128_S1024x128_0_0 _ _).trans ?_
    refine congr (congrArg (k0_pay3 (F := F)) ?_) hW
    sl_unfold_words
    exact (View.readCov_unit_zero (S := S1024x128) arg6.view hz _ _).trans (congr (congr (congrArg (k0_pay2 (F := F)) hA) hB) hS)
  iexists _; isplitr
  swap; · iexact H6
  ipureintro
  sl_unfold_words
  refine (Cert.Lib.read_writes_cons_whole (S := S1024x128) arg6.view _ hz inb_S1024x128_S1024x128_0_0 _ _).trans ?_
  exact congr (congr (congrArg (k0_pay2 (F := F)) hA) hB) hS

end Cert.Kernel.Hand

end
-- ==== Proof.Kernel.Region0.Data.lean ====
/-
  An aggregate-and-project call (pipeline 0): what its buffers hold point by point, and the body obligation.

  Write A(t), M(t), W(t) for the blocks of the adjacency, the features and the weights that point t stages, read off
  the arrays as the region finds them. The accumulator after point n is

      acc(n) = 0 + A(n)·M(n)            when n % 8 = 0   (a row block's first reduction step),
      acc(n) = acc(n - 1) + A(n)·M(n)   otherwise,

  so after the last step of a row block it is the sum over the eight column blocks. The output tile after a last
  step t is acc(t)·W(t), in the program's first call clamped at zero. Between points the region's invariant holds the accumulator at acc of the point
  before (at anything before the first point), the other call's scoped buffers at anything, and the generator register.
-/
import proofs.«107928_j84456236909326_1_alg».proof.Proof.Kernel.Region0.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: every statement below is made at this parameter
variable (V : (c : Dev nD) → (b : Ref sig .tc) → Buf (Elt F) ((c : Thread nD τ).loc b))

/-! ## The blocks the windows stage -/

/-- Window w's block at point t, read off its array as the region finds it. -/
def blk_r0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency block, the feature block and the weight block of point t, at their literal shapes. -/
abbrev blkA_r0 (c : Dev nD) (t : Fin cfg0.N) : Vec F S1024x2048 .f32 := blk_r0 V c 0 t
abbrev blkM_r0 (c : Dev nD) (t : Fin cfg0.N) : Vec F S2048x128 .f32 := blk_r0 V c 1 t
abbrev blkW_r0 (c : Dev nD) (t : Fin cfg0.N) : Vec F S128x128 .f32 := blk_r0 V c 2 t

/-! ## The accumulator and the output tile, point by point -/

/-- The accumulator after the body at point n: restarted from zeros at a first step, else what point n - 1 left plus
    this point's product. -/
def accAt_r0 (c : Dev nD) : (n : ℕ) → n < cfg0.N → Vec F S1024x128 .f32
  | 0, h => k0_pay2 (blkA_r0 V c ⟨0, h⟩) (blkM_r0 V c ⟨0, h⟩) k0_pay1
  | n + 1, h =>
    if (n + 1) % 8 = 0 then k0_pay2 (blkA_r0 V c ⟨n + 1, h⟩) (blkM_r0 V c ⟨n + 1, h⟩) k0_pay1
    else k0_pay2 (blkA_r0 V c ⟨n + 1, h⟩) (blkM_r0 V c ⟨n + 1, h⟩) (accAt_r0 c n (Nat.lt_of_succ_lt h))

/-- At a first step the accumulator restarts. -/
theorem accAt_first_r0 (c : Dev nD) (t : Fin cfg0.N) (h : t.val % 8 = 0) :
    accAt_r0 V c t.val t.isLt = k0_pay2 (blkA_r0 V c t) (blkM_r0 V c t) k0_pay1 := by
  obtain ⟨n, hn⟩ := t
  cases n with
  | zero => rfl
  | succ n => exact if_pos h

/-- At any other step it adds onto what the point before left. -/
theorem accAt_next_r0 (c : Dev nD) (t : Fin cfg0.N) (h : ¬t.val % 8 = 0) :
    accAt_r0 V c t.val t.isLt
      = k0_pay2 (blkA_r0 V c t) (blkM_r0 V c t) (accAt_r0 V c (t.val - 1) (Nat.lt_of_le_of_lt (Nat.sub_le _ _) t.isLt)) := by
  obtain ⟨n, hn⟩ := t
  cases n with
  | zero => exact absurd (Nat.zero_mod _) h
  | succ n => exact if_neg h

/-- The output tile the body stores at a last step t: the accumulator projected through the weight block (in the
    program's first call then clamped at zero). (At the other points nothing is stored and the name is not consulted.) -/
def tileAt_r0 (c : Dev nD) (t : Fin cfg0.N) : Vec F S1024x128 .f32 :=
  k0_pay3 (accAt_r0 V c t.val t.isLt) (blkW_r0 V c t)

/-! ## The invariant between points -/

/-- Before point n: at n = 0 what the region hands over (the accumulator at anything); afterwards the accumulator at
    what point n - 1 left, the bystanders, and the generator register at some state. -/
def inv_r0 (c : Dev nD) : (n : ℕ) → n ≤ cfg0.N → sProp 𝕄
  | 0, _ => Pipeline.ΦA spec0 c
  | n + 1, hn => iprop(iprop(owns (c : Thread nD τ) accBuf_r0 fullShare (accAt_r0 V c n hn) ∗ bystanders_r0 (F := F) c) ∗ (∃ r, prngReg c r))

theorem inv_zero_r0 (c : Dev nD) (n : ℕ) (h : n ≤ cfg0.N) (hz : n = 0) : inv_r0 V c n h = Pipeline.ΦA spec0 c := by
  subst hz; rfl

theorem inv_succ_r0 (c : Dev nD) (n : ℕ) (hn : n < cfg0.N) :
    inv_r0 V c (n + 1) hn = iprop(iprop(owns (c : Thread nD τ) accBuf_r0 fullShare (accAt_r0 V c n hn) ∗ bystanders_r0 (F := F) c) ∗ (∃ r, prngReg c r)) := rfl

theorem inv_pos_r0 (c : Dev nD) (n : ℕ) (h : n ≤ cfg0.N) (hz : n ≠ 0) :
    inv_r0 V c n h = iprop(iprop(owns (c : Thread nD τ) accBuf_r0 fullShare (accAt_r0 V c (n - 1) (by omega)) ∗ bystanders_r0 (F := F) c) ∗ (∃ r, prngReg c r)) := by
  cases n with
  | zero => exact absurd rfl hz
  | succ n => rfl

/-! ## The proof data -/

/-- The arrays as the region finds them; after the body each input's buffer at its block and the output's at the tile;
    the invariant above; nothing owed; full shares. -/
def dat_r0 (c : Dev nD) : Dat τ (Elt F) Unit ℕ (UR sig nD τ) ℕ cfg0 c where
  A w := V c (Pipeline.arrRef spec0 w)
  after w t := match w with
    | ⟨0, _⟩ => blk_r0 V c 0 t
    | ⟨1, _⟩ => blk_r0 V c 1 t
    | ⟨2, _⟩ => blk_r0 V c 2 t
    | ⟨3, _⟩ => tileAt_r0 V c t
  Φ t := inv_r0 V c t.val (Nat.le_of_lt_succ t.isLt)
  q _ := fullShare
  owed _ := 0

theorem A_eq_r0 (c : Dev nD) (w : Fin cfg0.W) : (dat_r0 V c).A w = V c (Pipeline.arrRef spec0 w) := by
  dsimp only [dat_r0]

theorem after0_r0 (c : Dev nD) (t : Fin cfg0.N) : (dat_r0 V c).after 0 t = blk_r0 V c 0 t := by dsimp only [dat_r0]
theorem after1_r0 (c : Dev nD) (t : Fin cfg0.N) : (dat_r0 V c).after 1 t = blk_r0 V c 1 t := by dsimp only [dat_r0]
theorem after2_r0 (c : Dev nD) (t : Fin cfg0.N) : (dat_r0 V c).after 2 t = blk_r0 V c 2 t := by dsimp only [dat_r0]
theorem after3_r0 (c : Dev nD) (t : Fin cfg0.N) : (dat_r0 V c).after 3 t = tileAt_r0 V c t := by dsimp only [dat_r0]

theorem inv_castSucc_r0 (c : Dev nD) (t : Fin cfg0.N) :
    (dat_r0 V c).Φ t.castSucc = inv_r0 V c t.val (Nat.le_of_lt t.isLt) := by
  dsimp only [dat_r0]; simp only [Fin.coe_castSucc]

/-- An input's staging buffer holds its block at every point, whether or not the point fetched it: unfetched, the block
    index has not moved since the fetch. -/
theorem before0_r0 (c : Dev nD) (t : Fin cfg0.N) (d) : (dat_r0 V c).before 0 t d = blk_r0 V c 0 t :=
  ((dat_r0 V c).before_in_eq_fetched 0 rfl (fun _ => rfl) (fun _ _ _ => rfl) (fun t => by rw [after0_r0]; unfold Dat.blockOf blk_r0; rw [A_eq_r0]; try rfl) t d).trans
    (by unfold Dat.fetched Dat.blockOf blk_r0; rw [A_eq_r0]; try rfl)
theorem before1_r0 (c : Dev nD) (t : Fin cfg0.N) (d) : (dat_r0 V c).before 1 t d = blk_r0 V c 1 t :=
  ((dat_r0 V c).before_in_eq_fetched 1 rfl (fun _ => rfl) (fun _ _ _ => rfl) (fun t => by rw [after1_r0]; unfold Dat.blockOf blk_r0; rw [A_eq_r0]; try rfl) t d).trans
    (by unfold Dat.fetched Dat.blockOf blk_r0; rw [A_eq_r0]; try rfl)
theorem before2_r0 (c : Dev nD) (t : Fin cfg0.N) (d) : (dat_r0 V c).before 2 t d = blk_r0 V c 2 t :=
  ((dat_r0 V c).before_in_eq_fetched 2 rfl (fun _ => rfl) (fun _ _ _ => rfl) (fun t => by rw [after2_r0]; unfold Dat.blockOf blk_r0; rw [A_eq_r0]; try rfl) t d).trans
    (by unfold Dat.fetched Dat.blockOf blk_r0; rw [A_eq_r0]; try rfl)

/-! ## The body obligation -/

/-- What the body is called with at point t, -/
def bodyPre_r0 (c : Dev nD) (t : Fin cfg0.N) : sProp 𝕄 :=
  iprop((dat_r0 V c).Φ t.castSucc ∗ (dat_r0 V c).owesAt () t.castSucc
    ∗ (∃ d, owns (c : Thread nD τ) (bufA_r0 t) fullShare ((dat_r0 V c).before 0 t d))
    ∗ (∃ d, owns (c : Thread nD τ) (bufM_r0 t) fullShare ((dat_r0 V c).before 1 t d))
    ∗ (∃ d, owns (c : Thread nD τ) (bufW_r0 t) fullShare ((dat_r0 V c).before 2 t d))
    ∗ (∃ d, owns (c : Thread nD τ) (bufO_r0 t) fullShare ((dat_r0 V c).before 3 t d)))

/-- and what it returns. -/
def bodyPost_r0 (c : Dev nD) (t : Fin cfg0.N) : sProp 𝕄 :=
  iprop((dat_r0 V c).Φ t.succ ∗ (dat_r0 V c).owesAt () t.succ
    ∗ (dat_r0 V c).leavesExact 0 t
    ∗ (dat_r0 V c).leavesExact 1 t
    ∗ (dat_r0 V c).leavesExact 2 t
    ∗ (dat_r0 V c).leavesExact 3 t)

theorem leaves_in0_r0 (c : Dev nD) (t : Fin cfg0.N) :
    (dat_r0 V c).leavesExact 0 t = owns (c : Thread nD τ) (bufA_r0 t) fullShare (blk_r0 V c 0 t) := by
  unfold Dat.leavesExact; rw [live_in0_r0 t, after0_r0]
theorem leaves_in1_r0 (c : Dev nD) (t : Fin cfg0.N) :
    (dat_r0 V c).leavesExact 1 t = owns (c : Thread nD τ) (bufM_r0 t) fullShare (blk_r0 V c 1 t) := by
  unfold Dat.leavesExact; rw [live_in1_r0 t, after1_r0]
theorem leaves_in2_r0 (c : Dev nD) (t : Fin cfg0.N) :
    (dat_r0 V c).leavesExact 2 t = owns (c : Thread nD τ) (bufW_r0 t) fullShare (blk_r0 V c 2 t) := by
  unfold Dat.leavesExact; rw [live_in2_r0 t, after2_r0]

set_option maxHeartbeats 2000000 in
/-- The body at any point: the inputs' buffers hold their blocks; t % 8 says which kind of step the point is; the
    invariant hands over the accumulator at what the point before left (at anything before a first step) and takes it
    back at this point's value; off the last steps the output's buffer goes back as it came. -/
theorem sound_body_r0 (c : Dev nD) (t : Fin cfg0.N) :
    bodyPre_r0 V c t ⊢ wp frame (wpE (defs₀ (F := F)) Variants.none c none) Set.univ (bodyAt0 t) (fun _ => bodyPost_r0 V c t) := by
  unfold bodyPre_r0 bodyPost_r0 bodyAt0
  simp only [before0_r0, before1_r0, before2_r0]
  rw [show (dat_r0 V c).owesAt () t.succ = (dat_r0 V c).owesAt () t.castSucc from rfl]
  rw [show (dat_r0 V c).Φ t.succ = inv_r0 V c (t.val + 1) t.isLt from rfl, inv_succ_r0]
  rw [leaves_in0_r0, leaves_in1_r0, leaves_in2_r0]
  have hN : t.val < 128 := lt_of_lt_of_eq t.isLt (show cfg0.N = 128 from N_0)
  by_cases h0 : t.val % 8 = 0
  · -- a first step
    have hf : isFirst_r0 (grid0.coords t) := (isFirst_iff_r0 t).mpr h0
    have hl : ¬isLast_r0 (grid0.coords t) := fun h => by have := (isLast_iff_r0 t).mp h; omega
    rw [Dat.leavesExact_idle (dat_r0 V c) 3 t (idle_out_r0 t hl) (noFlush_out_r0 t hl), accAt_first_r0 V c t h0]
    have hΦ : (dat_r0 V c).Φ t.castSucc ⊢ (iprop(iprop((∃ d, owns (c : Thread nD τ) accBuf_r0 fullShare d) ∗ bystanders_r0 (F := F) c) ∗ (∃ r, prngReg c r)) : sProp 𝕄) := by
      rw [inv_castSucc_r0]
      by_cases hz : t.val = 0
      · rw [inv_zero_r0 V c _ _ hz, classInv_eq_r0]
      · rw [inv_pos_r0 V c _ _ hz]
        iintro ⟨⟨HS, HB⟩, Hg⟩
        isplitr [Hg]
        · isplitl [HS]
          · iexists _; iexact HS
          iexact HB
        iexact Hg
    iintro ⟨HΦ, Ho, ⟨%d0, H0⟩, ⟨%d1, H1⟩, ⟨%d2, H2⟩, H3⟩
    ihave HΦ' := hΦ $$ HΦ
    icases HΦ' with ⟨⟨HS, HB⟩, Hg⟩
    iapply (run_first_r0 c (grid0.coords t) _ _ _ _ (bufW_r0 t) (bufW_whole_r0 t) (bufO_r0 t) (bufO_whole_r0 t) _ _ hf hl (blkA_r0 V c t) (blkM_r0 V c t) Set.univ _)
    isplitl [H0]; · iexact H0
    isplitl [H1]; · iexact H1
    isplitl [HS]; · iexact HS
    iintro ⟨H0, H1, HS⟩
    isplitl [HS HB Hg]
    · isplitr [Hg]
      · isplitl [HS]; · iexact HS
        iexact HB
      iexact Hg
    isplitl [Ho]; · iexact Ho
    isplitl [H0]; · iexact H0
    isplitl [H1]; · iexact H1
    isplitl [H2]; · iexact H2
    iexact H3
  · have hf : ¬isFirst_r0 (grid0.coords t) := fun h => h0 ((isFirst_iff_r0 t).mp h)
    have hz : t.val ≠ 0 := fun e => h0 (by rw [e])
    rw [inv_castSucc_r0, inv_pos_r0 V c _ _ hz, accAt_next_r0 V c t h0]
    by_cases h7 : t.val % 8 = 7
    · -- a last step
      have hl : isLast_r0 (grid0.coords t) := (isLast_iff_r0 t).mpr h7
      rw [show (dat_r0 V c).leavesExact 3 t = owns (c : Thread nD τ) (bufO_r0 t) fullShare (tileAt_r0 V c t) from by
        unfold Dat.leavesExact; rw [live_out_r0 t hl, after3_r0]]
      unfold tileAt_r0
      rw [accAt_next_r0 V c t h0]
      iintro ⟨⟨⟨HS, HB⟩, Hg⟩, Ho, ⟨%d0, H0⟩, ⟨%d1, H1⟩, ⟨%d2, H2⟩, ⟨%d3, H3⟩⟩
      iapply (run_last_r0 c (grid0.coords t) _ _ _ _ _ _ _ _ _ _ hf hl (blkA_r0 V c t) (blkM_r0 V c t) (blkW_r0 V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HB Hg]
      · isplitr [Hg]
        · isplitl [HS]; · iexact HS
          iexact HB
        iexact Hg
      isplitl [Ho]; · iexact Ho
      isplitl [H0]; · iexact H0
      isplitl [H1]; · iexact H1
      isplitl [H2]; · iexact H2
      iexact H3
    · -- a middle step
      have hl : ¬isLast_r0 (grid0.coords t) := fun h => h7 ((isLast_iff_r0 t).mp h)
      rw [Dat.leavesExact_idle (dat_r0 V c) 3 t (idle_out_r0 t hl) (noFlush_out_r0 t hl)]
      iintro ⟨⟨⟨HS, HB⟩, Hg⟩, Ho, ⟨%d0, H0⟩, ⟨%d1, H1⟩, ⟨%d2, H2⟩, H3⟩
      iapply (run_mid_r0 c (grid0.coords t) _ _ _ _ (bufW_r0 t) (bufW_whole_r0 t) (bufO_r0 t) (bufO_whole_r0 t) _ _ hf hl (blkA_r0 V c t) (blkM_r0 V c t) _ Set.univ _)
      isplitl [H0]; · iexact H0
      isplitl [H1]; · iexact H1
      isplitl [HS]; · iexact HS
      iintro ⟨H0, H1, HS⟩
      isplitl [HS HB Hg]
      · isplitr [Hg]
        · isplitl [HS]; · iexact HS
          iexact HB
        iexact Hg
      isplitl [Ho]; · iexact Ho
      isplitl [H0]; · iexact H0
      isplitl [H1]; · iexact H1
      isplitl [H2]; · iexact H2
      iexact H3

/-- The library's body obligation, at every point. -/
theorem body_obligation_r0 (c : Dev nD) : BodyObligation (dat_r0 (F := F) V c) (defs₀ (F := F)) Variants.none () Set.univ := fun t => by
  rw [bigSep_W0, bigSep_W0]
  exact sound_body_r0 V c t

/-! ## The invariant at the region's ends -/

/-- What the region hands the body is the invariant before the first point. -/
theorem inv_in_r0 (c : Dev nD) : Pipeline.ΦA spec0 c ⊢ (dat_r0 V c).Φ 0 := by
  rw [show (dat_r0 V c).Φ 0 = inv_r0 V c 0 (Nat.zero_le _) from rfl, inv_zero_r0 V c 0 _ rfl]

/-- After the last point the invariant gives back what the region took: the accumulator's value is forgotten. -/
theorem inv_out_r0 (c : Dev nD) : (dat_r0 V c).Φ (Fin.last cfg0.N) ⊢ Pipeline.ΦA spec0 c := by
  have hN : cfg0.N = 128 := N_0
  rw [show (dat_r0 V c).Φ (Fin.last cfg0.N) = inv_r0 V c (Fin.last cfg0.N).val (Nat.le_of_lt_succ (Fin.last cfg0.N).isLt) from rfl,
    inv_pos_r0 V c _ _ (by rw [Fin.val_last]; omega), classInv_eq_r0]
  iintro ⟨⟨HS, HB⟩, Hg⟩
  isplitr [Hg]
  · isplitl [HS]
    · iexists _; iexact HS
    iexact HB
  iexact Hg

end Cert.Kernel.Hand

end
-- ==== Proof.Kernel.Region1.Base.lean ====
/-
  An aggregate-and-project call (pipeline 1 of the program): what every grid point shares.

  The grid is 16 row blocks by 8 reduction steps; point t is row block t / 8 at step t % 8. The body
  has two guards on the step alone: the FIRST step (t % 8 = 0) clears the accumulator before adding,
  the LAST step (t % 8 = 7) projects the accumulator through the weight block (the program's first call then
  clamps at zero) and stores the output tile. No step is both. The three input windows are read at every point; the output
  window is stored at the last steps only, and only there is its block written back.

  The accumulator is a scratch buffer of the call's own. The region's scoped buffers that no window of
  this call stages are that scratch and the other call's eight staging buffers and scratch; the latter
  ride along untouched.
-/
import proofs.«107928_j84456236909326_1_alg».proof.Proof.Gen.Kernel.Launch
import proofs.«107928_j84456236909326_1_alg».proof.Proof.Gen.Kernel.Skeleton
import proofs.«107928_j84456236909326_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two guards, in closed form over the grid -/

/-- The guard of the clearing branch, from the grid coordinates: the reduction step is 0. -/
abbrev isFirst_r1 (i : grid1.Coords) : Prop :=
  (Scalar.cmpi .ne (Scalar.extui (Scalar.cmpi .eq (BitVec.ofNat 32 (i 1).val) 0#32)) 0#32) = 1#1
/-- It holds exactly at the points t with t % 8 = 0. -/
theorem isFirst_iff_r1 : ∀ t : Fin cfg1.N, isFirst_r1 (grid1.coords t) ↔ t.val % 8 = 0 :=
  (by decide +kernel : ∀ t : Fin grid1.N, isFirst_r1 (grid1.coords t) ↔ t.val % 8 = 0)

/-- The guard of the projecting branch: the reduction step is 7. -/
abbrev isLast_r1 (i : grid1.Coords) : Prop := k1_cond2 i = 1#1
/-- It holds exactly at the points t with t % 8 = 7. -/
theorem isLast_iff_r1 : ∀ t : Fin cfg1.N, isLast_r1 (grid1.coords t) ↔ t.val % 8 = 7 :=
  (by decide +kernel : ∀ t : Fin grid1.N, isLast_r1 (grid1.coords t) ↔ t.val % 8 = 7)

/-! ## Where the windows are live -/

/-- The three input windows are read at every point. -/
theorem live_in0_r1 : ∀ t : Fin cfg1.N, cfg1.idle 0 (grid1.coords t) = false := by decide +kernel
theorem live_in1_r1 : ∀ t : Fin cfg1.N, cfg1.idle 1 (grid1.coords t) = false := by decide +kernel
theorem live_in2_r1 : ∀ t : Fin cfg1.N, cfg1.idle 2 (grid1.coords t) = false := by decide +kernel
/-- Off the last steps the body stores nothing into the output tile, -/
theorem idle_out_r1 : ∀ t : Fin cfg1.N, ¬isLast_r1 (grid1.coords t) → cfg1.idle 3 (grid1.coords t) = true := by decide +kernel
/-- and its block is not written back there; -/
theorem noFlush_out_r1 : ∀ t : Fin cfg1.N, ¬isLast_r1 (grid1.coords t) → (cfg1.win 3).flush t = false := by decide +kernel
/-- at a last step it is stored. -/
theorem live_out_r1 : ∀ t : Fin cfg1.N, isLast_r1 (grid1.coords t) → cfg1.idle 3 (grid1.coords t) = false := by decide +kernel

/-! ## The buffers the body is called on -/

/-- The staging buffer each window is on at point t, as the pipeline passes it, and that it is a whole buffer. -/
abbrev bufA_r1 (t : Fin cfg1.N) : Memref sig .tc .vmem S1024x2048 .f32 := win1_0.stage (cfg1.slots t 0)
abbrev bufA_whole_r1 (t : Fin cfg1.N) : (bufA_r1 t).IsWhole := hstage1_0 ((cfg1.slots t 0).cast nbuf1_0)
abbrev bufM_r1 (t : Fin cfg1.N) : Memref sig .tc .vmem S2048x128 .f32 := win1_1.stage (cfg1.slots t 1)
abbrev bufM_whole_r1 (t : Fin cfg1.N) : (bufM_r1 t).IsWhole := hstage1_1 ((cfg1.slots t 1).cast nbuf1_1)
abbrev bufW_r1 (t : Fin cfg1.N) : Memref sig .tc .vmem S128x128 .f32 := win1_2.stage (cfg1.slots t 2)
abbrev bufW_whole_r1 (t : Fin cfg1.N) : (bufW_r1 t).IsWhole := hstage1_2 ((cfg1.slots t 2).cast nbuf1_2)
abbrev bufO_r1 (t : Fin cfg1.N) : Memref sig .tc .vmem S1024x128 .f32 := win1_3.stage (cfg1.slots t 3)
abbrev bufO_whole_r1 (t : Fin cfg1.N) : (bufO_r1 t).IsWhole := hstage1_3 ((cfg1.slots t 3).cast nbuf1_3)
/-- The accumulator: a whole scoped buffer of the call's own. -/
abbrev accBuf_r1 : Memref sig .tc .vmem S1024x128 .f32 := Memref.whole cc1_scratch0

/-- The scoped buffers of the core that this call neither stages nor accumulates in (the other call's), each
    whole at some contents: untouched by this region. -/
def bystanders_r1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The core's scoped buffers that no window of this call stages, listed with the accumulator first. -/
theorem scopedRest_split_r1 (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f)) :=
  Pipeline.scopedRest_eq_of_list spec1 c [cc1_scratch0, cc0_stg0_0, cc0_stg0_1, cc0_stg1_0, cc0_stg1_1, cc0_stg2_0, cc0_stg3_0, cc0_stg3_1, cc0_scratch0] (by decide) (by decide)

/-- What the region hands its body besides the windows: the accumulator at some contents, the bystanders, and the
    generator register at some state. -/
theorem classInv_eq_r1 (c : Dev nD) :
    (Pipeline.ΦA spec1 c : sProp 𝕄)
      = iprop(iprop((∃ d, owns (c : Thread nD τ) accBuf_r1 fullShare d) ∗ bystanders_r1 (F := F) c) ∗ (∃ r, prngReg c r)) := by
  unfold Pipeline.ΦA bystanders_r1; rw [scopedRest_split_r1]; simp only [accBuf_r1, owns_whole]; try rfl

end Cert.Kernel.Hand

end
-- ==== Proof.Kernel.Region1.Runs.lean ====
/-
  The body of an aggregate-and-project call (pipeline 1), run once per kind of reduction step.

  On whole staging buffers holding an adjacency block `xa` (1024 x 2048) and a feature block `xm` (2048 x 128):
  * at a FIRST step the accumulator is overwritten with zeros, read back, and overwritten with
    zeros + xa·xm, so it ends at `k1_pay2 xa xm k1_pay1`;
  * at a MIDDLE step, holding `xs`, it ends at xs + xa·xm, `k1_pay2 xa xm xs`;
  * at a LAST step it ends likewise at acc = xs + xa·xm, and the output tile is overwritten with
    `k1_pay3 acc xw`: acc projected through the weight block `xw` (in the program's first call then clamped at zero).
  Every store is through the whole buffer, so what a buffer holds afterwards is the last payload stored
  into it, and every load reads what its buffer holds. The inputs' buffers are handed back as found.
-/
import proofs.«107928_j84456236909326_1_alg».proof.Proof.Kernel.Region1.Base
import proofs.«107928_j84456236909326_1_alg».proof.Proof.LibWholeStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every access of the body: zero on both axes. -/
theorem zeroOff_r1 : (![0, 0] : Fin 2 → Nat) = fun _ => 0 := by funext a; fin_cases a <;> rfl

set_option maxHeartbeats 1000000 in
/-- A first step: the accumulator, whatever it held, ends at zeros + xa·xm. -/
theorem run_first_r1 (c : Dev nD) (i : grid1.Coords)
    (arg2 : Memref sig .tc .vmem S1024x2048 .f32) (harg2 : arg2.IsWhole) (arg3 : Memref sig .tc .vmem S2048x128 .f32) (harg3 : arg3.IsWhole)
    (arg4 : Memref sig .tc .vmem S128x128 .f32) (harg4 : arg4.IsWhole) (arg5 : Memref sig .tc .vmem S1024x128 .f32) (harg5 : arg5.IsWhole)
    (arg6 : Memref sig .tc .vmem S1024x128 .f32) (harg6 : arg6.IsWhole)
    (hfirst : isFirst_r1 i) (hlast : ¬isLast_r1 i)
    (xa : Vec F S1024x2048 .f32) (xm : Vec F S2048x128 .f32) (E : Set ℕ) (K : PUnit → sProp 𝕄) :
    iprop(owns (c : Thread nD τ) arg2 fullShare xa ∗ owns (c : Thread nD τ) arg3 fullShare xm ∗ (∃ d, owns (c : Thread nD τ) arg6 fullShare d)
        ∗ (iprop(owns (c : Thread nD τ) arg2 fullShare xa ∗ owns (c : Thread nD τ) arg3 fullShare xm
            ∗ owns (c : Thread nD τ) arg6 fullShare (k1_pay2 xa xm k1_pay1)) -∗ K ⟨⟩))
      ⊢ wp frame (wpE (defs₀ (F := F)) Variants.none c none) E (cc1__agg_linear_kernel i arg2 harg2 arg3 harg3 arg4 harg4 arg5 harg5 arg6 harg6) K := by
  simp only [cc1__agg_linear_kernel_eq_skeleton]; unfold cc1__agg_linear_kernel_skel
  unfold owns
  iintro ⟨⟨%f2, %hf2, H2⟩, ⟨%f3, %hf3, H3⟩, ⟨%d6, %f6, -, H6⟩, Hk⟩
  obtain rfl := harg2.eq_unread hf2; obtain rfl := harg3.eq_unread hf3
  sl_exec (disch := first | exact hfirst | exact hlast)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H6
  ipureintro
  have hz := zeroOff_r1
  refine (Cert.Lib.read_writes_cons_whole (S := S1024x128) arg6.view f6 hz inb_S1024x128_S1024x128_0_0 _ _).trans ?_
  have hA : View.readAt (Elt F) arg2.view (Rect.unit ![0, 0] S1024x2048.size inb_S1024x2048_S1024x2048_0_0).toLoadRect (harg2.unread xa) = xa := by
    rw [View.readAt_eq_ld, harg2.read_unread]; exact View.ld_unit_zero (S := S1024x2048) hz _ xa
  have hB : View.readAt (Elt F) arg3.view (Rect.unit ![0, 0] S2048x128.size inb_S2048x128_S2048x128_0_0).toLoadRect (harg3.unread xm) = xm := by
    rw [View.readAt_eq_ld, harg3.read_unread]; exact View.ld_unit_zero (S := S2048x128) hz _ xm
  refine congr (congr (congrArg (k1_pay2 (F := F)) hA) hB) ?_
  sl_unfold_words
  exact View.readCov_unit_zero (S := S1024x128) arg6.view hz _ _

set_option maxHeartbeats 1000000 in
/-- A middle step: the accumulator goes from xs to xs + xa·xm. -/
theorem run_mid_r1 (c : Dev nD) (i : grid1.Coords)
    (arg2 : Memref sig .tc .vmem S1024x2048 .f32) (harg2 : arg2.IsWhole) (arg3 : Memref sig .tc .vmem S2048x128 .f32) (harg3 : arg3.IsWhole)
    (arg4 : Memref sig .tc .vmem S128x128 .f32) (harg4 : arg4.IsWhole) (arg5 : Memref sig .tc .vmem S1024x128 .f32) (harg5 : arg5.IsWhole)
    (arg6 : Memref sig .tc .vmem S1024x128 .f32) (harg6 : arg6.IsWhole)
    (hfirst : ¬isFirst_r1 i) (hlast : ¬isLast_r1 i)
    (xa : Vec F S1024x2048 .f32) (xm : Vec F S2048x128 .f32) (xs : Vec F S1024x128 .f32) (E : Set ℕ) (K : PUnit → sProp 𝕄) :
    iprop(owns (c : Thread nD τ) arg2 fullShare xa ∗ owns (c : Thread nD τ) arg3 fullShare xm ∗ owns (c : Thread nD τ) arg6 fullShare xs
        ∗ (iprop(owns (c : Thread nD τ) arg2 fullShare xa ∗ owns (c : Thread nD τ) arg3 fullShare xm
            ∗ owns (c : Thread nD τ) arg6 fullShare (k1_pay2 xa xm xs)) -∗ K ⟨⟩))
      ⊢ wp frame (wpE (defs₀ (F := F)) Variants.none c none) E (cc1__agg_linear_kernel i arg2 harg2 arg3 harg3 arg4 harg4 arg5 harg5 arg6 harg6) K := by
  simp only [cc1__agg_linear_kernel_eq_skeleton]; unfold cc1__agg_linear_kernel_skel
  unfold owns
  iintro ⟨⟨%f2, %hf2, H2⟩, ⟨%f3, %hf3, H3⟩, ⟨%f6, %hf6, H6⟩, Hk⟩
  obtain rfl := harg2.eq_unread hf2; obtain rfl := harg3.eq_unread hf3; obtain rfl := harg6.eq_unread hf6
  sl_exec (disch := first | exact hfirst | exact hlast)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H6
  ipureintro
  have hz := zeroOff_r1
  refine (Cert.Lib.read_writes_cons_whole (S := S1024x128) arg6.view _ hz inb_S1024x128_S1024x128_0_0 _ _).trans ?_
  have hA : View.readAt (Elt F) arg2.view (Rect.unit ![0, 0] S1024x2048.size inb_S1024x2048_S1024x2048_0_0).toLoadRect (harg2.unread xa) = xa := by
    rw [View.readAt_eq_ld, harg2.read_unread]; exact View.ld_unit_zero (S := S1024x2048) hz _ xa
  have hB : View.readAt (Elt F) arg3.view (Rect.unit ![0, 0] S2048x128.size inb_S2048x128_S2048x128_0_0).toLoadRect (harg3.unread xm) = xm := by
    rw [View.readAt_eq_ld, harg3.read_unread]; exact View.ld_unit_zero (S := S2048x128) hz _ xm
  refine congr (congr (congrArg (k1_pay2 (F := F)) hA) hB) ?_
  sl_unfold_words
  rw [View.readAt_eq_ld, harg6.read_unread]; exact View.ld_unit_zero (S := S1024x128) hz _ xs

set_option maxHeartbeats 1000000 in
/-- A last step: the accumulator goes from xs to acc = xs + xa·xm, and the output tile, whatever it held, ends at
    the projection of acc through xw. -/
theorem run_last_r1 (c : Dev nD) (i : grid1.Coords)
    (arg2 : Memref sig .tc .vmem S1024x2048 .f32) (harg2 : arg2.IsWhole) (arg3 : Memref sig .tc .vmem S2048x128 .f32) (harg3 : arg3.IsWhole)
    (arg4 : Memref sig .tc .vmem S128x128 .f32) (harg4 : arg4.IsWhole) (arg5 : Memref sig .tc .vmem S1024x128 .f32) (harg5 : arg5.IsWhole)
    (arg6 : Memref sig .tc .vmem S1024x128 .f32) (harg6 : arg6.IsWhole)
    (hfirst : ¬isFirst_r1 i) (hlast : isLast_r1 i)
    (xa : Vec F S1024x2048 .f32) (xm : Vec F S2048x128 .f32) (xw : Vec F S128x128 .f32) (xs : Vec F S1024x128 .f32) (E : Set ℕ) (K : PUnit → sProp 𝕄) :
    iprop(owns (c : Thread nD τ) arg2 fullShare xa ∗ owns (c : Thread nD τ) arg3 fullShare xm ∗ owns (c : Thread nD τ) arg4 fullShare xw
        ∗ (∃ d, owns (c : Thread nD τ) arg5 fullShare d) ∗ owns (c : Thread nD τ) arg6 fullShare xs
        ∗ (iprop(owns (c : Thread nD τ) arg2 fullShare xa ∗ owns (c : Thread nD τ) arg3 fullShare xm ∗ owns (c : Thread nD τ) arg4 fullShare xw
            ∗ owns (c : Thread nD τ) arg5 fullShare (k1_pay3 (k1_pay2 xa xm xs) xw)
            ∗ owns (c : Thread nD τ) arg6 fullShare (k1_pay2 xa xm xs)) -∗ K ⟨⟩))
      ⊢ wp frame (wpE (defs₀ (F := F)) Variants.none c none) E (cc1__agg_linear_kernel i arg2 harg2 arg3 harg3 arg4 harg4 arg5 harg5 arg6 harg6) K := by
  simp only [cc1__agg_linear_kernel_eq_skeleton]; unfold cc1__agg_linear_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4; obtain rfl := harg6.eq_unread hf6
  sl_exec (disch := first | exact hfirst | exact hlast)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  have hz := zeroOff_r1
  have hA : View.readAt (Elt F) arg2.view (Rect.unit ![0, 0] S1024x2048.size inb_S1024x2048_S1024x2048_0_0).toLoadRect (harg2.unread xa) = xa := by
    rw [View.readAt_eq_ld, harg2.read_unread]; exact View.ld_unit_zero (S := S1024x2048) hz _ xa
  have hB : View.readAt (Elt F) arg3.view (Rect.unit ![0, 0] S2048x128.size inb_S2048x128_S2048x128_0_0).toLoadRect (harg3.unread xm) = xm := by
    rw [View.readAt_eq_ld, harg3.read_unread]; exact View.ld_unit_zero (S := S2048x128) hz _ xm
  have hS : View.readAt (Elt F) arg6.view (Rect.unit ![0, 0] S1024x128.size inb_S1024x128_S1024x128_0_0).toLoadRect (harg6.unread xs) = xs := by
    rw [View.readAt_eq_ld, harg6.read_unread]; exact View.ld_unit_zero (S := S1024x128) hz _ xs
  have hW : View.readAt (Elt F) arg4.view (Rect.unit ![0, 0] S128x128.size inb_S128x128_S128x128_0_0).toLoadRect (harg4.unread xw) = xw := by
    rw [View.readAt_eq_ld, harg4.read_unread]; exact View.ld_unit_zero (S := S128x128) hz _ xw
  isplitl [H5]
  · iexists _; isplitr
    swap; · iexact H5
    ipureintro
    refine (Cert.Lib.read_writes_cons_whole (S := S1024x128) arg5.view f5 hz inb_S1024x128_S1024x128_0_0 _ _).trans ?_
    refine congr (congrArg (k1_pay3 (F := F)) ?_) hW
    sl_unfold_words
    exact (View.readCov_unit_zero (S := S1024x128) arg6.view hz _ _).trans (congr (congr (congrArg (k1_pay2 (F := F)) hA) hB) hS)
  iexists _; isplitr
  swap; · iexact H6
  ipureintro
  sl_unfold_words
  refine (Cert.Lib.read_writes_cons_whole (S := S1024x128) arg6.view _ hz inb_S1024x128_S1024x128_0_0 _ _).trans ?_
  exact congr (congr (congrArg (k1_pay2 (F := F)) hA) hB) hS

end Cert.Kernel.Hand

end
-- ==== Proof.Kernel.Region1.Data.lean ====
/-
  An aggregate-and-project call (pipeline 1): what its buffers hold point by point, and the body obligation.

  Write A(t), M(t), W(t) for the blocks of the adjacency, the features and the weights that point t stages, read off
  the arrays as the region finds them. The accumulator after point n is

      acc(n) = 0 + A(n)·M(n)            when n % 8 = 0   (a row block's first reduction step),
      acc(n) = acc(n - 1) + A(n)·M(n)   otherwise,

  so after the last step of a row block it is the sum over the eight column blocks. The output tile after a last
  step t is acc(t)·W(t), in the program's first call clamped at zero. Between points the region's invariant holds the accumulator at acc of the point
  before (at anything before the first point), the other call's scoped buffers at anything, and the generator register.
-/
import proofs.«107928_j84456236909326_1_alg».proof.Proof.Kernel.Region1.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: every statement below is made at this parameter
variable (V : (c : Dev nD) → (b : Ref sig .tc) → Buf (Elt F) ((c : Thread nD τ).loc b))

/-! ## The blocks the windows stage -/

/-- Window w's block at point t, read off its array as the region finds it. -/
def blk_r1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block, the feature block and the weight block of point t, at their literal shapes. -/
abbrev blkA_r1 (c : Dev nD) (t : Fin cfg1.N) : Vec F S1024x2048 .f32 := blk_r1 V c 0 t
abbrev blkM_r1 (c : Dev nD) (t : Fin cfg1.N) : Vec F S2048x128 .f32 := blk_r1 V c 1 t
abbrev blkW_r1 (c : Dev nD) (t : Fin cfg1.N) : Vec F S128x128 .f32 := blk_r1 V c 2 t

/-! ## The accumulator and the output tile, point by point -/

/-- The accumulator after the body at point n: restarted from zeros at a first step, else what point n - 1 left plus
    this point's product. -/
def accAt_r1 (c : Dev nD) : (n : ℕ) → n < cfg1.N → Vec F S1024x128 .f32
  | 0, h => k1_pay2 (blkA_r1 V c ⟨0, h⟩) (blkM_r1 V c ⟨0, h⟩) k1_pay1
  | n + 1, h =>
    if (n + 1) % 8 = 0 then k1_pay2 (blkA_r1 V c ⟨n + 1, h⟩) (blkM_r1 V c ⟨n + 1, h⟩) k1_pay1
    else k1_pay2 (blkA_r1 V c ⟨n + 1, h⟩) (blkM_r1 V c ⟨n + 1, h⟩) (accAt_r1 c n (Nat.lt_of_succ_lt h))

/-- At a first step the accumulator restarts. -/
theorem accAt_first_r1 (c : Dev nD) (t : Fin cfg1.N) (h : t.val % 8 = 0) :
    accAt_r1 V c t.val t.isLt = k1_pay2 (blkA_r1 V c t) (blkM_r1 V c t) k1_pay1 := by
  obtain ⟨n, hn⟩ := t
  cases n with
  | zero => rfl
  | succ n => exact if_pos h

/-- At any other step it adds onto what the point before left. -/
theorem accAt_next_r1 (c : Dev nD) (t : Fin cfg1.N) (h : ¬t.val % 8 = 0) :
    accAt_r1 V c t.val t.isLt
      = k1_pay2 (blkA_r1 V c t) (blkM_r1 V c t) (accAt_r1 V c (t.val - 1) (Nat.lt_of_le_of_lt (Nat.sub_le _ _) t.isLt)) := by
  obtain ⟨n, hn⟩ := t
  cases n with
  | zero => exact absurd (Nat.zero_mod _) h
  | succ n => exact if_neg h

/-- The output tile the body stores at a last step t: the accumulator projected through the weight block (in the
    program's first call then clamped at zero). (At the other points nothing is stored and the name is not consulted.) -/
def tileAt_r1 (c : Dev nD) (t : Fin cfg1.N) : Vec F S1024x128 .f32 :=
  k1_pay3 (accAt_r1 V c t.val t.isLt) (blkW_r1 V c t)

/-! ## The invariant between points -/

/-- Before point n: at n = 0 what the region hands over (the accumulator at anything); afterwards the accumulator at
    what point n - 1 left, the bystanders, and the generator register at some state. -/
def inv_r1 (c : Dev nD) : (n : ℕ) → n ≤ cfg1.N → sProp 𝕄
  | 0, _ => Pipeline.ΦA spec1 c
  | n + 1, hn => iprop(iprop(owns (c : Thread nD τ) accBuf_r1 fullShare (accAt_r1 V c n hn) ∗ bystanders_r1 (F := F) c) ∗ (∃ r, prngReg c r))

theorem inv_zero_r1 (c : Dev nD) (n : ℕ) (h : n ≤ cfg1.N) (hz : n = 0) : inv_r1 V c n h = Pipeline.ΦA spec1 c := by
  subst hz; rfl

theorem inv_succ_r1 (c : Dev nD) (n : ℕ) (hn : n < cfg1.N) :
    inv_r1 V c (n + 1) hn = iprop(iprop(owns (c : Thread nD τ) accBuf_r1 fullShare (accAt_r1 V c n hn) ∗ bystanders_r1 (F := F) c) ∗ (∃ r, prngReg c r)) := rfl

theorem inv_pos_r1 (c : Dev nD) (n : ℕ) (h : n ≤ cfg1.N) (hz : n ≠ 0) :
    inv_r1 V c n h = iprop(iprop(owns (c : Thread nD τ) accBuf_r1 fullShare (accAt_r1 V c (n - 1) (by omega)) ∗ bystanders_r1 (F := F) c) ∗ (∃ r, prngReg c r)) := by
  cases n with
  | zero => exact absurd rfl hz
  | succ n => rfl

/-! ## The proof data -/

/-- The arrays as the region finds them; after the body each input's buffer at its block and the output's at the tile;
    the invariant above; nothing owed; full shares. -/
def dat_r1 (c : Dev nD) : Dat τ (Elt F) Unit ℕ (UR sig nD τ) ℕ cfg1 c where
  A w := V c (Pipeline.arrRef spec1 w)
  after w t := match w with
    | ⟨0, _⟩ => blk_r1 V c 0 t
    | ⟨1, _⟩ => blk_r1 V c 1 t
    | ⟨2, _⟩ => blk_r1 V c 2 t
    | ⟨3, _⟩ => tileAt_r1 V c t
  Φ t := inv_r1 V c t.val (Nat.le_of_lt_succ t.isLt)
  q _ := fullShare
  owed _ := 0

theorem A_eq_r1 (c : Dev nD) (w : Fin cfg1.W) : (dat_r1 V c).A w = V c (Pipeline.arrRef spec1 w) := by
  dsimp only [dat_r1]

theorem after0_r1 (c : Dev nD) (t : Fin cfg1.N) : (dat_r1 V c).after 0 t = blk_r1 V c 0 t := by dsimp only [dat_r1]
theorem after1_r1 (c : Dev nD) (t : Fin cfg1.N) : (dat_r1 V c).after 1 t = blk_r1 V c 1 t := by dsimp only [dat_r1]
theorem after2_r1 (c : Dev nD) (t : Fin cfg1.N) : (dat_r1 V c).after 2 t = blk_r1 V c 2 t := by dsimp only [dat_r1]
theorem after3_r1 (c : Dev nD) (t : Fin cfg1.N) : (dat_r1 V c).after 3 t = tileAt_r1 V c t := by dsimp only [dat_r1]

theorem inv_castSucc_r1 (c : Dev nD) (t : Fin cfg1.N) :
    (dat_r1 V c).Φ t.castSucc = inv_r1 V c t.val (Nat.le_of_lt t.isLt) := by
  dsimp only [dat_r1]; simp only [Fin.coe_castSucc]

/-- An input's staging buffer holds its block at every point, whether or not the point fetched it: unfetched, the block
    index has not moved since the fetch. -/
theorem before0_r1 (c : Dev nD) (t : Fin cfg1.N) (d) : (dat_r1 V c).before 0 t d = blk_r1 V c 0 t :=
  ((dat_r1 V c).before_in_eq_fetched 0 rfl (fun _ => rfl) (fun _ _ _ => rfl) (fun t => by rw [after0_r1]; unfold Dat.blockOf blk_r1; rw [A_eq_r1]; try rfl) t d).trans
    (by unfold Dat.fetched Dat.blockOf blk_r1; rw [A_eq_r1]; try rfl)
theorem before1_r1 (c : Dev nD) (t : Fin cfg1.N) (d) : (dat_r1 V c).before 1 t d = blk_r1 V c 1 t :=
  ((dat_r1 V c).before_in_eq_fetched 1 rfl (fun _ => rfl) (fun _ _ _ => rfl) (fun t => by rw [after1_r1]; unfold Dat.blockOf blk_r1; rw [A_eq_r1]; try rfl) t d).trans
    (by unfold Dat.fetched Dat.blockOf blk_r1; rw [A_eq_r1]; try rfl)
theorem before2_r1 (c : Dev nD) (t : Fin cfg1.N) (d) : (dat_r1 V c).before 2 t d = blk_r1 V c 2 t :=
  ((dat_r1 V c).before_in_eq_fetched 2 rfl (fun _ => rfl) (fun _ _ _ => rfl) (fun t => by rw [after2_r1]; unfold Dat.blockOf blk_r1; rw [A_eq_r1]; try rfl) t d).trans
    (by unfold Dat.fetched Dat.blockOf blk_r1; rw [A_eq_r1]; try rfl)

/-! ## The body obligation -/

/-- What the body is called with at point t, -/
def bodyPre_r1 (c : Dev nD) (t : Fin cfg1.N) : sProp 𝕄 :=
  iprop((dat_r1 V c).Φ t.castSucc ∗ (dat_r1 V c).owesAt () t.castSucc
    ∗ (∃ d, owns (c : Thread nD τ) (bufA_r1 t) fullShare ((dat_r1 V c).before 0 t d))
    ∗ (∃ d, owns (c : Thread nD τ) (bufM_r1 t) fullShare ((dat_r1 V c).before 1 t d))
    ∗ (∃ d, owns (c : Thread nD τ) (bufW_r1 t) fullShare ((dat_r1 V c).before 2 t d))
    ∗ (∃ d, owns (c : Thread nD τ) (bufO_r1 t) fullShare ((dat_r1 V c).before 3 t d)))

/-- and what it returns. -/
def bodyPost_r1 (c : Dev nD) (t : Fin cfg1.N) : sProp 𝕄 :=
  iprop((dat_r1 V c).Φ t.succ ∗ (dat_r1 V c).owesAt () t.succ
    ∗ (dat_r1 V c).leavesExact 0 t
    ∗ (dat_r1 V c).leavesExact 1 t
    ∗ (dat_r1 V c).leavesExact 2 t
    ∗ (dat_r1 V c).leavesExact 3 t)

theorem leaves_in0_r1 (c : Dev nD) (t : Fin cfg1.N) :
    (dat_r1 V c).leavesExact 0 t = owns (c : Thread nD τ) (bufA_r1 t) fullShare (blk_r1 V c 0 t) := by
  unfold Dat.leavesExact; rw [live_in0_r1 t, after0_r1]
theorem leaves_in1_r1 (c : Dev nD) (t : Fin cfg1.N) :
    (dat_r1 V c).leavesExact 1 t = owns (c : Thread nD τ) (bufM_r1 t) fullShare (blk_r1 V c 1 t) := by
  unfold Dat.leavesExact; rw [live_in1_r1 t, after1_r1]
theorem leaves_in2_r1 (c : Dev nD) (t : Fin cfg1.N) :
    (dat_r1 V c).leavesExact 2 t = owns (c : Thread nD τ) (bufW_r1 t) fullShare (blk_r1 V c 2 t) := by
  unfold Dat.leavesExact; rw [live_in2_r1 t, after2_r1]

set_option maxHeartbeats 2000000 in
/-- The body at any point: the inputs' buffers hold their blocks; t % 8 says which kind of step the point is; the
    invariant hands over the accumulator at what the point before left (at anything before a first step) and takes it
    back at this point's value; off the last steps the output's buffer goes back as it came. -/
theorem sound_body_r1 (c : Dev nD) (t : Fin cfg1.N) :
    bodyPre_r1 V c t ⊢ wp frame (wpE (defs₀ (F := F)) Variants.none c none) Set.univ (bodyAt1 t) (fun _ => bodyPost_r1 V c t) := by
  unfold bodyPre_r1 bodyPost_r1 bodyAt1
  simp only [before0_r1, before1_r1, before2_r1]
  rw [show (dat_r1 V c).owesAt () t.succ = (dat_r1 V c).owesAt () t.castSucc from rfl]
  rw [show (dat_r1 V c).Φ t.succ = inv_r1 V c (t.val + 1) t.isLt from rfl, inv_succ_r1]
  rw [leaves_in0_r1, leaves_in1_r1, leaves_in2_r1]
  have hN : t.val < 128 := lt_of_lt_of_eq t.isLt (show cfg1.N = 128 from N_1)
  by_cases h0 : t.val % 8 = 0
  · -- a first step
    have hf : isFirst_r1 (grid1.coords t) := (isFirst_iff_r1 t).mpr h0
    have hl : ¬isLast_r1 (grid1.coords t) := fun h => by have := (isLast_iff_r1 t).mp h; omega
    rw [Dat.leavesExact_idle (dat_r1 V c) 3 t (idle_out_r1 t hl) (noFlush_out_r1 t hl), accAt_first_r1 V c t h0]
    have hΦ : (dat_r1 V c).Φ t.castSucc ⊢ (iprop(iprop((∃ d, owns (c : Thread nD τ) accBuf_r1 fullShare d) ∗ bystanders_r1 (F := F) c) ∗ (∃ r, prngReg c r)) : sProp 𝕄) := by
      rw [inv_castSucc_r1]
      by_cases hz : t.val = 0
      · rw [inv_zero_r1 V c _ _ hz, classInv_eq_r1]
      · rw [inv_pos_r1 V c _ _ hz]
        iintro ⟨⟨HS, HB⟩, Hg⟩
        isplitr [Hg]
        · isplitl [HS]
          · iexists _; iexact HS
          iexact HB
        iexact Hg
    iintro ⟨HΦ, Ho, ⟨%d0, H0⟩, ⟨%d1, H1⟩, ⟨%d2, H2⟩, H3⟩
    ihave HΦ' := hΦ $$ HΦ
    icases HΦ' with ⟨⟨HS, HB⟩, Hg⟩
    iapply (run_first_r1 c (grid1.coords t) _ _ _ _ (bufW_r1 t) (bufW_whole_r1 t) (bufO_r1 t) (bufO_whole_r1 t) _ _ hf hl (blkA_r1 V c t) (blkM_r1 V c t) Set.univ _)
    isplitl [H0]; · iexact H0
    isplitl [H1]; · iexact H1
    isplitl [HS]; · iexact HS
    iintro ⟨H0, H1, HS⟩
    isplitl [HS HB Hg]
    · isplitr [Hg]
      · isplitl [HS]; · iexact HS
        iexact HB
      iexact Hg
    isplitl [Ho]; · iexact Ho
    isplitl [H0]; · iexact H0
    isplitl [H1]; · iexact H1
    isplitl [H2]; · iexact H2
    iexact H3
  · have hf : ¬isFirst_r1 (grid1.coords t) := fun h => h0 ((isFirst_iff_r1 t).mp h)
    have hz : t.val ≠ 0 := fun e => h0 (by rw [e])
    rw [inv_castSucc_r1, inv_pos_r1 V c _ _ hz, accAt_next_r1 V c t h0]
    by_cases h7 : t.val % 8 = 7
    · -- a last step
      have hl : isLast_r1 (grid1.coords t) := (isLast_iff_r1 t).mpr h7
      rw [show (dat_r1 V c).leavesExact 3 t = owns (c : Thread nD τ) (bufO_r1 t) fullShare (tileAt_r1 V c t) from by
        unfold Dat.leavesExact; rw [live_out_r1 t hl, after3_r1]]
      unfold tileAt_r1
      rw [accAt_next_r1 V c t h0]
      iintro ⟨⟨⟨HS, HB⟩, Hg⟩, Ho, ⟨%d0, H0⟩, ⟨%d1, H1⟩, ⟨%d2, H2⟩, ⟨%d3, H3⟩⟩
      iapply (run_last_r1 c (grid1.coords t) _ _ _ _ _ _ _ _ _ _ hf hl (blkA_r1 V c t) (blkM_r1 V c t) (blkW_r1 V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HB Hg]
      · isplitr [Hg]
        · isplitl [HS]; · iexact HS
          iexact HB
        iexact Hg
      isplitl [Ho]; · iexact Ho
      isplitl [H0]; · iexact H0
      isplitl [H1]; · iexact H1
      isplitl [H2]; · iexact H2
      iexact H3
    · -- a middle step
      have hl : ¬isLast_r1 (grid1.coords t) := fun h => h7 ((isLast_iff_r1 t).mp h)
      rw [Dat.leavesExact_idle (dat_r1 V c) 3 t (idle_out_r1 t hl) (noFlush_out_r1 t hl)]
      iintro ⟨⟨⟨HS, HB⟩, Hg⟩, Ho, ⟨%d0, H0⟩, ⟨%d1, H1⟩, ⟨%d2, H2⟩, H3⟩
      iapply (run_mid_r1 c (grid1.coords t) _ _ _ _ (bufW_r1 t) (bufW_whole_r1 t) (bufO_r1 t) (bufO_whole_r1 t) _ _ hf hl (blkA_r1 V c t) (blkM_r1 V c t) _ Set.univ _)
      isplitl [H0]; · iexact H0
      isplitl [H1]; · iexact H1
      isplitl [HS]; · iexact HS
      iintro ⟨H0, H1, HS⟩
      isplitl [HS HB Hg]
      · isplitr [Hg]
        · isplitl [HS]; · iexact HS
          iexact HB
        iexact Hg
      isplitl [Ho]; · iexact Ho
      isplitl [H0]; · iexact H0
      isplitl [H1]; · iexact H1
      isplitl [H2]; · iexact H2
      iexact H3

/-- The library's body obligation, at every point. -/
theorem body_obligation_r1 (c : Dev nD) : BodyObligation (dat_r1 (F := F) V c) (defs₀ (F := F)) Variants.none () Set.univ := fun t => by
  rw [bigSep_W1, bigSep_W1]
  exact sound_body_r1 V c t

/-! ## The invariant at the region's ends -/

/-- What the region hands the body is the invariant before the first point. -/
theorem inv_in_r1 (c : Dev nD) : Pipeline.ΦA spec1 c ⊢ (dat_r1 V c).Φ 0 := by
  rw [show (dat_r1 V c).Φ 0 = inv_r1 V c 0 (Nat.zero_le _) from rfl, inv_zero_r1 V c 0 _ rfl]

/-- After the last point the invariant gives back what the region took: the accumulator's value is forgotten. -/
theorem inv_out_r1 (c : Dev nD) : (dat_r1 V c).Φ (Fin.last cfg1.N) ⊢ Pipeline.ΦA spec1 c := by
  have hN : cfg1.N = 128 := N_1
  rw [show (dat_r1 V c).Φ (Fin.last cfg1.N) = inv_r1 V c (Fin.last cfg1.N).val (Nat.le_of_lt_succ (Fin.last cfg1.N).isLt) from rfl,
    inv_pos_r1 V c _ _ (by rw [Fin.val_last]; omega), classInv_eq_r1]
  iintro ⟨⟨HS, HB⟩, Hg⟩
  isplitr [Hg]
  · isplitl [HS]
    · iexists _; iexact HS
    iexact HB
  iexact Hg

end Cert.Kernel.Hand

end
-- ==== Proof.Kernel.Launch.lean ====
/-
  The whole program as one run: two host transposes, then the two aggregate-and-project calls.

  The unscoped buffers' contents at each boundary are a fold from the launch memory: after the transposes (which write
  only their own results), after call 0 (its output array at what its write-backs leave, everything else as entered),
  after call 1 (likewise). Call 1 is entered at what call 0 left, so its feature operand IS call 0's output. No item
  writes an argument array: each argument reaches the end as launched. The result array is call 1's output array.
-/
import proofs.«107928_j84456236909326_1_alg».proof.Proof.Kernel.Region0.Data
import proofs.«107928_j84456236909326_1_alg».proof.Proof.Kernel.Region1.Data
import proofs.«107928_j84456236909326_1_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch, -/
abbrev cont0 : Dev nD → Valuation τ sig (Elt F) := fun c b => m (c, b)
/-- after the two transposes (call 0's entry), -/
abbrev cont1 : Dev nD → Valuation τ sig (Elt F) := fun c => StableHlo.after hostOps0 (cont0 m c)
/-- the same read at the core's own references: what call 0's proof data take. -/
abbrev entry0 : (c : Dev nD) → (b : Ref sig .tc) → Buf (Elt F) ((c : Thread nD τ).loc b) := fun c b => cont1 m c b
/-- After call 0: its arrays at what the pipeline leaves (the inputs as entered, the output's write-backs folded), every
    other buffer as entered. Call 1 is entered here. -/
def cont2 (c : Dev nD) : Valuation τ sig (Elt F) :=
  Pipeline.withArrays spec0 c (cont1 m c) fun w => (dat_r0 (entry0 m) c).arrAt w cfg0.N
theorem cont2_arr (c : Dev nD) (w : Fin cfg0.W) :
    cont2 m c (Proc.devRef .tc (Pipeline.arrRef spec0 w)) = (dat_r0 (entry0 m) c).arrAt w cfg0.N := by
  unfold cont2; exact Pipeline.withArrays_arr spec0 launch0.win.arr_inj c _ _ w
theorem cont2_of_ne (c : Dev nD) (b : Ref sig .tc) (hb : ∀ w, Pipeline.arrRef spec0 w ≠ b) :
    cont2 m c (Proc.devRef .tc b) = cont1 m c (Proc.devRef .tc b) := by
  unfold cont2; exact Pipeline.withArrays_of_ne spec0 c _ _ b hb
abbrev entry1 : (c : Dev nD) → (b : Ref sig .tc) → Buf (Elt F) ((c : Thread nD τ).loc b) := fun c b => cont2 m c b
theorem arrays_cont2 (c : Dev nD) (w : Fin cfg0.W) : (dat_r0 (entry0 m) c).arrAt w cfg0.N = entry1 m c (Pipeline.arrRef spec0 w) :=
  (cont2_arr m c w).symm
theorem others_cont2 (c : Dev nD) : ∀ b, b ∉ Finset.univ.image (Pipeline.arrRef spec0) → entry1 m c b = entry0 m c b :=
  fun b hb => cont2_of_ne m c b fun w e => hb (Finset.mem_image.mpr ⟨w, Finset.mem_univ _, e⟩)

/-- After call 1. -/
def cont3 (c : Dev nD) : Valuation τ sig (Elt F) :=
  Pipeline.withArrays spec1 c (cont2 m c) fun w => (dat_r1 (entry1 m) c).arrAt w cfg1.N
theorem cont3_arr (c : Dev nD) (w : Fin cfg1.W) :
    cont3 m c (Proc.devRef .tc (Pipeline.arrRef spec1 w)) = (dat_r1 (entry1 m) c).arrAt w cfg1.N := by
  unfold cont3; exact Pipeline.withArrays_arr spec1 launch1.win.arr_inj c _ _ w
theorem cont3_of_ne (c : Dev nD) (b : Ref sig .tc) (hb : ∀ w, Pipeline.arrRef spec1 w ≠ b) :
    cont3 m c (Proc.devRef .tc b) = cont2 m c (Proc.devRef .tc b) := by
  unfold cont3; exact Pipeline.withArrays_of_ne spec1 c _ _ b hb
abbrev exit1 : (c : Dev nD) → (b : Ref sig .tc) → Buf (Elt F) ((c : Thread nD τ).loc b) := fun c b => cont3 m c b
theorem arrays_cont3 (c : Dev nD) (w : Fin cfg1.W) : (dat_r1 (entry1 m) c).arrAt w cfg1.N = exit1 m c (Pipeline.arrRef spec1 w) :=
  (cont3_arr m c w).symm
theorem others_cont3 (c : Dev nD) : ∀ b, b ∉ Finset.univ.image (Pipeline.arrRef spec1) → exit1 m c b = entry1 m c b :=
  fun b hb => cont3_of_ne m c b fun w e => hb (Finset.mem_image.mpr ⟨w, Finset.mem_univ _, e⟩)

/-! ## The proof data family and what rides along -/

/-- Each call's proof data at its entry contents: a literal match on the call. -/
def pdats : (p : Fin 2) → (c : Dev nD) → Dat τ (Elt F) Unit ℕ (UR sig nD τ) ℕ (Pipeline.pin (pcfgs (F := F)) adm p) c
  | ⟨0, _⟩ => fun c => dat_r0 (entry0 m) c
  | ⟨1, _⟩ => fun c => dat_r1 (entry1 m) c
abbrev 𝒱₀ : Variants := Variants.none
/-- No core owes another anything. -/
abbrev L : GSem nD τ sig → Finset Unit := fun _ => ∅
abbrev lv : GSem nD τ sig → Unit → ℕ := fun _ _ => 0
/-- Beside the buffers, through every segment: the generator register at some state and the core owing nothing. -/
abbrev rides (c : Dev nD) : sProp 𝕄 := iprop((∃ r, prngReg c r) ∗ ∃ W, owes (c : Thread nD τ) (0 : CellTallies nD τ sig Unit) W)
/-- The transposes as a segment, from the launch contents. -/
abbrev hostSeg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (cont0 m) rides
/-- The last thread state without the owes: every unscoped buffer at the final contents, the generator register. -/
abbrev finalState (c : Dev nD) : sProp 𝕄 := iprop(StableHlo.held (c : Thread nD τ) (Pipeline.ucRefs τ sig) (cont3 m c) ∗ ∃ r, prngReg c r)

/-! ## The calls as segments -/

-- a library lemma stated over the pinned configuration unifies with the printed one only when unification may unfold
-- plain definitions in a metavariable's type
set_option backward.isDefEq.respectTransparency.types false in
/-- Call 0 as a segment of the program: entered with every unscoped buffer at `cont1`, left with them at `cont2`. Its
    windows' arrays are split out of the unscoped buffers on entry and put back, at what the write-backs leave, on exit;
    the generator register goes into the body's invariant and comes back; nothing is owed; the kernel has no semaphore
    of its own. -/
def call0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation_r0 (entry0 m) c).loose
  hwaits := Pipeline.hwaits_of_owed_zero _ _ _ _ L lv 0 fun _ _ => rfl
  pre c := iprop(StableHlo.held (c : Thread nD τ) (Pipeline.ucRefs τ sig) (cont1 m c) ∗ rides c)
  post c := iprop(StableHlo.held (c : Thread nD τ) (Pipeline.ucRefs τ sig) (cont2 m c) ∗ rides c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (inv_in_r0 (entry0 m) c)
    unfold Pipeline.ΦA
    iintro ⟨Hp, -, Hr⟩
    isplitl [Hr]; · iexact Hr
    iexact Hp
  hout c := by
    rw [Pipeline.ownSems0_none]
    refine BIBase.Entails.trans (inv_out_r0 (entry0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (entry1 m c) ((pdats m 0 c).arrAt · cfg0.N) (arrays_cont2 m c) (others_cont2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 1 as a segment of the program: entered with every unscoped buffer at `cont2`, left with them at `cont3`. Its
    windows' arrays are split out of the unscoped buffers on entry and put back, at what the write-backs leave, on exit;
    the generator register goes into the body's invariant and comes back; nothing is owed; the kernel has no semaphore
    of its own. -/
def call1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation_r1 (entry1 m) c).loose
  hwaits := Pipeline.hwaits_of_owed_zero _ _ _ _ L lv 1 fun _ _ => rfl
  pre c := iprop(StableHlo.held (c : Thread nD τ) (Pipeline.ucRefs τ sig) (cont2 m c) ∗ rides c)
  post c := iprop(finalState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (inv_in_r1 (entry1 m) c)
    unfold Pipeline.ΦA
    iintro ⟨Hp, -, Hr⟩
    isplitl [Hr]; · iexact Hr
    iexact Hp
  hout c := by
    rw [Pipeline.ownSems0_none]
    refine BIBase.Entails.trans (inv_out_r1 (entry1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (arrays_cont3 m c) (others_cont3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's three items in order. -/
abbrev items : List (Pipeline.Seg (pcfgs (F := F)) adm (pdats m) () defs₀ 𝒱₀ L lv) :=
  [ .host (hostSeg0 m), .region (call0 m), .region (call1 m) ]
/-- The program is the run of its items. -/
theorem main_items (c : Dev nD) : main (F := F) c = Pipeline.Seg.run (items m) := (main_chain c).trans (by chain_rfl)

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- From any memory with zero counters every weakly fair execution of the program terminates, nothing faulting, and
    every final memory holds each unscoped buffer of each core at `cont3`: whatever follows from that (`hQ`) holds of it. -/
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = cont3 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (cont0 m c) ∗ rides c)) (Tₙ := finalState m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (cont0 m c)
        from Pipeline.unscopedBufs_held c (cont0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = cont3 m c b)
    (hfin := fun c s' => by
      iintro ⟨⟨Hh, -⟩, HSI⟩
      unfold StableHlo.held
      imodintro
      iapply (pointsTo_read_all (Pipeline.ucRefs τ sig) (fun b => (((c : Thread nD τ)).1, b)) (cont3 m c) s')
      isplitl [Hh] <;> iassumption)
    (hQ := hQ)

/-! ## What the final contents are -/

/-- The transposes write only their own results. -/
theorem cont1_of (c : Dev nD) (r : Ref sig .tc) (h : r ∉ hostOps0_W) : cont1 m c r = cont0 m c r :=
  StableHlo.after_of_writes_sub hostOps0 _ hostOps0_writes h

/-- Each argument array reaches the end as launched. -/
theorem cont3_main_arg0 (c : Dev nD) : cont3 m c (Proc.devRef .tc main_arg0) = m ((c : Thread nD τ).loc main_arg0) :=
  calc cont3 m c (Proc.devRef .tc main_arg0)
    _ = cont2 m c (Proc.devRef .tc main_arg0) := (cont3_arr m c 0).trans (((dat_r1 (entry1 m) c).arrAt_in 0 rfl _).trans (A_eq_r1 (entry1 m) c 0))
    _ = cont1 m c (Proc.devRef .tc main_arg0) := (cont2_arr m c 0).trans (((dat_r0 (entry0 m) c).arrAt_in 0 rfl _).trans (A_eq_r0 (entry0 m) c 0))
    _ = m ((c : Thread nD τ).loc main_arg0) := cont1_of m c main_arg0 (by decide)
theorem cont3_main_arg1 (c : Dev nD) : cont3 m c (Proc.devRef .tc main_arg1) = m ((c : Thread nD τ).loc main_arg1) :=
  calc cont3 m c (Proc.devRef .tc main_arg1)
    _ = cont2 m c (Proc.devRef .tc main_arg1) := cont3_of_ne m c main_arg1 (by decide)
    _ = cont1 m c (Proc.devRef .tc main_arg1) := (cont2_arr m c 1).trans (((dat_r0 (entry0 m) c).arrAt_in 1 rfl _).trans (A_eq_r0 (entry0 m) c 1))
    _ = m ((c : Thread nD τ).loc main_arg1) := cont1_of m c main_arg1 (by decide)
theorem cont3_main_arg2 (c : Dev nD) : cont3 m c (Proc.devRef .tc main_arg2) = m ((c : Thread nD τ).loc main_arg2) :=
  calc cont3 m c (Proc.devRef .tc main_arg2)
    _ = cont2 m c (Proc.devRef .tc main_arg2) := cont3_of_ne m c main_arg2 (by decide)
    _ = cont1 m c (Proc.devRef .tc main_arg2) := cont2_of_ne m c main_arg2 (by decide)
    _ = m ((c : Thread nD τ).loc main_arg2) := cont1_of m c main_arg2 (by decide)
theorem cont3_main_arg3 (c : Dev nD) : cont3 m c (Proc.devRef .tc main_arg3) = m ((c : Thread nD τ).loc main_arg3) :=
  calc cont3 m c (Proc.devRef .tc main_arg3)
    _ = cont2 m c (Proc.devRef .tc main_arg3) := cont3_of_ne m c main_arg3 (by decide)
    _ = cont1 m c (Proc.devRef .tc main_arg3) := cont2_of_ne m c main_arg3 (by decide)
    _ = m ((c : Thread nD τ).loc main_arg3) := cont1_of m c main_arg3 (by decide)

/-- The result array ends at call 1's output array. -/
theorem cont3_main_v3 (c : Dev nD) : cont3 m c (Proc.devRef .tc main_v3) = (dat_r1 (entry1 m) c).arrAt 3 cfg1.N :=
  cont3_arr m c 3

/-- What call 1 is entered with: the adjacency as launched, call 0's output array as its features, the second
    transpose as its weights. -/
theorem entry1_main_arg0 (c : Dev nD) : entry1 m c main_arg0 = m ((c : Thread nD τ).loc main_arg0) :=
  ((cont2_arr m c 0).trans (((dat_r0 (entry0 m) c).arrAt_in 0 rfl _).trans (A_eq_r0 (entry0 m) c 0))).trans (cont1_of m c main_arg0 (by decide))
theorem entry1_main_v2 (c : Dev nD) : entry1 m c main_v2 = (dat_r0 (entry0 m) c).arrAt 3 cfg0.N := cont2_arr m c 3
theorem entry1_main_v1 (c : Dev nD) : entry1 m c main_v1 = entry0 m c main_v1 := cont2_of_ne m c main_v1 (by decide)
/-- What call 0 is entered with: the adjacency and the features as launched. -/
theorem entry0_main_arg0 (c : Dev nD) : entry0 m c main_arg0 = m ((c : Thread nD τ).loc main_arg0) := cont1_of m c main_arg0 (by decide)
theorem entry0_main_arg1 (c : Dev nD) : entry0 m c main_arg1 = m ((c : Thread nD τ).loc main_arg1) := cont1_of m c main_arg1 (by decide)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_all m ρ fun s h c =>
    ⟨(h c _ (mem_uc main_arg0 (by decide))).trans (cont3_main_arg0 m c),
     (h c _ (mem_uc main_arg1 (by decide))).trans (cont3_main_arg1 m c),
     (h c _ (mem_uc main_arg2 (by decide))).trans (cont3_main_arg2 m c),
     (h c _ (mem_uc main_arg3 (by decide))).trans (cont3_main_arg3 m c)⟩

end Cert.Kernel.Hand

end
-- ==== Proof.KernelIdeal.Region0.Base.lean ====
/-
  An aggregate-and-project call (pipeline 0 of the program): what every grid point shares.

  The grid is 16 row blocks by 8 reduction steps; point t is row block t / 8 at step t % 8. The body
  has two guards on the step alone: the FIRST step (t % 8 = 0) clears the accumulator before adding,
  the LAST step (t % 8 = 7) projects the accumulator through the weight block (the program's first call then
  clamps at zero) and stores the output tile. No step is both. The three input windows are read at every point; the output
  window is stored at the last steps only, and only there is its block written back.

  The accumulator is a scratch buffer of the call's own. The region's scoped buffers that no window of
  this call stages are that scratch and the other call's eight staging buffers and scratch; the latter
  ride along untouched.
-/
import proofs.«107928_j84456236909326_1_alg».proof.Proof.Gen.KernelIdeal.Launch
import proofs.«107928_j84456236909326_1_alg».proof.Proof.Gen.KernelIdeal.Skeleton
import proofs.«107928_j84456236909326_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two guards, in closed form over the grid -/

/-- The guard of the clearing branch, from the grid coordinates: the reduction step is 0. -/
abbrev isFirst_r0 (i : grid0.Coords) : Prop :=
  (Scalar.cmpi .ne (Scalar.extui (Scalar.cmpi .eq (BitVec.ofNat 32 (i 1).val) 0#32)) 0#32) = 1#1
/-- It holds exactly at the points t with t % 8 = 0. -/
theorem isFirst_iff_r0 : ∀ t : Fin cfg0.N, isFirst_r0 (grid0.coords t) ↔ t.val % 8 = 0 :=
  (by decide +kernel : ∀ t : Fin grid0.N, isFirst_r0 (grid0.coords t) ↔ t.val % 8 = 0)

/-- The guard of the projecting branch: the reduction step is 7. -/
abbrev isLast_r0 (i : grid0.Coords) : Prop := k0_cond2 i = 1#1
/-- It holds exactly at the points t with t % 8 = 7. -/
theorem isLast_iff_r0 : ∀ t : Fin cfg0.N, isLast_r0 (grid0.coords t) ↔ t.val % 8 = 7 :=
  (by decide +kernel : ∀ t : Fin grid0.N, isLast_r0 (grid0.coords t) ↔ t.val % 8 = 7)

/-! ## Where the windows are live -/

/-- The three input windows are read at every point. -/
theorem live_in0_r0 : ∀ t : Fin cfg0.N, cfg0.idle 0 (grid0.coords t) = false := by decide +kernel
theorem live_in1_r0 : ∀ t : Fin cfg0.N, cfg0.idle 1 (grid0.coords t) = false := by decide +kernel
theorem live_in2_r0 : ∀ t : Fin cfg0.N, cfg0.idle 2 (grid0.coords t) = false := by decide +kernel
/-- Off the last steps the body stores nothing into the output tile, -/
theorem idle_out_r0 : ∀ t : Fin cfg0.N, ¬isLast_r0 (grid0.coords t) → cfg0.idle 3 (grid0.coords t) = true := by decide +kernel
/-- and its block is not written back there; -/
theorem noFlush_out_r0 : ∀ t : Fin cfg0.N, ¬isLast_r0 (grid0.coords t) → (cfg0.win 3).flush t = false := by decide +kernel
/-- at a last step it is stored. -/
theorem live_out_r0 : ∀ t : Fin cfg0.N, isLast_r0 (grid0.coords t) → cfg0.idle 3 (grid0.coords t) = false := by decide +kernel

/-! ## The buffers the body is called on -/

/-- The staging buffer each window is on at point t, as the pipeline passes it, and that it is a whole buffer. -/
abbrev bufA_r0 (t : Fin cfg0.N) : Memref sig .tc .vmem S1024x2048 .f32 := win0_0.stage (cfg0.slots t 0)
abbrev bufA_whole_r0 (t : Fin cfg0.N) : (bufA_r0 t).IsWhole := hstage0_0 ((cfg0.slots t 0).cast nbuf0_0)
abbrev bufM_r0 (t : Fin cfg0.N) : Memref sig .tc .vmem S2048x128 .f32 := win0_1.stage (cfg0.slots t 1)
abbrev bufM_whole_r0 (t : Fin cfg0.N) : (bufM_r0 t).IsWhole := hstage0_1 ((cfg0.slots t 1).cast nbuf0_1)
abbrev bufW_r0 (t : Fin cfg0.N) : Memref sig .tc .vmem S128x128 .f32 := win0_2.stage (cfg0.slots t 2)
abbrev bufW_whole_r0 (t : Fin cfg0.N) : (bufW_r0 t).IsWhole := hstage0_2 ((cfg0.slots t 2).cast nbuf0_2)
abbrev bufO_r0 (t : Fin cfg0.N) : Memref sig .tc .vmem S1024x128 .f32 := win0_3.stage (cfg0.slots t 3)
abbrev bufO_whole_r0 (t : Fin cfg0.N) : (bufO_r0 t).IsWhole := hstage0_3 ((cfg0.slots t 3).cast nbuf0_3)
/-- The accumulator: a whole scoped buffer of the call's own. -/
abbrev accBuf_r0 : Memref sig .tc .vmem S1024x128 .f32 := Memref.whole cc0_scratch0

/-- The scoped buffers of the core that this call neither stages nor accumulates in (the other call's), each
    whole at some contents: untouched by this region. -/
def bystanders_r0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The core's scoped buffers that no window of this call stages, listed with the accumulator first. -/
theorem scopedRest_split_r0 (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) :=
  Pipeline.scopedRest_eq_of_list spec0 c [cc0_scratch0, cc1_stg0_0, cc1_stg0_1, cc1_stg1_0, cc1_stg1_1, cc1_stg2_0, cc1_stg3_0, cc1_stg3_1, cc1_scratch0] (by decide) (by decide)

/-- What the region hands its body besides the windows: the accumulator at some contents, the bystanders, and the
    generator register at some state. -/
theorem classInv_eq_r0 (c : Dev nD) :
    (Pipeline.ΦA spec0 c : sProp 𝕄)
      = iprop(iprop((∃ d, owns (c : Thread nD τ) accBuf_r0 fullShare d) ∗ bystanders_r0 (F := F) c) ∗ (∃ r, prngReg c r)) := by
  unfold Pipeline.ΦA bystanders_r0; rw [scopedRest_split_r0]; simp only [accBuf_r0, owns_whole]; try rfl

end Cert.KernelIdeal.Hand

end
-- ==== Proof.KernelIdeal.Region0.Runs.lean ====
/-
  The body of an aggregate-and-project call (pipeline 0), run once per kind of reduction step.

  On whole staging buffers holding an adjacency block `xa` (1024 x 2048) and a feature block `xm` (2048 x 128):
  * at a FIRST step the accumulator is overwritten with zeros, read back, and overwritten with
    zeros + xa·xm, so it ends at `k0_pay2 xa xm k0_pay1`;
  * at a MIDDLE step, holding `xs`, it ends at xs + xa·xm, `k0_pay2 xa xm xs`;
  * at a LAST step it ends likewise at acc = xs + xa·xm, and the output tile is overwritten with
    `k0_pay3 acc xw`: acc projected through the weight block `xw` (in the program's first call then clamped at zero).
  Every store is through the whole buffer, so what a buffer holds afterwards is the last payload stored
  into it, and every load reads what its buffer holds. The inputs' buffers are handed back as found.
-/
import proofs.«107928_j84456236909326_1_alg».proof.Proof.KernelIdeal.Region0.Base
import proofs.«107928_j84456236909326_1_alg».proof.Proof.LibWholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every access of the body: zero on both axes. -/
theorem zeroOff_r0 : (![0, 0] : Fin 2 → Nat) = fun _ => 0 := by funext a; fin_cases a <;> rfl

set_option maxHeartbeats 1000000 in
/-- A first step: the accumulator, whatever it held, ends at zeros + xa·xm. -/
theorem run_first_r0 (c : Dev nD) (i : grid0.Coords)
    (arg2 : Memref sig .tc .vmem S1024x2048 .f32) (harg2 : arg2.IsWhole) (arg3 : Memref sig .tc .vmem S2048x128 .f32) (harg3 : arg3.IsWhole)
    (arg4 : Memref sig .tc .vmem S128x128 .f32) (harg4 : arg4.IsWhole) (arg5 : Memref sig .tc .vmem S1024x128 .f32) (harg5 : arg5.IsWhole)
    (arg6 : Memref sig .tc .vmem S1024x128 .f32) (harg6 : arg6.IsWhole)
    (hfirst : isFirst_r0 i) (hlast : ¬isLast_r0 i)
    (xa : Vec F S1024x2048 .f32) (xm : Vec F S2048x128 .f32) (E : Set ℕ) (K : PUnit → sProp 𝕄) :
    iprop(owns (c : Thread nD τ) arg2 fullShare xa ∗ owns (c : Thread nD τ) arg3 fullShare xm ∗ (∃ d, owns (c : Thread nD τ) arg6 fullShare d)
        ∗ (iprop(owns (c : Thread nD τ) arg2 fullShare xa ∗ owns (c : Thread nD τ) arg3 fullShare xm
            ∗ owns (c : Thread nD τ) arg6 fullShare (k0_pay2 xa xm k0_pay1)) -∗ K ⟨⟩))
      ⊢ wp frame (wpE (defs₀ (F := F)) Variants.none c none) E (cc0__agg_linear_kernel i arg2 harg2 arg3 harg3 arg4 harg4 arg5 harg5 arg6 harg6) K := by
  simp only [cc0__agg_linear_kernel_eq_skeleton]; unfold cc0__agg_linear_kernel_skel
  unfold owns
  iintro ⟨⟨%f2, %hf2, H2⟩, ⟨%f3, %hf3, H3⟩, ⟨%d6, %f6, -, H6⟩, Hk⟩
  obtain rfl := harg2.eq_unread hf2; obtain rfl := harg3.eq_unread hf3
  sl_exec (disch := first | exact hfirst | exact hlast)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H6
  ipureintro
  have hz := zeroOff_r0
  refine (Cert.Lib.read_writes_cons_whole (S := S1024x128) arg6.view f6 hz inb_S1024x128_S1024x128_0_0 _ _).trans ?_
  have hA : View.readAt (Elt F) arg2.view (Rect.unit ![0, 0] S1024x2048.size inb_S1024x2048_S1024x2048_0_0).toLoadRect (harg2.unread xa) = xa := by
    rw [View.readAt_eq_ld, harg2.read_unread]; exact View.ld_unit_zero (S := S1024x2048) hz _ xa
  have hB : View.readAt (Elt F) arg3.view (Rect.unit ![0, 0] S2048x128.size inb_S2048x128_S2048x128_0_0).toLoadRect (harg3.unread xm) = xm := by
    rw [View.readAt_eq_ld, harg3.read_unread]; exact View.ld_unit_zero (S := S2048x128) hz _ xm
  refine congr (congr (congrArg (k0_pay2 (F := F)) hA) hB) ?_
  sl_unfold_words
  exact View.readCov_unit_zero (S := S1024x128) arg6.view hz _ _

set_option maxHeartbeats 1000000 in
/-- A middle step: the accumulator goes from xs to xs + xa·xm. -/
theorem run_mid_r0 (c : Dev nD) (i : grid0.Coords)
    (arg2 : Memref sig .tc .vmem S1024x2048 .f32) (harg2 : arg2.IsWhole) (arg3 : Memref sig .tc .vmem S2048x128 .f32) (harg3 : arg3.IsWhole)
    (arg4 : Memref sig .tc .vmem S128x128 .f32) (harg4 : arg4.IsWhole) (arg5 : Memref sig .tc .vmem S1024x128 .f32) (harg5 : arg5.IsWhole)
    (arg6 : Memref sig .tc .vmem S1024x128 .f32) (harg6 : arg6.IsWhole)
    (hfirst : ¬isFirst_r0 i) (hlast : ¬isLast_r0 i)
    (xa : Vec F S1024x2048 .f32) (xm : Vec F S2048x128 .f32) (xs : Vec F S1024x128 .f32) (E : Set ℕ) (K : PUnit → sProp 𝕄) :
    iprop(owns (c : Thread nD τ) arg2 fullShare xa ∗ owns (c : Thread nD τ) arg3 fullShare xm ∗ owns (c : Thread nD τ) arg6 fullShare xs
        ∗ (iprop(owns (c : Thread nD τ) arg2 fullShare xa ∗ owns (c : Thread nD τ) arg3 fullShare xm
            ∗ owns (c : Thread nD τ) arg6 fullShare (k0_pay2 xa xm xs)) -∗ K ⟨⟩))
      ⊢ wp frame (wpE (defs₀ (F := F)) Variants.none c none) E (cc0__agg_linear_kernel i arg2 harg2 arg3 harg3 arg4 harg4 arg5 harg5 arg6 harg6) K := by
  simp only [cc0__agg_linear_kernel_eq_skeleton]; unfold cc0__agg_linear_kernel_skel
  unfold owns
  iintro ⟨⟨%f2, %hf2, H2⟩, ⟨%f3, %hf3, H3⟩, ⟨%f6, %hf6, H6⟩, Hk⟩
  obtain rfl := harg2.eq_unread hf2; obtain rfl := harg3.eq_unread hf3; obtain rfl := harg6.eq_unread hf6
  sl_exec (disch := first | exact hfirst | exact hlast)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H6
  ipureintro
  have hz := zeroOff_r0
  refine (Cert.Lib.read_writes_cons_whole (S := S1024x128) arg6.view _ hz inb_S1024x128_S1024x128_0_0 _ _).trans ?_
  have hA : View.readAt (Elt F) arg2.view (Rect.unit ![0, 0] S1024x2048.size inb_S1024x2048_S1024x2048_0_0).toLoadRect (harg2.unread xa) = xa := by
    rw [View.readAt_eq_ld, harg2.read_unread]; exact View.ld_unit_zero (S := S1024x2048) hz _ xa
  have hB : View.readAt (Elt F) arg3.view (Rect.unit ![0, 0] S2048x128.size inb_S2048x128_S2048x128_0_0).toLoadRect (harg3.unread xm) = xm := by
    rw [View.readAt_eq_ld, harg3.read_unread]; exact View.ld_unit_zero (S := S2048x128) hz _ xm
  refine congr (congr (congrArg (k0_pay2 (F := F)) hA) hB) ?_
  sl_unfold_words
  rw [View.readAt_eq_ld, harg6.read_unread]; exact View.ld_unit_zero (S := S1024x128) hz _ xs

set_option maxHeartbeats 1000000 in
/-- A last step: the accumulator goes from xs to acc = xs + xa·xm, and the output tile, whatever it held, ends at
    the projection of acc through xw. -/
theorem run_last_r0 (c : Dev nD) (i : grid0.Coords)
    (arg2 : Memref sig .tc .vmem S1024x2048 .f32) (harg2 : arg2.IsWhole) (arg3 : Memref sig .tc .vmem S2048x128 .f32) (harg3 : arg3.IsWhole)
    (arg4 : Memref sig .tc .vmem S128x128 .f32) (harg4 : arg4.IsWhole) (arg5 : Memref sig .tc .vmem S1024x128 .f32) (harg5 : arg5.IsWhole)
    (arg6 : Memref sig .tc .vmem S1024x128 .f32) (harg6 : arg6.IsWhole)
    (hfirst : ¬isFirst_r0 i) (hlast : isLast_r0 i)
    (xa : Vec F S1024x2048 .f32) (xm : Vec F S2048x128 .f32) (xw : Vec F S128x128 .f32) (xs : Vec F S1024x128 .f32) (E : Set ℕ) (K : PUnit → sProp 𝕄) :
    iprop(owns (c : Thread nD τ) arg2 fullShare xa ∗ owns (c : Thread nD τ) arg3 fullShare xm ∗ owns (c : Thread nD τ) arg4 fullShare xw
        ∗ (∃ d, owns (c : Thread nD τ) arg5 fullShare d) ∗ owns (c : Thread nD τ) arg6 fullShare xs
        ∗ (iprop(owns (c : Thread nD τ) arg2 fullShare xa ∗ owns (c : Thread nD τ) arg3 fullShare xm ∗ owns (c : Thread nD τ) arg4 fullShare xw
            ∗ owns (c : Thread nD τ) arg5 fullShare (k0_pay3 (k0_pay2 xa xm xs) xw)
            ∗ owns (c : Thread nD τ) arg6 fullShare (k0_pay2 xa xm xs)) -∗ K ⟨⟩))
      ⊢ wp frame (wpE (defs₀ (F := F)) Variants.none c none) E (cc0__agg_linear_kernel i arg2 harg2 arg3 harg3 arg4 harg4 arg5 harg5 arg6 harg6) K := by
  simp only [cc0__agg_linear_kernel_eq_skeleton]; unfold cc0__agg_linear_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4; obtain rfl := harg6.eq_unread hf6
  sl_exec (disch := first | exact hfirst | exact hlast)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  have hz := zeroOff_r0
  have hA : View.readAt (Elt F) arg2.view (Rect.unit ![0, 0] S1024x2048.size inb_S1024x2048_S1024x2048_0_0).toLoadRect (harg2.unread xa) = xa := by
    rw [View.readAt_eq_ld, harg2.read_unread]; exact View.ld_unit_zero (S := S1024x2048) hz _ xa
  have hB : View.readAt (Elt F) arg3.view (Rect.unit ![0, 0] S2048x128.size inb_S2048x128_S2048x128_0_0).toLoadRect (harg3.unread xm) = xm := by
    rw [View.readAt_eq_ld, harg3.read_unread]; exact View.ld_unit_zero (S := S2048x128) hz _ xm
  have hS : View.readAt (Elt F) arg6.view (Rect.unit ![0, 0] S1024x128.size inb_S1024x128_S1024x128_0_0).toLoadRect (harg6.unread xs) = xs := by
    rw [View.readAt_eq_ld, harg6.read_unread]; exact View.ld_unit_zero (S := S1024x128) hz _ xs
  have hW : View.readAt (Elt F) arg4.view (Rect.unit ![0, 0] S128x128.size inb_S128x128_S128x128_0_0).toLoadRect (harg4.unread xw) = xw := by
    rw [View.readAt_eq_ld, harg4.read_unread]; exact View.ld_unit_zero (S := S128x128) hz _ xw
  isplitl [H5]
  · iexists _; isplitr
    swap; · iexact H5
    ipureintro
    refine (Cert.Lib.read_writes_cons_whole (S := S1024x128) arg5.view f5 hz inb_S1024x128_S1024x128_0_0 _ _).trans ?_
    refine congr (congrArg (k0_pay3 (F := F)) ?_) hW
    sl_unfold_words
    exact (View.readCov_unit_zero (S := S1024x128) arg6.view hz _ _).trans (congr (congr (congrArg (k0_pay2 (F := F)) hA) hB) hS)
  iexists _; isplitr
  swap; · iexact H6
  ipureintro
  sl_unfold_words
  refine (Cert.Lib.read_writes_cons_whole (S := S1024x128) arg6.view _ hz inb_S1024x128_S1024x128_0_0 _ _).trans ?_
  exact congr (congr (congrArg (k0_pay2 (F := F)) hA) hB) hS

end Cert.KernelIdeal.Hand

end
-- ==== Proof.KernelIdeal.Region0.Data.lean ====
/-
  An aggregate-and-project call (pipeline 0): what its buffers hold point by point, and the body obligation.

  Write A(t), M(t), W(t) for the blocks of the adjacency, the features and the weights that point t stages, read off
  the arrays as the region finds them. The accumulator after point n is

      acc(n) = 0 + A(n)·M(n)            when n % 8 = 0   (a row block's first reduction step),
      acc(n) = acc(n - 1) + A(n)·M(n)   otherwise,

  so after the last step of a row block it is the sum over the eight column blocks. The output tile after a last
  step t is acc(t)·W(t), in the program's first call clamped at zero. Between points the region's invariant holds the accumulator at acc of the point
  before (at anything before the first point), the other call's scoped buffers at anything, and the generator register.
-/
import proofs.«107928_j84456236909326_1_alg».proof.Proof.KernelIdeal.Region0.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: every statement below is made at this parameter
variable (V : (c : Dev nD) → (b : Ref sig .tc) → Buf (Elt F) ((c : Thread nD τ).loc b))

/-! ## The blocks the windows stage -/

/-- Window w's block at point t, read off its array as the region finds it. -/
def blk_r0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency block, the feature block and the weight block of point t, at their literal shapes. -/
abbrev blkA_r0 (c : Dev nD) (t : Fin cfg0.N) : Vec F S1024x2048 .f32 := blk_r0 V c 0 t
abbrev blkM_r0 (c : Dev nD) (t : Fin cfg0.N) : Vec F S2048x128 .f32 := blk_r0 V c 1 t
abbrev blkW_r0 (c : Dev nD) (t : Fin cfg0.N) : Vec F S128x128 .f32 := blk_r0 V c 2 t

/-! ## The accumulator and the output tile, point by point -/

/-- The accumulator after the body at point n: restarted from zeros at a first step, else what point n - 1 left plus
    this point's product. -/
def accAt_r0 (c : Dev nD) : (n : ℕ) → n < cfg0.N → Vec F S1024x128 .f32
  | 0, h => k0_pay2 (blkA_r0 V c ⟨0, h⟩) (blkM_r0 V c ⟨0, h⟩) k0_pay1
  | n + 1, h =>
    if (n + 1) % 8 = 0 then k0_pay2 (blkA_r0 V c ⟨n + 1, h⟩) (blkM_r0 V c ⟨n + 1, h⟩) k0_pay1
    else k0_pay2 (blkA_r0 V c ⟨n + 1, h⟩) (blkM_r0 V c ⟨n + 1, h⟩) (accAt_r0 c n (Nat.lt_of_succ_lt h))

/-- At a first step the accumulator restarts. -/
theorem accAt_first_r0 (c : Dev nD) (t : Fin cfg0.N) (h : t.val % 8 = 0) :
    accAt_r0 V c t.val t.isLt = k0_pay2 (blkA_r0 V c t) (blkM_r0 V c t) k0_pay1 := by
  obtain ⟨n, hn⟩ := t
  cases n with
  | zero => rfl
  | succ n => exact if_pos h

/-- At any other step it adds onto what the point before left. -/
theorem accAt_next_r0 (c : Dev nD) (t : Fin cfg0.N) (h : ¬t.val % 8 = 0) :
    accAt_r0 V c t.val t.isLt
      = k0_pay2 (blkA_r0 V c t) (blkM_r0 V c t) (accAt_r0 V c (t.val - 1) (Nat.lt_of_le_of_lt (Nat.sub_le _ _) t.isLt)) := by
  obtain ⟨n, hn⟩ := t
  cases n with
  | zero => exact absurd (Nat.zero_mod _) h
  | succ n => exact if_neg h

/-- The output tile the body stores at a last step t: the accumulator projected through the weight block (in the
    program's first call then clamped at zero). (At the other points nothing is stored and the name is not consulted.) -/
def tileAt_r0 (c : Dev nD) (t : Fin cfg0.N) : Vec F S1024x128 .f32 :=
  k0_pay3 (accAt_r0 V c t.val t.isLt) (blkW_r0 V c t)

/-! ## The invariant between points -/

/-- Before point n: at n = 0 what the region hands over (the accumulator at anything); afterwards the accumulator at
    what point n - 1 left, the bystanders, and the generator register at some state. -/
def inv_r0 (c : Dev nD) : (n : ℕ) → n ≤ cfg0.N → sProp 𝕄
  | 0, _ => Pipeline.ΦA spec0 c
  | n + 1, hn => iprop(iprop(owns (c : Thread nD τ) accBuf_r0 fullShare (accAt_r0 V c n hn) ∗ bystanders_r0 (F := F) c) ∗ (∃ r, prngReg c r))

theorem inv_zero_r0 (c : Dev nD) (n : ℕ) (h : n ≤ cfg0.N) (hz : n = 0) : inv_r0 V c n h = Pipeline.ΦA spec0 c := by
  subst hz; rfl

theorem inv_succ_r0 (c : Dev nD) (n : ℕ) (hn : n < cfg0.N) :
    inv_r0 V c (n + 1) hn = iprop(iprop(owns (c : Thread nD τ) accBuf_r0 fullShare (accAt_r0 V c n hn) ∗ bystanders_r0 (F := F) c) ∗ (∃ r, prngReg c r)) := rfl

theorem inv_pos_r0 (c : Dev nD) (n : ℕ) (h : n ≤ cfg0.N) (hz : n ≠ 0) :
    inv_r0 V c n h = iprop(iprop(owns (c : Thread nD τ) accBuf_r0 fullShare (accAt_r0 V c (n - 1) (by omega)) ∗ bystanders_r0 (F := F) c) ∗ (∃ r, prngReg c r)) := by
  cases n with
  | zero => exact absurd rfl hz
  | succ n => rfl

/-! ## The proof data -/

/-- The arrays as the region finds them; after the body each input's buffer at its block and the output's at the tile;
    the invariant above; nothing owed; full shares. -/
def dat_r0 (c : Dev nD) : Dat τ (Elt F) Unit ℕ (UR sig nD τ) ℕ cfg0 c where
  A w := V c (Pipeline.arrRef spec0 w)
  after w t := match w with
    | ⟨0, _⟩ => blk_r0 V c 0 t
    | ⟨1, _⟩ => blk_r0 V c 1 t
    | ⟨2, _⟩ => blk_r0 V c 2 t
    | ⟨3, _⟩ => tileAt_r0 V c t
  Φ t := inv_r0 V c t.val (Nat.le_of_lt_succ t.isLt)
  q _ := fullShare
  owed _ := 0

theorem A_eq_r0 (c : Dev nD) (w : Fin cfg0.W) : (dat_r0 V c).A w = V c (Pipeline.arrRef spec0 w) := by
  dsimp only [dat_r0]

theorem after0_r0 (c : Dev nD) (t : Fin cfg0.N) : (dat_r0 V c).after 0 t = blk_r0 V c 0 t := by dsimp only [dat_r0]
theorem after1_r0 (c : Dev nD) (t : Fin cfg0.N) : (dat_r0 V c).after 1 t = blk_r0 V c 1 t := by dsimp only [dat_r0]
theorem after2_r0 (c : Dev nD) (t : Fin cfg0.N) : (dat_r0 V c).after 2 t = blk_r0 V c 2 t := by dsimp only [dat_r0]
theorem after3_r0 (c : Dev nD) (t : Fin cfg0.N) : (dat_r0 V c).after 3 t = tileAt_r0 V c t := by dsimp only [dat_r0]

theorem inv_castSucc_r0 (c : Dev nD) (t : Fin cfg0.N) :
    (dat_r0 V c).Φ t.castSucc = inv_r0 V c t.val (Nat.le_of_lt t.isLt) := by
  dsimp only [dat_r0]; simp only [Fin.coe_castSucc]

/-- An input's staging buffer holds its block at every point, whether or not the point fetched it: unfetched, the block
    index has not moved since the fetch. -/
theorem before0_r0 (c : Dev nD) (t : Fin cfg0.N) (d) : (dat_r0 V c).before 0 t d = blk_r0 V c 0 t :=
  ((dat_r0 V c).before_in_eq_fetched 0 rfl (fun _ => rfl) (fun _ _ _ => rfl) (fun t => by rw [after0_r0]; unfold Dat.blockOf blk_r0; rw [A_eq_r0]; try rfl) t d).trans
    (by unfold Dat.fetched Dat.blockOf blk_r0; rw [A_eq_r0]; try rfl)
theorem before1_r0 (c : Dev nD) (t : Fin cfg0.N) (d) : (dat_r0 V c).before 1 t d = blk_r0 V c 1 t :=
  ((dat_r0 V c).before_in_eq_fetched 1 rfl (fun _ => rfl) (fun _ _ _ => rfl) (fun t => by rw [after1_r0]; unfold Dat.blockOf blk_r0; rw [A_eq_r0]; try rfl) t d).trans
    (by unfold Dat.fetched Dat.blockOf blk_r0; rw [A_eq_r0]; try rfl)
theorem before2_r0 (c : Dev nD) (t : Fin cfg0.N) (d) : (dat_r0 V c).before 2 t d = blk_r0 V c 2 t :=
  ((dat_r0 V c).before_in_eq_fetched 2 rfl (fun _ => rfl) (fun _ _ _ => rfl) (fun t => by rw [after2_r0]; unfold Dat.blockOf blk_r0; rw [A_eq_r0]; try rfl) t d).trans
    (by unfold Dat.fetched Dat.blockOf blk_r0; rw [A_eq_r0]; try rfl)

/-! ## The body obligation -/

/-- What the body is called with at point t, -/
def bodyPre_r0 (c : Dev nD) (t : Fin cfg0.N) : sProp 𝕄 :=
  iprop((dat_r0 V c).Φ t.castSucc ∗ (dat_r0 V c).owesAt () t.castSucc
    ∗ (∃ d, owns (c : Thread nD τ) (bufA_r0 t) fullShare ((dat_r0 V c).before 0 t d))
    ∗ (∃ d, owns (c : Thread nD τ) (bufM_r0 t) fullShare ((dat_r0 V c).before 1 t d))
    ∗ (∃ d, owns (c : Thread nD τ) (bufW_r0 t) fullShare ((dat_r0 V c).before 2 t d))
    ∗ (∃ d, owns (c : Thread nD τ) (bufO_r0 t) fullShare ((dat_r0 V c).before 3 t d)))

/-- and what it returns. -/
def bodyPost_r0 (c : Dev nD) (t : Fin cfg0.N) : sProp 𝕄 :=
  iprop((dat_r0 V c).Φ t.succ ∗ (dat_r0 V c).owesAt () t.succ
    ∗ (dat_r0 V c).leavesExact 0 t
    ∗ (dat_r0 V c).leavesExact 1 t
    ∗ (dat_r0 V c).leavesExact 2 t
    ∗ (dat_r0 V c).leavesExact 3 t)

theorem leaves_in0_r0 (c : Dev nD) (t : Fin cfg0.N) :
    (dat_r0 V c).leavesExact 0 t = owns (c : Thread nD τ) (bufA_r0 t) fullShare (blk_r0 V c 0 t) := by
  unfold Dat.leavesExact; rw [live_in0_r0 t, after0_r0]
theorem leaves_in1_r0 (c : Dev nD) (t : Fin cfg0.N) :
    (dat_r0 V c).leavesExact 1 t = owns (c : Thread nD τ) (bufM_r0 t) fullShare (blk_r0 V c 1 t) := by
  unfold Dat.leavesExact; rw [live_in1_r0 t, after1_r0]
theorem leaves_in2_r0 (c : Dev nD) (t : Fin cfg0.N) :
    (dat_r0 V c).leavesExact 2 t = owns (c : Thread nD τ) (bufW_r0 t) fullShare (blk_r0 V c 2 t) := by
  unfold Dat.leavesExact; rw [live_in2_r0 t, after2_r0]

set_option maxHeartbeats 2000000 in
/-- The body at any point: the inputs' buffers hold their blocks; t % 8 says which kind of step the point is; the
    invariant hands over the accumulator at what the point before left (at anything before a first step) and takes it
    back at this point's value; off the last steps the output's buffer goes back as it came. -/
theorem sound_body_r0 (c : Dev nD) (t : Fin cfg0.N) :
    bodyPre_r0 V c t ⊢ wp frame (wpE (defs₀ (F := F)) Variants.none c none) Set.univ (bodyAt0 t) (fun _ => bodyPost_r0 V c t) := by
  unfold bodyPre_r0 bodyPost_r0 bodyAt0
  simp only [before0_r0, before1_r0, before2_r0]
  rw [show (dat_r0 V c).owesAt () t.succ = (dat_r0 V c).owesAt () t.castSucc from rfl]
  rw [show (dat_r0 V c).Φ t.succ = inv_r0 V c (t.val + 1) t.isLt from rfl, inv_succ_r0]
  rw [leaves_in0_r0, leaves_in1_r0, leaves_in2_r0]
  have hN : t.val < 128 := lt_of_lt_of_eq t.isLt (show cfg0.N = 128 from N_0)
  by_cases h0 : t.val % 8 = 0
  · -- a first step
    have hf : isFirst_r0 (grid0.coords t) := (isFirst_iff_r0 t).mpr h0
    have hl : ¬isLast_r0 (grid0.coords t) := fun h => by have := (isLast_iff_r0 t).mp h; omega
    rw [Dat.leavesExact_idle (dat_r0 V c) 3 t (idle_out_r0 t hl) (noFlush_out_r0 t hl), accAt_first_r0 V c t h0]
    have hΦ : (dat_r0 V c).Φ t.castSucc ⊢ (iprop(iprop((∃ d, owns (c : Thread nD τ) accBuf_r0 fullShare d) ∗ bystanders_r0 (F := F) c) ∗ (∃ r, prngReg c r)) : sProp 𝕄) := by
      rw [inv_castSucc_r0]
      by_cases hz : t.val = 0
      · rw [inv_zero_r0 V c _ _ hz, classInv_eq_r0]
      · rw [inv_pos_r0 V c _ _ hz]
        iintro ⟨⟨HS, HB⟩, Hg⟩
        isplitr [Hg]
        · isplitl [HS]
          · iexists _; iexact HS
          iexact HB
        iexact Hg
    iintro ⟨HΦ, Ho, ⟨%d0, H0⟩, ⟨%d1, H1⟩, ⟨%d2, H2⟩, H3⟩
    ihave HΦ' := hΦ $$ HΦ
    icases HΦ' with ⟨⟨HS, HB⟩, Hg⟩
    iapply (run_first_r0 c (grid0.coords t) _ _ _ _ (bufW_r0 t) (bufW_whole_r0 t) (bufO_r0 t) (bufO_whole_r0 t) _ _ hf hl (blkA_r0 V c t) (blkM_r0 V c t) Set.univ _)
    isplitl [H0]; · iexact H0
    isplitl [H1]; · iexact H1
    isplitl [HS]; · iexact HS
    iintro ⟨H0, H1, HS⟩
    isplitl [HS HB Hg]
    · isplitr [Hg]
      · isplitl [HS]; · iexact HS
        iexact HB
      iexact Hg
    isplitl [Ho]; · iexact Ho
    isplitl [H0]; · iexact H0
    isplitl [H1]; · iexact H1
    isplitl [H2]; · iexact H2
    iexact H3
  · have hf : ¬isFirst_r0 (grid0.coords t) := fun h => h0 ((isFirst_iff_r0 t).mp h)
    have hz : t.val ≠ 0 := fun e => h0 (by rw [e])
    rw [inv_castSucc_r0, inv_pos_r0 V c _ _ hz, accAt_next_r0 V c t h0]
    by_cases h7 : t.val % 8 = 7
    · -- a last step
      have hl : isLast_r0 (grid0.coords t) := (isLast_iff_r0 t).mpr h7
      rw [show (dat_r0 V c).leavesExact 3 t = owns (c : Thread nD τ) (bufO_r0 t) fullShare (tileAt_r0 V c t) from by
        unfold Dat.leavesExact; rw [live_out_r0 t hl, after3_r0]]
      unfold tileAt_r0
      rw [accAt_next_r0 V c t h0]
      iintro ⟨⟨⟨HS, HB⟩, Hg⟩, Ho, ⟨%d0, H0⟩, ⟨%d1, H1⟩, ⟨%d2, H2⟩, ⟨%d3, H3⟩⟩
      iapply (run_last_r0 c (grid0.coords t) _ _ _ _ _ _ _ _ _ _ hf hl (blkA_r0 V c t) (blkM_r0 V c t) (blkW_r0 V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HB Hg]
      · isplitr [Hg]
        · isplitl [HS]; · iexact HS
          iexact HB
        iexact Hg
      isplitl [Ho]; · iexact Ho
      isplitl [H0]; · iexact H0
      isplitl [H1]; · iexact H1
      isplitl [H2]; · iexact H2
      iexact H3
    · -- a middle step
      have hl : ¬isLast_r0 (grid0.coords t) := fun h => h7 ((isLast_iff_r0 t).mp h)
      rw [Dat.leavesExact_idle (dat_r0 V c) 3 t (idle_out_r0 t hl) (noFlush_out_r0 t hl)]
      iintro ⟨⟨⟨HS, HB⟩, Hg⟩, Ho, ⟨%d0, H0⟩, ⟨%d1, H1⟩, ⟨%d2, H2⟩, H3⟩
      iapply (run_mid_r0 c (grid0.coords t) _ _ _ _ (bufW_r0 t) (bufW_whole_r0 t) (bufO_r0 t) (bufO_whole_r0 t) _ _ hf hl (blkA_r0 V c t) (blkM_r0 V c t) _ Set.univ _)
      isplitl [H0]; · iexact H0
      isplitl [H1]; · iexact H1
      isplitl [HS]; · iexact HS
      iintro ⟨H0, H1, HS⟩
      isplitl [HS HB Hg]
      · isplitr [Hg]
        · isplitl [HS]; · iexact HS
          iexact HB
        iexact Hg
      isplitl [Ho]; · iexact Ho
      isplitl [H0]; · iexact H0
      isplitl [H1]; · iexact H1
      isplitl [H2]; · iexact H2
      iexact H3

/-- The library's body obligation, at every point. -/
theorem body_obligation_r0 (c : Dev nD) : BodyObligation (dat_r0 (F := F) V c) (defs₀ (F := F)) Variants.none () Set.univ := fun t => by
  rw [bigSep_W0, bigSep_W0]
  exact sound_body_r0 V c t

/-! ## The invariant at the region's ends -/

/-- What the region hands the body is the invariant before the first point. -/
theorem inv_in_r0 (c : Dev nD) : Pipeline.ΦA spec0 c ⊢ (dat_r0 V c).Φ 0 := by
  rw [show (dat_r0 V c).Φ 0 = inv_r0 V c 0 (Nat.zero_le _) from rfl, inv_zero_r0 V c 0 _ rfl]

/-- After the last point the invariant gives back what the region took: the accumulator's value is forgotten. -/
theorem inv_out_r0 (c : Dev nD) : (dat_r0 V c).Φ (Fin.last cfg0.N) ⊢ Pipeline.ΦA spec0 c := by
  have hN : cfg0.N = 128 := N_0
  rw [show (dat_r0 V c).Φ (Fin.last cfg0.N) = inv_r0 V c (Fin.last cfg0.N).val (Nat.le_of_lt_succ (Fin.last cfg0.N).isLt) from rfl,
    inv_pos_r0 V c _ _ (by rw [Fin.val_last]; omega), classInv_eq_r0]
  iintro ⟨⟨HS, HB⟩, Hg⟩
  isplitr [Hg]
  · isplitl [HS]
    · iexists _; iexact HS
    iexact HB
  iexact Hg

end Cert.KernelIdeal.Hand

end
-- ==== Proof.KernelIdeal.Region1.Base.lean ====
/-
  An aggregate-and-project call (pipeline 1 of the program): what every grid point shares.

  The grid is 16 row blocks by 8 reduction steps; point t is row block t / 8 at step t % 8. The body
  has two guards on the step alone: the FIRST step (t % 8 = 0) clears the accumulator before adding,
  the LAST step (t % 8 = 7) projects the accumulator through the weight block (the program's first call then
  clamps at zero) and stores the output tile. No step is both. The three input windows are read at every point; the output
  window is stored at the last steps only, and only there is its block written back.

  The accumulator is a scratch buffer of the call's own. The region's scoped buffers that no window of
  this call stages are that scratch and the other call's eight staging buffers and scratch; the latter
  ride along untouched.
-/
import proofs.«107928_j84456236909326_1_alg».proof.Proof.Gen.KernelIdeal.Launch
import proofs.«107928_j84456236909326_1_alg».proof.Proof.Gen.KernelIdeal.Skeleton
import proofs.«107928_j84456236909326_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two guards, in closed form over the grid -/

/-- The guard of the clearing branch, from the grid coordinates: the reduction step is 0. -/
abbrev isFirst_r1 (i : grid1.Coords) : Prop :=
  (Scalar.cmpi .ne (Scalar.extui (Scalar.cmpi .eq (BitVec.ofNat 32 (i 1).val) 0#32)) 0#32) = 1#1
/-- It holds exactly at the points t with t % 8 = 0. -/
theorem isFirst_iff_r1 : ∀ t : Fin cfg1.N, isFirst_r1 (grid1.coords t) ↔ t.val % 8 = 0 :=
  (by decide +kernel : ∀ t : Fin grid1.N, isFirst_r1 (grid1.coords t) ↔ t.val % 8 = 0)

/-- The guard of the projecting branch: the reduction step is 7. -/
abbrev isLast_r1 (i : grid1.Coords) : Prop := k1_cond2 i = 1#1
/-- It holds exactly at the points t with t % 8 = 7. -/
theorem isLast_iff_r1 : ∀ t : Fin cfg1.N, isLast_r1 (grid1.coords t) ↔ t.val % 8 = 7 :=
  (by decide +kernel : ∀ t : Fin grid1.N, isLast_r1 (grid1.coords t) ↔ t.val % 8 = 7)

/-! ## Where the windows are live -/

/-- The three input windows are read at every point. -/
theorem live_in0_r1 : ∀ t : Fin cfg1.N, cfg1.idle 0 (grid1.coords t) = false := by decide +kernel
theorem live_in1_r1 : ∀ t : Fin cfg1.N, cfg1.idle 1 (grid1.coords t) = false := by decide +kernel
theorem live_in2_r1 : ∀ t : Fin cfg1.N, cfg1.idle 2 (grid1.coords t) = false := by decide +kernel
/-- Off the last steps the body stores nothing into the output tile, -/
theorem idle_out_r1 : ∀ t : Fin cfg1.N, ¬isLast_r1 (grid1.coords t) → cfg1.idle 3 (grid1.coords t) = true := by decide +kernel
/-- and its block is not written back there; -/
theorem noFlush_out_r1 : ∀ t : Fin cfg1.N, ¬isLast_r1 (grid1.coords t) → (cfg1.win 3).flush t = false := by decide +kernel
/-- at a last step it is stored. -/
theorem live_out_r1 : ∀ t : Fin cfg1.N, isLast_r1 (grid1.coords t) → cfg1.idle 3 (grid1.coords t) = false := by decide +kernel

/-! ## The buffers the body is called on -/

/-- The staging buffer each window is on at point t, as the pipeline passes it, and that it is a whole buffer. -/
abbrev bufA_r1 (t : Fin cfg1.N) : Memref sig .tc .vmem S1024x2048 .f32 := win1_0.stage (cfg1.slots t 0)
abbrev bufA_whole_r1 (t : Fin cfg1.N) : (bufA_r1 t).IsWhole := hstage1_0 ((cfg1.slots t 0).cast nbuf1_0)
abbrev bufM_r1 (t : Fin cfg1.N) : Memref sig .tc .vmem S2048x128 .f32 := win1_1.stage (cfg1.slots t 1)
abbrev bufM_whole_r1 (t : Fin cfg1.N) : (bufM_r1 t).IsWhole := hstage1_1 ((cfg1.slots t 1).cast nbuf1_1)
abbrev bufW_r1 (t : Fin cfg1.N) : Memref sig .tc .vmem S128x128 .f32 := win1_2.stage (cfg1.slots t 2)
abbrev bufW_whole_r1 (t : Fin cfg1.N) : (bufW_r1 t).IsWhole := hstage1_2 ((cfg1.slots t 2).cast nbuf1_2)
abbrev bufO_r1 (t : Fin cfg1.N) : Memref sig .tc .vmem S1024x128 .f32 := win1_3.stage (cfg1.slots t 3)
abbrev bufO_whole_r1 (t : Fin cfg1.N) : (bufO_r1 t).IsWhole := hstage1_3 ((cfg1.slots t 3).cast nbuf1_3)
/-- The accumulator: a whole scoped buffer of the call's own. -/
abbrev accBuf_r1 : Memref sig .tc .vmem S1024x128 .f32 := Memref.whole cc1_scratch0

/-- The scoped buffers of the core that this call neither stages nor accumulates in (the other call's), each
    whole at some contents: untouched by this region. -/
def bystanders_r1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The core's scoped buffers that no window of this call stages, listed with the accumulator first. -/
theorem scopedRest_split_r1 (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f)) :=
  Pipeline.scopedRest_eq_of_list spec1 c [cc1_scratch0, cc0_stg0_0, cc0_stg0_1, cc0_stg1_0, cc0_stg1_1, cc0_stg2_0, cc0_stg3_0, cc0_stg3_1, cc0_scratch0] (by decide) (by decide)

/-- What the region hands its body besides the windows: the accumulator at some contents, the bystanders, and the
    generator register at some state. -/
theorem classInv_eq_r1 (c : Dev nD) :
    (Pipeline.ΦA spec1 c : sProp 𝕄)
      = iprop(iprop((∃ d, owns (c : Thread nD τ) accBuf_r1 fullShare d) ∗ bystanders_r1 (F := F) c) ∗ (∃ r, prngReg c r)) := by
  unfold Pipeline.ΦA bystanders_r1; rw [scopedRest_split_r1]; simp only [accBuf_r1, owns_whole]; try rfl

end Cert.KernelIdeal.Hand

end
-- ==== Proof.KernelIdeal.Region1.Runs.lean ====
/-
  The body of an aggregate-and-project call (pipeline 1), run once per kind of reduction step.

  On whole staging buffers holding an adjacency block `xa` (1024 x 2048) and a feature block `xm` (2048 x 128):
  * at a FIRST step the accumulator is overwritten with zeros, read back, and overwritten with
    zeros + xa·xm, so it ends at `k1_pay2 xa xm k1_pay1`;
  * at a MIDDLE step, holding `xs`, it ends at xs + xa·xm, `k1_pay2 xa xm xs`;
  * at a LAST step it ends likewise at acc = xs + xa·xm, and the output tile is overwritten with
    `k1_pay3 acc xw`: acc projected through the weight block `xw` (in the program's first call then clamped at zero).
  Every store is through the whole buffer, so what a buffer holds afterwards is the last payload stored
  into it, and every load reads what its buffer holds. The inputs' buffers are handed back as found.
-/
import proofs.«107928_j84456236909326_1_alg».proof.Proof.KernelIdeal.Region1.Base
import proofs.«107928_j84456236909326_1_alg».proof.Proof.LibWholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every access of the body: zero on both axes. -/
theorem zeroOff_r1 : (![0, 0] : Fin 2 → Nat) = fun _ => 0 := by funext a; fin_cases a <;> rfl

set_option maxHeartbeats 1000000 in
/-- A first step: the accumulator, whatever it held, ends at zeros + xa·xm. -/
theorem run_first_r1 (c : Dev nD) (i : grid1.Coords)
    (arg2 : Memref sig .tc .vmem S1024x2048 .f32) (harg2 : arg2.IsWhole) (arg3 : Memref sig .tc .vmem S2048x128 .f32) (harg3 : arg3.IsWhole)
    (arg4 : Memref sig .tc .vmem S128x128 .f32) (harg4 : arg4.IsWhole) (arg5 : Memref sig .tc .vmem S1024x128 .f32) (harg5 : arg5.IsWhole)
    (arg6 : Memref sig .tc .vmem S1024x128 .f32) (harg6 : arg6.IsWhole)
    (hfirst : isFirst_r1 i) (hlast : ¬isLast_r1 i)
    (xa : Vec F S1024x2048 .f32) (xm : Vec F S2048x128 .f32) (E : Set ℕ) (K : PUnit → sProp 𝕄) :
    iprop(owns (c : Thread nD τ) arg2 fullShare xa ∗ owns (c : Thread nD τ) arg3 fullShare xm ∗ (∃ d, owns (c : Thread nD τ) arg6 fullShare d)
        ∗ (iprop(owns (c : Thread nD τ) arg2 fullShare xa ∗ owns (c : Thread nD τ) arg3 fullShare xm
            ∗ owns (c : Thread nD τ) arg6 fullShare (k1_pay2 xa xm k1_pay1)) -∗ K ⟨⟩))
      ⊢ wp frame (wpE (defs₀ (F := F)) Variants.none c none) E (cc1__agg_linear_kernel i arg2 harg2 arg3 harg3 arg4 harg4 arg5 harg5 arg6 harg6) K := by
  simp only [cc1__agg_linear_kernel_eq_skeleton]; unfold cc1__agg_linear_kernel_skel
  unfold owns
  iintro ⟨⟨%f2, %hf2, H2⟩, ⟨%f3, %hf3, H3⟩, ⟨%d6, %f6, -, H6⟩, Hk⟩
  obtain rfl := harg2.eq_unread hf2; obtain rfl := harg3.eq_unread hf3
  sl_exec (disch := first | exact hfirst | exact hlast)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H6
  ipureintro
  have hz := zeroOff_r1
  refine (Cert.Lib.read_writes_cons_whole (S := S1024x128) arg6.view f6 hz inb_S1024x128_S1024x128_0_0 _ _).trans ?_
  have hA : View.readAt (Elt F) arg2.view (Rect.unit ![0, 0] S1024x2048.size inb_S1024x2048_S1024x2048_0_0).toLoadRect (harg2.unread xa) = xa := by
    rw [View.readAt_eq_ld, harg2.read_unread]; exact View.ld_unit_zero (S := S1024x2048) hz _ xa
  have hB : View.readAt (Elt F) arg3.view (Rect.unit ![0, 0] S2048x128.size inb_S2048x128_S2048x128_0_0).toLoadRect (harg3.unread xm) = xm := by
    rw [View.readAt_eq_ld, harg3.read_unread]; exact View.ld_unit_zero (S := S2048x128) hz _ xm
  refine congr (congr (congrArg (k1_pay2 (F := F)) hA) hB) ?_
  sl_unfold_words
  exact View.readCov_unit_zero (S := S1024x128) arg6.view hz _ _

set_option maxHeartbeats 1000000 in
/-- A middle step: the accumulator goes from xs to xs + xa·xm. -/
theorem run_mid_r1 (c : Dev nD) (i : grid1.Coords)
    (arg2 : Memref sig .tc .vmem S1024x2048 .f32) (harg2 : arg2.IsWhole) (arg3 : Memref sig .tc .vmem S2048x128 .f32) (harg3 : arg3.IsWhole)
    (arg4 : Memref sig .tc .vmem S128x128 .f32) (harg4 : arg4.IsWhole) (arg5 : Memref sig .tc .vmem S1024x128 .f32) (harg5 : arg5.IsWhole)
    (arg6 : Memref sig .tc .vmem S1024x128 .f32) (harg6 : arg6.IsWhole)
    (hfirst : ¬isFirst_r1 i) (hlast : ¬isLast_r1 i)
    (xa : Vec F S1024x2048 .f32) (xm : Vec F S2048x128 .f32) (xs : Vec F S1024x128 .f32) (E : Set ℕ) (K : PUnit → sProp 𝕄) :
    iprop(owns (c : Thread nD τ) arg2 fullShare xa ∗ owns (c : Thread nD τ) arg3 fullShare xm ∗ owns (c : Thread nD τ) arg6 fullShare xs
        ∗ (iprop(owns (c : Thread nD τ) arg2 fullShare xa ∗ owns (c : Thread nD τ) arg3 fullShare xm
            ∗ owns (c : Thread nD τ) arg6 fullShare (k1_pay2 xa xm xs)) -∗ K ⟨⟩))
      ⊢ wp frame (wpE (defs₀ (F := F)) Variants.none c none) E (cc1__agg_linear_kernel i arg2 harg2 arg3 harg3 arg4 harg4 arg5 harg5 arg6 harg6) K := by
  simp only [cc1__agg_linear_kernel_eq_skeleton]; unfold cc1__agg_linear_kernel_skel
  unfold owns
  iintro ⟨⟨%f2, %hf2, H2⟩, ⟨%f3, %hf3, H3⟩, ⟨%f6, %hf6, H6⟩, Hk⟩
  obtain rfl := harg2.eq_unread hf2; obtain rfl := harg3.eq_unread hf3; obtain rfl := harg6.eq_unread hf6
  sl_exec (disch := first | exact hfirst | exact hlast)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H6
  ipureintro
  have hz := zeroOff_r1
  refine (Cert.Lib.read_writes_cons_whole (S := S1024x128) arg6.view _ hz inb_S1024x128_S1024x128_0_0 _ _).trans ?_
  have hA : View.readAt (Elt F) arg2.view (Rect.unit ![0, 0] S1024x2048.size inb_S1024x2048_S1024x2048_0_0).toLoadRect (harg2.unread xa) = xa := by
    rw [View.readAt_eq_ld, harg2.read_unread]; exact View.ld_unit_zero (S := S1024x2048) hz _ xa
  have hB : View.readAt (Elt F) arg3.view (Rect.unit ![0, 0] S2048x128.size inb_S2048x128_S2048x128_0_0).toLoadRect (harg3.unread xm) = xm := by
    rw [View.readAt_eq_ld, harg3.read_unread]; exact View.ld_unit_zero (S := S2048x128) hz _ xm
  refine congr (congr (congrArg (k1_pay2 (F := F)) hA) hB) ?_
  sl_unfold_words
  rw [View.readAt_eq_ld, harg6.read_unread]; exact View.ld_unit_zero (S := S1024x128) hz _ xs

set_option maxHeartbeats 1000000 in
/-- A last step: the accumulator goes from xs to acc = xs + xa·xm, and the output tile, whatever it held, ends at
    the projection of acc through xw. -/
theorem run_last_r1 (c : Dev nD) (i : grid1.Coords)
    (arg2 : Memref sig .tc .vmem S1024x2048 .f32) (harg2 : arg2.IsWhole) (arg3 : Memref sig .tc .vmem S2048x128 .f32) (harg3 : arg3.IsWhole)
    (arg4 : Memref sig .tc .vmem S128x128 .f32) (harg4 : arg4.IsWhole) (arg5 : Memref sig .tc .vmem S1024x128 .f32) (harg5 : arg5.IsWhole)
    (arg6 : Memref sig .tc .vmem S1024x128 .f32) (harg6 : arg6.IsWhole)
    (hfirst : ¬isFirst_r1 i) (hlast : isLast_r1 i)
    (xa : Vec F S1024x2048 .f32) (xm : Vec F S2048x128 .f32) (xw : Vec F S128x128 .f32) (xs : Vec F S1024x128 .f32) (E : Set ℕ) (K : PUnit → sProp 𝕄) :
    iprop(owns (c : Thread nD τ) arg2 fullShare xa ∗ owns (c : Thread nD τ) arg3 fullShare xm ∗ owns (c : Thread nD τ) arg4 fullShare xw
        ∗ (∃ d, owns (c : Thread nD τ) arg5 fullShare d) ∗ owns (c : Thread nD τ) arg6 fullShare xs
        ∗ (iprop(owns (c : Thread nD τ) arg2 fullShare xa ∗ owns (c : Thread nD τ) arg3 fullShare xm ∗ owns (c : Thread nD τ) arg4 fullShare xw
            ∗ owns (c : Thread nD τ) arg5 fullShare (k1_pay3 (k1_pay2 xa xm xs) xw)
            ∗ owns (c : Thread nD τ) arg6 fullShare (k1_pay2 xa xm xs)) -∗ K ⟨⟩))
      ⊢ wp frame (wpE (defs₀ (F := F)) Variants.none c none) E (cc1__agg_linear_kernel i arg2 harg2 arg3 harg3 arg4 harg4 arg5 harg5 arg6 harg6) K := by
  simp only [cc1__agg_linear_kernel_eq_skeleton]; unfold cc1__agg_linear_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4; obtain rfl := harg6.eq_unread hf6
  sl_exec (disch := first | exact hfirst | exact hlast)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  have hz := zeroOff_r1
  have hA : View.readAt (Elt F) arg2.view (Rect.unit ![0, 0] S1024x2048.size inb_S1024x2048_S1024x2048_0_0).toLoadRect (harg2.unread xa) = xa := by
    rw [View.readAt_eq_ld, harg2.read_unread]; exact View.ld_unit_zero (S := S1024x2048) hz _ xa
  have hB : View.readAt (Elt F) arg3.view (Rect.unit ![0, 0] S2048x128.size inb_S2048x128_S2048x128_0_0).toLoadRect (harg3.unread xm) = xm := by
    rw [View.readAt_eq_ld, harg3.read_unread]; exact View.ld_unit_zero (S := S2048x128) hz _ xm
  have hS : View.readAt (Elt F) arg6.view (Rect.unit ![0, 0] S1024x128.size inb_S1024x128_S1024x128_0_0).toLoadRect (harg6.unread xs) = xs := by
    rw [View.readAt_eq_ld, harg6.read_unread]; exact View.ld_unit_zero (S := S1024x128) hz _ xs
  have hW : View.readAt (Elt F) arg4.view (Rect.unit ![0, 0] S128x128.size inb_S128x128_S128x128_0_0).toLoadRect (harg4.unread xw) = xw := by
    rw [View.readAt_eq_ld, harg4.read_unread]; exact View.ld_unit_zero (S := S128x128) hz _ xw
  isplitl [H5]
  · iexists _; isplitr
    swap; · iexact H5
    ipureintro
    refine (Cert.Lib.read_writes_cons_whole (S := S1024x128) arg5.view f5 hz inb_S1024x128_S1024x128_0_0 _ _).trans ?_
    refine congr (congrArg (k1_pay3 (F := F)) ?_) hW
    sl_unfold_words
    exact (View.readCov_unit_zero (S := S1024x128) arg6.view hz _ _).trans (congr (congr (congrArg (k1_pay2 (F := F)) hA) hB) hS)
  iexists _; isplitr
  swap; · iexact H6
  ipureintro
  sl_unfold_words
  refine (Cert.Lib.read_writes_cons_whole (S := S1024x128) arg6.view _ hz inb_S1024x128_S1024x128_0_0 _ _).trans ?_
  exact congr (congr (congrArg (k1_pay2 (F := F)) hA) hB) hS

end Cert.KernelIdeal.Hand

end
-- ==== Proof.KernelIdeal.Region1.Data.lean ====
/-
  An aggregate-and-project call (pipeline 1): what its buffers hold point by point, and the body obligation.

  Write A(t), M(t), W(t) for the blocks of the adjacency, the features and the weights that point t stages, read off
  the arrays as the region finds them. The accumulator after point n is

      acc(n) = 0 + A(n)·M(n)            when n % 8 = 0   (a row block's first reduction step),
      acc(n) = acc(n - 1) + A(n)·M(n)   otherwise,

  so after the last step of a row block it is the sum over the eight column blocks. The output tile after a last
  step t is acc(t)·W(t), in the program's first call clamped at zero. Between points the region's invariant holds the accumulator at acc of the point
  before (at anything before the first point), the other call's scoped buffers at anything, and the generator register.
-/
import proofs.«107928_j84456236909326_1_alg».proof.Proof.KernelIdeal.Region1.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: every statement below is made at this parameter
variable (V : (c : Dev nD) → (b : Ref sig .tc) → Buf (Elt F) ((c : Thread nD τ).loc b))

/-! ## The blocks the windows stage -/

/-- Window w's block at point t, read off its array as the region finds it. -/
def blk_r1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block, the feature block and the weight block of point t, at their literal shapes. -/
abbrev blkA_r1 (c : Dev nD) (t : Fin cfg1.N) : Vec F S1024x2048 .f32 := blk_r1 V c 0 t
abbrev blkM_r1 (c : Dev nD) (t : Fin cfg1.N) : Vec F S2048x128 .f32 := blk_r1 V c 1 t
abbrev blkW_r1 (c : Dev nD) (t : Fin cfg1.N) : Vec F S128x128 .f32 := blk_r1 V c 2 t

/-! ## The accumulator and the output tile, point by point -/

/-- The accumulator after the body at point n: restarted from zeros at a first step, else what point n - 1 left plus
    this point's product. -/
def accAt_r1 (c : Dev nD) : (n : ℕ) → n < cfg1.N → Vec F S1024x128 .f32
  | 0, h => k1_pay2 (blkA_r1 V c ⟨0, h⟩) (blkM_r1 V c ⟨0, h⟩) k1_pay1
  | n + 1, h =>
    if (n + 1) % 8 = 0 then k1_pay2 (blkA_r1 V c ⟨n + 1, h⟩) (blkM_r1 V c ⟨n + 1, h⟩) k1_pay1
    else k1_pay2 (blkA_r1 V c ⟨n + 1, h⟩) (blkM_r1 V c ⟨n + 1, h⟩) (accAt_r1 c n (Nat.lt_of_succ_lt h))

/-- At a first step the accumulator restarts. -/
theorem accAt_first_r1 (c : Dev nD) (t : Fin cfg1.N) (h : t.val % 8 = 0) :
    accAt_r1 V c t.val t.isLt = k1_pay2 (blkA_r1 V c t) (blkM_r1 V c t) k1_pay1 := by
  obtain ⟨n, hn⟩ := t
  cases n with
  | zero => rfl
  | succ n => exact if_pos h

/-- At any other step it adds onto what the point before left. -/
theorem accAt_next_r1 (c : Dev nD) (t : Fin cfg1.N) (h : ¬t.val % 8 = 0) :
    accAt_r1 V c t.val t.isLt
      = k1_pay2 (blkA_r1 V c t) (blkM_r1 V c t) (accAt_r1 V c (t.val - 1) (Nat.lt_of_le_of_lt (Nat.sub_le _ _) t.isLt)) := by
  obtain ⟨n, hn⟩ := t
  cases n with
  | zero => exact absurd (Nat.zero_mod _) h
  | succ n => exact if_neg h

/-- The output tile the body stores at a last step t: the accumulator projected through the weight block (in the
    program's first call then clamped at zero). (At the other points nothing is stored and the name is not consulted.) -/
def tileAt_r1 (c : Dev nD) (t : Fin cfg1.N) : Vec F S1024x128 .f32 :=
  k1_pay3 (accAt_r1 V c t.val t.isLt) (blkW_r1 V c t)

/-! ## The invariant between points -/

/-- Before point n: at n = 0 what the region hands over (the accumulator at anything); afterwards the accumulator at
    what point n - 1 left, the bystanders, and the generator register at some state. -/
def inv_r1 (c : Dev nD) : (n : ℕ) → n ≤ cfg1.N → sProp 𝕄
  | 0, _ => Pipeline.ΦA spec1 c
  | n + 1, hn => iprop(iprop(owns (c : Thread nD τ) accBuf_r1 fullShare (accAt_r1 V c n hn) ∗ bystanders_r1 (F := F) c) ∗ (∃ r, prngReg c r))

theorem inv_zero_r1 (c : Dev nD) (n : ℕ) (h : n ≤ cfg1.N) (hz : n = 0) : inv_r1 V c n h = Pipeline.ΦA spec1 c := by
  subst hz; rfl

theorem inv_succ_r1 (c : Dev nD) (n : ℕ) (hn : n < cfg1.N) :
    inv_r1 V c (n + 1) hn = iprop(iprop(owns (c : Thread nD τ) accBuf_r1 fullShare (accAt_r1 V c n hn) ∗ bystanders_r1 (F := F) c) ∗ (∃ r, prngReg c r)) := rfl

theorem inv_pos_r1 (c : Dev nD) (n : ℕ) (h : n ≤ cfg1.N) (hz : n ≠ 0) :
    inv_r1 V c n h = iprop(iprop(owns (c : Thread nD τ) accBuf_r1 fullShare (accAt_r1 V c (n - 1) (by omega)) ∗ bystanders_r1 (F := F) c) ∗ (∃ r, prngReg c r)) := by
  cases n with
  | zero => exact absurd rfl hz
  | succ n => rfl

/-! ## The proof data -/

/-- The arrays as the region finds them; after the body each input's buffer at its block and the output's at the tile;
    the invariant above; nothing owed; full shares. -/
def dat_r1 (c : Dev nD) : Dat τ (Elt F) Unit ℕ (UR sig nD τ) ℕ cfg1 c where
  A w := V c (Pipeline.arrRef spec1 w)
  after w t := match w with
    | ⟨0, _⟩ => blk_r1 V c 0 t
    | ⟨1, _⟩ => blk_r1 V c 1 t
    | ⟨2, _⟩ => blk_r1 V c 2 t
    | ⟨3, _⟩ => tileAt_r1 V c t
  Φ t := inv_r1 V c t.val (Nat.le_of_lt_succ t.isLt)
  q _ := fullShare
  owed _ := 0

theorem A_eq_r1 (c : Dev nD) (w : Fin cfg1.W) : (dat_r1 V c).A w = V c (Pipeline.arrRef spec1 w) := by
  dsimp only [dat_r1]

theorem after0_r1 (c : Dev nD) (t : Fin cfg1.N) : (dat_r1 V c).after 0 t = blk_r1 V c 0 t := by dsimp only [dat_r1]
theorem after1_r1 (c : Dev nD) (t : Fin cfg1.N) : (dat_r1 V c).after 1 t = blk_r1 V c 1 t := by dsimp only [dat_r1]
theorem after2_r1 (c : Dev nD) (t : Fin cfg1.N) : (dat_r1 V c).after 2 t = blk_r1 V c 2 t := by dsimp only [dat_r1]
theorem after3_r1 (c : Dev nD) (t : Fin cfg1.N) : (dat_r1 V c).after 3 t = tileAt_r1 V c t := by dsimp only [dat_r1]

theorem inv_castSucc_r1 (c : Dev nD) (t : Fin cfg1.N) :
    (dat_r1 V c).Φ t.castSucc = inv_r1 V c t.val (Nat.le_of_lt t.isLt) := by
  dsimp only [dat_r1]; simp only [Fin.coe_castSucc]

/-- An input's staging buffer holds its block at every point, whether or not the point fetched it: unfetched, the block
    index has not moved since the fetch. -/
theorem before0_r1 (c : Dev nD) (t : Fin cfg1.N) (d) : (dat_r1 V c).before 0 t d = blk_r1 V c 0 t :=
  ((dat_r1 V c).before_in_eq_fetched 0 rfl (fun _ => rfl) (fun _ _ _ => rfl) (fun t => by rw [after0_r1]; unfold Dat.blockOf blk_r1; rw [A_eq_r1]; try rfl) t d).trans
    (by unfold Dat.fetched Dat.blockOf blk_r1; rw [A_eq_r1]; try rfl)
theorem before1_r1 (c : Dev nD) (t : Fin cfg1.N) (d) : (dat_r1 V c).before 1 t d = blk_r1 V c 1 t :=
  ((dat_r1 V c).before_in_eq_fetched 1 rfl (fun _ => rfl) (fun _ _ _ => rfl) (fun t => by rw [after1_r1]; unfold Dat.blockOf blk_r1; rw [A_eq_r1]; try rfl) t d).trans
    (by unfold Dat.fetched Dat.blockOf blk_r1; rw [A_eq_r1]; try rfl)
theorem before2_r1 (c : Dev nD) (t : Fin cfg1.N) (d) : (dat_r1 V c).before 2 t d = blk_r1 V c 2 t :=
  ((dat_r1 V c).before_in_eq_fetched 2 rfl (fun _ => rfl) (fun _ _ _ => rfl) (fun t => by rw [after2_r1]; unfold Dat.blockOf blk_r1; rw [A_eq_r1]; try rfl) t d).trans
    (by unfold Dat.fetched Dat.blockOf blk_r1; rw [A_eq_r1]; try rfl)

/-! ## The body obligation -/

/-- What the body is called with at point t, -/
def bodyPre_r1 (c : Dev nD) (t : Fin cfg1.N) : sProp 𝕄 :=
  iprop((dat_r1 V c).Φ t.castSucc ∗ (dat_r1 V c).owesAt () t.castSucc
    ∗ (∃ d, owns (c : Thread nD τ) (bufA_r1 t) fullShare ((dat_r1 V c).before 0 t d))
    ∗ (∃ d, owns (c : Thread nD τ) (bufM_r1 t) fullShare ((dat_r1 V c).before 1 t d))
    ∗ (∃ d, owns (c : Thread nD τ) (bufW_r1 t) fullShare ((dat_r1 V c).before 2 t d))
    ∗ (∃ d, owns (c : Thread nD τ) (bufO_r1 t) fullShare ((dat_r1 V c).before 3 t d)))

/-- and what it returns. -/
def bodyPost_r1 (c : Dev nD) (t : Fin cfg1.N) : sProp 𝕄 :=
  iprop((dat_r1 V c).Φ t.succ ∗ (dat_r1 V c).owesAt () t.succ
    ∗ (dat_r1 V c).leavesExact 0 t
    ∗ (dat_r1 V c).leavesExact 1 t
    ∗ (dat_r1 V c).leavesExact 2 t
    ∗ (dat_r1 V c).leavesExact 3 t)

theorem leaves_in0_r1 (c : Dev nD) (t : Fin cfg1.N) :
    (dat_r1 V c).leavesExact 0 t = owns (c : Thread nD τ) (bufA_r1 t) fullShare (blk_r1 V c 0 t) := by
  unfold Dat.leavesExact; rw [live_in0_r1 t, after0_r1]
theorem leaves_in1_r1 (c : Dev nD) (t : Fin cfg1.N) :
    (dat_r1 V c).leavesExact 1 t = owns (c : Thread nD τ) (bufM_r1 t) fullShare (blk_r1 V c 1 t) := by
  unfold Dat.leavesExact; rw [live_in1_r1 t, after1_r1]
theorem leaves_in2_r1 (c : Dev nD) (t : Fin cfg1.N) :
    (dat_r1 V c).leavesExact 2 t = owns (c : Thread nD τ) (bufW_r1 t) fullShare (blk_r1 V c 2 t) := by
  unfold Dat.leavesExact; rw [live_in2_r1 t, after2_r1]

set_option maxHeartbeats 2000000 in
/-- The body at any point: the inputs' buffers hold their blocks; t % 8 says which kind of step the point is; the
    invariant hands over the accumulator at what the point before left (at anything before a first step) and takes it
    back at this point's value; off the last steps the output's buffer goes back as it came. -/
theorem sound_body_r1 (c : Dev nD) (t : Fin cfg1.N) :
    bodyPre_r1 V c t ⊢ wp frame (wpE (defs₀ (F := F)) Variants.none c none) Set.univ (bodyAt1 t) (fun _ => bodyPost_r1 V c t) := by
  unfold bodyPre_r1 bodyPost_r1 bodyAt1
  simp only [before0_r1, before1_r1, before2_r1]
  rw [show (dat_r1 V c).owesAt () t.succ = (dat_r1 V c).owesAt () t.castSucc from rfl]
  rw [show (dat_r1 V c).Φ t.succ = inv_r1 V c (t.val + 1) t.isLt from rfl, inv_succ_r1]
  rw [leaves_in0_r1, leaves_in1_r1, leaves_in2_r1]
  have hN : t.val < 128 := lt_of_lt_of_eq t.isLt (show cfg1.N = 128 from N_1)
  by_cases h0 : t.val % 8 = 0
  · -- a first step
    have hf : isFirst_r1 (grid1.coords t) := (isFirst_iff_r1 t).mpr h0
    have hl : ¬isLast_r1 (grid1.coords t) := fun h => by have := (isLast_iff_r1 t).mp h; omega
    rw [Dat.leavesExact_idle (dat_r1 V c) 3 t (idle_out_r1 t hl) (noFlush_out_r1 t hl), accAt_first_r1 V c t h0]
    have hΦ : (dat_r1 V c).Φ t.castSucc ⊢ (iprop(iprop((∃ d, owns (c : Thread nD τ) accBuf_r1 fullShare d) ∗ bystanders_r1 (F := F) c) ∗ (∃ r, prngReg c r)) : sProp 𝕄) := by
      rw [inv_castSucc_r1]
      by_cases hz : t.val = 0
      · rw [inv_zero_r1 V c _ _ hz, classInv_eq_r1]
      · rw [inv_pos_r1 V c _ _ hz]
        iintro ⟨⟨HS, HB⟩, Hg⟩
        isplitr [Hg]
        · isplitl [HS]
          · iexists _; iexact HS
          iexact HB
        iexact Hg
    iintro ⟨HΦ, Ho, ⟨%d0, H0⟩, ⟨%d1, H1⟩, ⟨%d2, H2⟩, H3⟩
    ihave HΦ' := hΦ $$ HΦ
    icases HΦ' with ⟨⟨HS, HB⟩, Hg⟩
    iapply (run_first_r1 c (grid1.coords t) _ _ _ _ (bufW_r1 t) (bufW_whole_r1 t) (bufO_r1 t) (bufO_whole_r1 t) _ _ hf hl (blkA_r1 V c t) (blkM_r1 V c t) Set.univ _)
    isplitl [H0]; · iexact H0
    isplitl [H1]; · iexact H1
    isplitl [HS]; · iexact HS
    iintro ⟨H0, H1, HS⟩
    isplitl [HS HB Hg]
    · isplitr [Hg]
      · isplitl [HS]; · iexact HS
        iexact HB
      iexact Hg
    isplitl [Ho]; · iexact Ho
    isplitl [H0]; · iexact H0
    isplitl [H1]; · iexact H1
    isplitl [H2]; · iexact H2
    iexact H3
  · have hf : ¬isFirst_r1 (grid1.coords t) := fun h => h0 ((isFirst_iff_r1 t).mp h)
    have hz : t.val ≠ 0 := fun e => h0 (by rw [e])
    rw [inv_castSucc_r1, inv_pos_r1 V c _ _ hz, accAt_next_r1 V c t h0]
    by_cases h7 : t.val % 8 = 7
    · -- a last step
      have hl : isLast_r1 (grid1.coords t) := (isLast_iff_r1 t).mpr h7
      rw [show (dat_r1 V c).leavesExact 3 t = owns (c : Thread nD τ) (bufO_r1 t) fullShare (tileAt_r1 V c t) from by
        unfold Dat.leavesExact; rw [live_out_r1 t hl, after3_r1]]
      unfold tileAt_r1
      rw [accAt_next_r1 V c t h0]
      iintro ⟨⟨⟨HS, HB⟩, Hg⟩, Ho, ⟨%d0, H0⟩, ⟨%d1, H1⟩, ⟨%d2, H2⟩, ⟨%d3, H3⟩⟩
      iapply (run_last_r1 c (grid1.coords t) _ _ _ _ _ _ _ _ _ _ hf hl (blkA_r1 V c t) (blkM_r1 V c t) (blkW_r1 V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HB Hg]
      · isplitr [Hg]
        · isplitl [HS]; · iexact HS
          iexact HB
        iexact Hg
      isplitl [Ho]; · iexact Ho
      isplitl [H0]; · iexact H0
      isplitl [H1]; · iexact H1
      isplitl [H2]; · iexact H2
      iexact H3
    · -- a middle step
      have hl : ¬isLast_r1 (grid1.coords t) := fun h => h7 ((isLast_iff_r1 t).mp h)
      rw [Dat.leavesExact_idle (dat_r1 V c) 3 t (idle_out_r1 t hl) (noFlush_out_r1 t hl)]
      iintro ⟨⟨⟨HS, HB⟩, Hg⟩, Ho, ⟨%d0, H0⟩, ⟨%d1, H1⟩, ⟨%d2, H2⟩, H3⟩
      iapply (run_mid_r1 c (grid1.coords t) _ _ _ _ (bufW_r1 t) (bufW_whole_r1 t) (bufO_r1 t) (bufO_whole_r1 t) _ _ hf hl (blkA_r1 V c t) (blkM_r1 V c t) _ Set.univ _)
      isplitl [H0]; · iexact H0
      isplitl [H1]; · iexact H1
      isplitl [HS]; · iexact HS
      iintro ⟨H0, H1, HS⟩
      isplitl [HS HB Hg]
      · isplitr [Hg]
        · isplitl [HS]; · iexact HS
          iexact HB
        iexact Hg
      isplitl [Ho]; · iexact Ho
      isplitl [H0]; · iexact H0
      isplitl [H1]; · iexact H1
      isplitl [H2]; · iexact H2
      iexact H3

/-- The library's body obligation, at every point. -/
theorem body_obligation_r1 (c : Dev nD) : BodyObligation (dat_r1 (F := F) V c) (defs₀ (F := F)) Variants.none () Set.univ := fun t => by
  rw [bigSep_W1, bigSep_W1]
  exact sound_body_r1 V c t

/-! ## The invariant at the region's ends -/

/-- What the region hands the body is the invariant before the first point. -/
theorem inv_in_r1 (c : Dev nD) : Pipeline.ΦA spec1 c ⊢ (dat_r1 V c).Φ 0 := by
  rw [show (dat_r1 V c).Φ 0 = inv_r1 V c 0 (Nat.zero_le _) from rfl, inv_zero_r1 V c 0 _ rfl]

/-- After the last point the invariant gives back what the region took: the accumulator's value is forgotten. -/
theorem inv_out_r1 (c : Dev nD) : (dat_r1 V c).Φ (Fin.last cfg1.N) ⊢ Pipeline.ΦA spec1 c := by
  have hN : cfg1.N = 128 := N_1
  rw [show (dat_r1 V c).Φ (Fin.last cfg1.N) = inv_r1 V c (Fin.last cfg1.N).val (Nat.le_of_lt_succ (Fin.last cfg1.N).isLt) from rfl,
    inv_pos_r1 V c _ _ (by rw [Fin.val_last]; omega), classInv_eq_r1]
  iintro ⟨⟨HS, HB⟩, Hg⟩
  isplitr [Hg]
  · isplitl [HS]
    · iexists _; iexact HS
    iexact HB
  iexact Hg

end Cert.KernelIdeal.Hand

end
-- ==== Proof.KernelIdeal.Launch.lean ====
/-
  The whole program as one run: two host transposes, then the two aggregate-and-project calls.

  The unscoped buffers' contents at each boundary are a fold from the launch memory: after the transposes (which write
  only their own results), after call 0 (its output array at what its write-backs leave, everything else as entered),
  after call 1 (likewise). Call 1 is entered at what call 0 left, so its feature operand IS call 0's output. No item
  writes an argument array: each argument reaches the end as launched. The result array is call 1's output array.
-/
import proofs.«107928_j84456236909326_1_alg».proof.Proof.KernelIdeal.Region0.Data
import proofs.«107928_j84456236909326_1_alg».proof.Proof.KernelIdeal.Region1.Data
import proofs.«107928_j84456236909326_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch, -/
abbrev cont0 : Dev nD → Valuation τ sig (Elt F) := fun c b => m (c, b)
/-- after the two transposes (call 0's entry), -/
abbrev cont1 : Dev nD → Valuation τ sig (Elt F) := fun c => StableHlo.after hostOps0 (cont0 m c)
/-- the same read at the core's own references: what call 0's proof data take. -/
abbrev entry0 : (c : Dev nD) → (b : Ref sig .tc) → Buf (Elt F) ((c : Thread nD τ).loc b) := fun c b => cont1 m c b
/-- After call 0: its arrays at what the pipeline leaves (the inputs as entered, the output's write-backs folded), every
    other buffer as entered. Call 1 is entered here. -/
def cont2 (c : Dev nD) : Valuation τ sig (Elt F) :=
  Pipeline.withArrays spec0 c (cont1 m c) fun w => (dat_r0 (entry0 m) c).arrAt w cfg0.N
theorem cont2_arr (c : Dev nD) (w : Fin cfg0.W) :
    cont2 m c (Proc.devRef .tc (Pipeline.arrRef spec0 w)) = (dat_r0 (entry0 m) c).arrAt w cfg0.N := by
  unfold cont2; exact Pipeline.withArrays_arr spec0 launch0.win.arr_inj c _ _ w
theorem cont2_of_ne (c : Dev nD) (b : Ref sig .tc) (hb : ∀ w, Pipeline.arrRef spec0 w ≠ b) :
    cont2 m c (Proc.devRef .tc b) = cont1 m c (Proc.devRef .tc b) := by
  unfold cont2; exact Pipeline.withArrays_of_ne spec0 c _ _ b hb
abbrev entry1 : (c : Dev nD) → (b : Ref sig .tc) → Buf (Elt F) ((c : Thread nD τ).loc b) := fun c b => cont2 m c b
theorem arrays_cont2 (c : Dev nD) (w : Fin cfg0.W) : (dat_r0 (entry0 m) c).arrAt w cfg0.N = entry1 m c (Pipeline.arrRef spec0 w) :=
  (cont2_arr m c w).symm
theorem others_cont2 (c : Dev nD) : ∀ b, b ∉ Finset.univ.image (Pipeline.arrRef spec0) → entry1 m c b = entry0 m c b :=
  fun b hb => cont2_of_ne m c b fun w e => hb (Finset.mem_image.mpr ⟨w, Finset.mem_univ _, e⟩)

/-- After call 1. -/
def cont3 (c : Dev nD) : Valuation τ sig (Elt F) :=
  Pipeline.withArrays spec1 c (cont2 m c) fun w => (dat_r1 (entry1 m) c).arrAt w cfg1.N
theorem cont3_arr (c : Dev nD) (w : Fin cfg1.W) :
    cont3 m c (Proc.devRef .tc (Pipeline.arrRef spec1 w)) = (dat_r1 (entry1 m) c).arrAt w cfg1.N := by
  unfold cont3; exact Pipeline.withArrays_arr spec1 launch1.win.arr_inj c _ _ w
theorem cont3_of_ne (c : Dev nD) (b : Ref sig .tc) (hb : ∀ w, Pipeline.arrRef spec1 w ≠ b) :
    cont3 m c (Proc.devRef .tc b) = cont2 m c (Proc.devRef .tc b) := by
  unfold cont3; exact Pipeline.withArrays_of_ne spec1 c _ _ b hb
abbrev exit1 : (c : Dev nD) → (b : Ref sig .tc) → Buf (Elt F) ((c : Thread nD τ).loc b) := fun c b => cont3 m c b
theorem arrays_cont3 (c : Dev nD) (w : Fin cfg1.W) : (dat_r1 (entry1 m) c).arrAt w cfg1.N = exit1 m c (Pipeline.arrRef spec1 w) :=
  (cont3_arr m c w).symm
theorem others_cont3 (c : Dev nD) : ∀ b, b ∉ Finset.univ.image (Pipeline.arrRef spec1) → exit1 m c b = entry1 m c b :=
  fun b hb => cont3_of_ne m c b fun w e => hb (Finset.mem_image.mpr ⟨w, Finset.mem_univ _, e⟩)

/-! ## The proof data family and what rides along -/

/-- Each call's proof data at its entry contents: a literal match on the call. -/
def pdats : (p : Fin 2) → (c : Dev nD) → Dat τ (Elt F) Unit ℕ (UR sig nD τ) ℕ (Pipeline.pin (pcfgs (F := F)) adm p) c
  | ⟨0, _⟩ => fun c => dat_r0 (entry0 m) c
  | ⟨1, _⟩ => fun c => dat_r1 (entry1 m) c
abbrev 𝒱₀ : Variants := Variants.none
/-- No core owes another anything. -/
abbrev L : GSem nD τ sig → Finset Unit := fun _ => ∅
abbrev lv : GSem nD τ sig → Unit → ℕ := fun _ _ => 0
/-- Beside the buffers, through every segment: the generator register at some state and the core owing nothing. -/
abbrev rides (c : Dev nD) : sProp 𝕄 := iprop((∃ r, prngReg c r) ∗ ∃ W, owes (c : Thread nD τ) (0 : CellTallies nD τ sig Unit) W)
/-- The transposes as a segment, from the launch contents. -/
abbrev hostSeg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (cont0 m) rides
/-- The last thread state without the owes: every unscoped buffer at the final contents, the generator register. -/
abbrev finalState (c : Dev nD) : sProp 𝕄 := iprop(StableHlo.held (c : Thread nD τ) (Pipeline.ucRefs τ sig) (cont3 m c) ∗ ∃ r, prngReg c r)

/-! ## The calls as segments -/

-- a library lemma stated over the pinned configuration unifies with the printed one only when unification may unfold
-- plain definitions in a metavariable's type
set_option backward.isDefEq.respectTransparency.types false in
/-- Call 0 as a segment of the program: entered with every unscoped buffer at `cont1`, left with them at `cont2`. Its
    windows' arrays are split out of the unscoped buffers on entry and put back, at what the write-backs leave, on exit;
    the generator register goes into the body's invariant and comes back; nothing is owed; the kernel has no semaphore
    of its own. -/
def call0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation_r0 (entry0 m) c).loose
  hwaits := Pipeline.hwaits_of_owed_zero _ _ _ _ L lv 0 fun _ _ => rfl
  pre c := iprop(StableHlo.held (c : Thread nD τ) (Pipeline.ucRefs τ sig) (cont1 m c) ∗ rides c)
  post c := iprop(StableHlo.held (c : Thread nD τ) (Pipeline.ucRefs τ sig) (cont2 m c) ∗ rides c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (inv_in_r0 (entry0 m) c)
    unfold Pipeline.ΦA
    iintro ⟨Hp, -, Hr⟩
    isplitl [Hr]; · iexact Hr
    iexact Hp
  hout c := by
    rw [Pipeline.ownSems0_none]
    refine BIBase.Entails.trans (inv_out_r0 (entry0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (entry1 m c) ((pdats m 0 c).arrAt · cfg0.N) (arrays_cont2 m c) (others_cont2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 1 as a segment of the program: entered with every unscoped buffer at `cont2`, left with them at `cont3`. Its
    windows' arrays are split out of the unscoped buffers on entry and put back, at what the write-backs leave, on exit;
    the generator register goes into the body's invariant and comes back; nothing is owed; the kernel has no semaphore
    of its own. -/
def call1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation_r1 (entry1 m) c).loose
  hwaits := Pipeline.hwaits_of_owed_zero _ _ _ _ L lv 1 fun _ _ => rfl
  pre c := iprop(StableHlo.held (c : Thread nD τ) (Pipeline.ucRefs τ sig) (cont2 m c) ∗ rides c)
  post c := iprop(finalState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (inv_in_r1 (entry1 m) c)
    unfold Pipeline.ΦA
    iintro ⟨Hp, -, Hr⟩
    isplitl [Hr]; · iexact Hr
    iexact Hp
  hout c := by
    rw [Pipeline.ownSems0_none]
    refine BIBase.Entails.trans (inv_out_r1 (entry1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (arrays_cont3 m c) (others_cont3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's three items in order. -/
abbrev items : List (Pipeline.Seg (pcfgs (F := F)) adm (pdats m) () defs₀ 𝒱₀ L lv) :=
  [ .host (hostSeg0 m), .region (call0 m), .region (call1 m) ]
/-- The program is the run of its items. -/
theorem main_items (c : Dev nD) : main (F := F) c = Pipeline.Seg.run (items m) := (main_chain c).trans (by chain_rfl)

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- From any memory with zero counters every weakly fair execution of the program terminates, nothing faulting, and
    every final memory holds each unscoped buffer of each core at `cont3`: whatever follows from that (`hQ`) holds of it. -/
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = cont3 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (cont0 m c) ∗ rides c)) (Tₙ := finalState m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (cont0 m c)
        from Pipeline.unscopedBufs_held c (cont0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = cont3 m c b)
    (hfin := fun c s' => by
      iintro ⟨⟨Hh, -⟩, HSI⟩
      unfold StableHlo.held
      imodintro
      iapply (pointsTo_read_all (Pipeline.ucRefs τ sig) (fun b => (((c : Thread nD τ)).1, b)) (cont3 m c) s')
      isplitl [Hh] <;> iassumption)
    (hQ := hQ)

/-! ## What the final contents are -/

/-- The transposes write only their own results. -/
theorem cont1_of (c : Dev nD) (r : Ref sig .tc) (h : r ∉ hostOps0_W) : cont1 m c r = cont0 m c r :=
  StableHlo.after_of_writes_sub hostOps0 _ hostOps0_writes h

/-- Each argument array reaches the end as launched. -/
theorem cont3_main_arg0 (c : Dev nD) : cont3 m c (Proc.devRef .tc main_arg0) = m ((c : Thread nD τ).loc main_arg0) :=
  calc cont3 m c (Proc.devRef .tc main_arg0)
    _ = cont2 m c (Proc.devRef .tc main_arg0) := (cont3_arr m c 0).trans (((dat_r1 (entry1 m) c).arrAt_in 0 rfl _).trans (A_eq_r1 (entry1 m) c 0))
    _ = cont1 m c (Proc.devRef .tc main_arg0) := (cont2_arr m c 0).trans (((dat_r0 (entry0 m) c).arrAt_in 0 rfl _).trans (A_eq_r0 (entry0 m) c 0))
    _ = m ((c : Thread nD τ).loc main_arg0) := cont1_of m c main_arg0 (by decide)
theorem cont3_main_arg1 (c : Dev nD) : cont3 m c (Proc.devRef .tc main_arg1) = m ((c : Thread nD τ).loc main_arg1) :=
  calc cont3 m c (Proc.devRef .tc main_arg1)
    _ = cont2 m c (Proc.devRef .tc main_arg1) := cont3_of_ne m c main_arg1 (by decide)
    _ = cont1 m c (Proc.devRef .tc main_arg1) := (cont2_arr m c 1).trans (((dat_r0 (entry0 m) c).arrAt_in 1 rfl _).trans (A_eq_r0 (entry0 m) c 1))
    _ = m ((c : Thread nD τ).loc main_arg1) := cont1_of m c main_arg1 (by decide)
theorem cont3_main_arg2 (c : Dev nD) : cont3 m c (Proc.devRef .tc main_arg2) = m ((c : Thread nD τ).loc main_arg2) :=
  calc cont3 m c (Proc.devRef .tc main_arg2)
    _ = cont2 m c (Proc.devRef .tc main_arg2) := cont3_of_ne m c main_arg2 (by decide)
    _ = cont1 m c (Proc.devRef .tc main_arg2) := cont2_of_ne m c main_arg2 (by decide)
    _ = m ((c : Thread nD τ).loc main_arg2) := cont1_of m c main_arg2 (by decide)
theorem cont3_main_arg3 (c : Dev nD) : cont3 m c (Proc.devRef .tc main_arg3) = m ((c : Thread nD τ).loc main_arg3) :=
  calc cont3 m c (Proc.devRef .tc main_arg3)
    _ = cont2 m c (Proc.devRef .tc main_arg3) := cont3_of_ne m c main_arg3 (by decide)
    _ = cont1 m c (Proc.devRef .tc main_arg3) := cont2_of_ne m c main_arg3 (by decide)
    _ = m ((c : Thread nD τ).loc main_arg3) := cont1_of m c main_arg3 (by decide)

/-- The result array ends at call 1's output array. -/
theorem cont3_main_v3 (c : Dev nD) : cont3 m c (Proc.devRef .tc main_v3) = (dat_r1 (entry1 m) c).arrAt 3 cfg1.N :=
  cont3_arr m c 3

/-- What call 1 is entered with: the adjacency as launched, call 0's output array as its features, the second
    transpose as its weights. -/
theorem entry1_main_arg0 (c : Dev nD) : entry1 m c main_arg0 = m ((c : Thread nD τ).loc main_arg0) :=
  ((cont2_arr m c 0).trans (((dat_r0 (entry0 m) c).arrAt_in 0 rfl _).trans (A_eq_r0 (entry0 m) c 0))).trans (cont1_of m c main_arg0 (by decide))
theorem entry1_main_v2 (c : Dev nD) : entry1 m c main_v2 = (dat_r0 (entry0 m) c).arrAt 3 cfg0.N := cont2_arr m c 3
theorem entry1_main_v1 (c : Dev nD) : entry1 m c main_v1 = entry0 m c main_v1 := cont2_of_ne m c main_v1 (by decide)
/-- What call 0 is entered with: the adjacency and the features as launched. -/
theorem entry0_main_arg0 (c : Dev nD) : entry0 m c main_arg0 = m ((c : Thread nD τ).loc main_arg0) := cont1_of m c main_arg0 (by decide)
theorem entry0_main_arg1 (c : Dev nD) : entry0 m c main_arg1 = m ((c : Thread nD τ).loc main_arg1) := cont1_of m c main_arg1 (by decide)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_all m ρ fun s h c =>
    ⟨(h c _ (mem_uc main_arg0 (by decide))).trans (cont3_main_arg0 m c),
     (h c _ (mem_uc main_arg1 (by decide))).trans (cont3_main_arg1 m c),
     (h c _ (mem_uc main_arg2 (by decide))).trans (cont3_main_arg2 m c),
     (h c _ (mem_uc main_arg3 (by decide))).trans (cont3_main_arg3 m c)⟩

end Cert.KernelIdeal.Hand

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KernelIdeal.Pay.lean ====
/-
  The body's three stored values, read at an index over the extended reals.

  At the ideal instance a change of float format is the identity and a matrix product into a zero accumulator is the
  plain sum of products over the contracted axis. So, for blocks a (1024 x 2048), b (2048 x 128), an accumulator s
  and a weight block w (128 x 128):
  * the cleared accumulator is 0 everywhere;
  * one accumulation step leaves s(p, q) + Σ_x a(p, x) · b(x, q);
  * the projection leaves Σ_q s(p, q) · w(q, d), which the program's first call then clamps at zero and its second
    call stores as it is.
-/
import proofs.«107928_j84456236909326_1_alg».proof.Proof.Gen.KernelIdeal.Skeleton
import proofs.«107928_j84456236909326_1_alg».proof.Proof.LibPlainDot
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- What the first call does to its projection: clamp at zero. -/
def post_r0 (x : EReal) : EReal := max x 0
/-- What the second call does to its projection: nothing. -/
def post_r1 (x : EReal) : EReal := x

/-- The cleared accumulator. -/
theorem pay1_apply_r0 (j : S1024x128.Idx) : (k0_pay1 (F := Ideal)) j = 0 := by
  unfold k0_pay1
  rw [shapeCast_self]
  exact Ideal.ofBits_zero_f32
theorem pay1_apply_r1 (j : S1024x128.Idx) : (k1_pay1 (F := Ideal)) j = 0 := by
  unfold k1_pay1
  rw [shapeCast_self]
  exact Ideal.ofBits_zero_f32

/-- One accumulation step. -/
theorem pay2_apply_r0 (a : Vec Ideal S1024x2048 .f32) (b : Vec Ideal S2048x128 .f32) (s : Vec Ideal S1024x128 .f32) (p : Fin 1024) (q : Fin 128) :
    k0_pay2 a b s (ix2 p q) = s (ix2 p q) + ∑ x : Fin 2048, a (ix2 p x) * b (ix2 x q) := by
  unfold k0_pay2
  rw [shapeCast_self]
  refine congrArg (s (ix2 p q) + ·) ?_
  refine (Ideal.matmul_constant_zero_apply dot_S1024x2048_S2048x128_S1024x128_1_0_0_1_n_n none _ _ (ix2 p q)).trans ?_
  exact PlainDot.sum_eq dot_S1024x2048_S2048x128_S1024x128_1_0_0_1_n_n rfl rfl rfl rfl rfl rfl _ _ p q
theorem pay2_apply_r1 (a : Vec Ideal S1024x2048 .f32) (b : Vec Ideal S2048x128 .f32) (s : Vec Ideal S1024x128 .f32) (p : Fin 1024) (q : Fin 128) :
    k1_pay2 a b s (ix2 p q) = s (ix2 p q) + ∑ x : Fin 2048, a (ix2 p x) * b (ix2 x q) := by
  unfold k1_pay2
  rw [shapeCast_self, shapeCast_self]
  refine congrArg (s (ix2 p q) + ·) ?_
  refine (Ideal.matmul_constant_zero_apply dot_S1024x2048_S2048x128_S1024x128_1_0_0_1_n_n none _ _ (ix2 p q)).trans ?_
  exact PlainDot.sum_eq dot_S1024x2048_S2048x128_S1024x128_1_0_0_1_n_n rfl rfl rfl rfl rfl rfl _ _ p q

/-- The projection, and what each call does to it. -/
theorem pay3_apply_r0 (s : Vec Ideal S1024x128 .f32) (w : Vec Ideal S128x128 .f32) (p : Fin 1024) (d : Fin 128) :
    k0_pay3 s w (ix2 p d) = post_r0 (∑ q : Fin 128, s (ix2 p q) * w (ix2 q d)) := by
  unfold k0_pay3 post_r0
  rw [shapeCast_self]
  refine congr (congrArg max ?_) Ideal.ofBits_zero_f32
  refine (Ideal.matmul_constant_zero_apply dot_S1024x128_S128x128_S1024x128_1_0_0_1_n_n none _ _ (ix2 p d)).trans ?_
  exact PlainDot.sum_eq dot_S1024x128_S128x128_S1024x128_1_0_0_1_n_n rfl rfl rfl rfl rfl rfl _ _ p d
theorem pay3_apply_r1 (s : Vec Ideal S1024x128 .f32) (w : Vec Ideal S128x128 .f32) (p : Fin 1024) (d : Fin 128) :
    k1_pay3 s w (ix2 p d) = post_r1 (∑ q : Fin 128, s (ix2 p q) * w (ix2 q d)) := by
  unfold k1_pay3 post_r1
  rw [shapeCast_self]
  refine (Ideal.matmul_constant_zero_apply dot_S1024x128_S128x128_S1024x128_1_0_0_1_n_n none _ _ (ix2 p d)).trans ?_
  exact PlainDot.sum_eq dot_S1024x128_S128x128_S1024x128_1_0_0_1_n_n rfl rfl rfl rfl rfl rfl _ _ p d

end Cert.KernelIdeal.Hand

end
-- ==== Proof.Spec.lean ====
/-
  The two-layer graph convolution as plain sums, and the law that joins a blocked sum to a whole one.

  For an adjacency matrix A (16384 x 16384), features M (16384 x 128) and weights W (128 x 128, already
  transposed), one layer computes at (n, d)

      ((A·M)·W)(n, d) = Σ_q ( Σ_k A(n, k) · M(k, q) ) · W(q, d).

  The hidden layer clamps this at zero; the output layer does not, and takes the hidden layer as its features. All
  arithmetic is on the extended reals, where addition is commutative and associative: a sum over 16384 terms may be
  taken as eight consecutive sums of 2048 terms, in order, starting from zero. No distributivity is used anywhere: both
  programs group the products the same way.
-/
import Idealize.ShloMosaic.Lib.ValueIdx
import Mathlib.Algebra.BigOperators.Fin
import Mathlib.Data.EReal.Basic

noncomputable section

namespace Cert.Spec

open Idealize.ShloMosaic Idealize.ShloMosaic.ValueIdx

/-- A matrix of extended reals, indexed as the programs index their rank-2 arrays. -/
abbrev Mat (r c : Nat) : Type := (⟨2, ![r, c]⟩ : Shape).Idx → EReal

/-- One layer before its activation: ((A·M)·W)(n, d). -/
def aggProj (A : Mat 16384 16384) (M : Mat 16384 128) (W : Mat 128 128) (n : Fin 16384) (d : Fin 128) : EReal :=
  ∑ q : Fin 128, (∑ k : Fin 16384, A (ix2 n k) * M (ix2 k q)) * W (ix2 q d)

/-- The hidden layer: one layer clamped at zero. -/
def hidden (A : Mat 16384 16384) (M : Mat 16384 128) (W : Mat 128 128) : Mat 16384 128 :=
  fun j => max (aggProj A M W (j 0) (j 1)) 0

/-- The output layer: one layer, no activation. -/
def output (A : Mat 16384 16384) (M : Mat 16384 128) (W : Mat 128 128) : Mat 16384 128 :=
  fun j => aggProj A M W (j 0) (j 1)

/-- The whole network: the output layer over the hidden layer. -/
def network (A : Mat 16384 16384) (X : Mat 16384 128) (W1t W2t : Mat 128 128) : Mat 16384 128 :=
  output A (hidden A X W1t) W2t

/-- Position x of column block kb, among 16384 columns cut into eight blocks of 2048. -/
def col (kb : Fin 8) (x : Fin 2048) : Fin 16384 := ⟨kb.val * 2048 + x.val, by have := kb.isLt; have := x.isLt; omega⟩

/-- A sum over all 16384 columns is the sum over the eight blocks of the sums within each block. -/
theorem sum_cols {M : Type} [AddCommMonoid M] (f : Fin 16384 → M) :
    ∑ k : Fin 16384, f k = ∑ kb : Fin 8, ∑ x : Fin 2048, f (col kb x) := by
  rw [← Fintype.sum_prod_type']
  refine (Fintype.sum_equiv (finProdFinEquiv (m := 8) (n := 2048)) (fun p => f (col p.1 p.2)) f fun p => ?_).symm
  refine congrArg f (Fin.ext ?_)
  simp only [col, finProdFinEquiv_apply_val]
  omega

/-- The blocks taken in order: the sum over the first b + 1 blocks is the sum over the first b plus block b's. -/
theorem sum_blocks_succ {M : Type} [AddCommMonoid M] (g : ℕ → M) (b : ℕ) :
    ∑ kb ∈ Finset.range (b + 1), g kb = (∑ kb ∈ Finset.range b, g kb) + g b :=
  Finset.sum_range_succ g b

/-- All eight blocks, counted by number, are the eight blocks. -/
theorem sum_range_eight {M : Type} [AddCommMonoid M] (g : Fin 8 → M) (g' : ℕ → M) (h : ∀ kb : Fin 8, g' kb.val = g kb) :
    ∑ kb ∈ Finset.range 8, g' kb = ∑ kb : Fin 8, g kb := by
  rw [Finset.sum_range]; exact Finset.sum_congr rfl fun kb _ => h kb

end Cert.Spec

end
-- ==== Proof.Blocks.lean ====
/-
  Rows and columns by blocks.

  The adjacency's 16384 rows fall into 16 blocks of 1024 and its 16384 columns into 8 blocks of 2048. Row p of row block
  i is row 1024·i + p; column x of column block kb is column 2048·kb + x. The block numbers are taken modulo their
  count, so that both are total functions of a natural number; below the count the reduction does nothing. Summing a
  function of the column over the eight column blocks in order gives its sum over all columns.
-/
import proofs.«107928_j84456236909326_1_alg».proof.Proof.Spec

noncomputable section

namespace Cert.Spec

/-- Row p of row block i. -/
def rowAt (i : ℕ) (p : Fin 1024) : Fin 16384 := ⟨i % 16 * 1024 + p.val, by have := Nat.mod_lt i (by norm_num : 16 > 0); have := p.isLt; omega⟩
/-- Column x of column block kb. -/
def colAt (kb : ℕ) (x : Fin 2048) : Fin 16384 := ⟨kb % 8 * 2048 + x.val, by have := Nat.mod_lt kb (by norm_num : 8 > 0); have := x.isLt; omega⟩

theorem rowAt_val (i : ℕ) (hi : i < 16) (p : Fin 1024) : (rowAt i p).val = i * 1024 + p.val := by
  show i % 16 * 1024 + p.val = i * 1024 + p.val
  rw [Nat.mod_eq_of_lt hi]
theorem colAt_val (kb : ℕ) (hk : kb < 8) (x : Fin 2048) : (colAt kb x).val = kb * 2048 + x.val := by
  show kb % 8 * 2048 + x.val = kb * 2048 + x.val
  rw [Nat.mod_eq_of_lt hk]
theorem colAt_eq_col (kb : Fin 8) (x : Fin 2048) : colAt kb.val x = col kb x :=
  Fin.ext (colAt_val kb.val kb.isLt x)

/-- The eight column blocks in order are all the columns. -/
theorem sum_col_blocks {M : Type} [AddCommMonoid M] (f : Fin 16384 → M) :
    ∑ kb ∈ Finset.range 8, ∑ x : Fin 2048, f (colAt kb x) = ∑ k : Fin 16384, f k := by
  rw [sum_cols f]
  exact sum_range_eight (fun kb => ∑ x : Fin 2048, f (col kb x)) (fun kb => ∑ x : Fin 2048, f (colAt kb x))
    fun kb => Finset.sum_congr rfl fun x _ => congrArg f (colAt_eq_col kb x)

/-- Every row is some row of some row block. -/
theorem row_split (n : Fin 16384) : n = rowAt (n.val / 1024) ⟨n.val % 1024, Nat.mod_lt _ (by norm_num)⟩ := by
  have := n.isLt
  apply Fin.ext
  rw [rowAt_val _ (by omega)]
  show n.val = n.val / 1024 * 1024 + n.val % 1024
  omega

end Cert.Spec

end
-- ==== Proof.KernelIdeal.Region0.Value.lean ====
/-
  What an aggregate-and-project call (pipeline 0) leaves in its output array, over the extended reals.

  Point t = 8·i + k stages rows 1024·i … of the adjacency against columns 2048·k …, and rows 2048·k … of the features.
  By induction on the point, the accumulator after point n holds, at (p, q),

      Σ_{kb ≤ n % 8} Σ_{x < 2048} A(1024·(n / 8) + p, 2048·kb + x) · M(2048·kb + x, q):

  a first step starts from 0 + the block's sum, every other step adds its block's sum to the sum of the blocks before
  it. At a last step (n % 8 = 7) all eight column blocks are in, which is the sum over every column. The tile stored
  there is the call's projection of those 128 sums through the weights, so tile entry (p, d) is the call's function of
  ((A·M)·W)(1024·i + p, d). The output's blocks are written back exactly at the last steps, block i at rows
  1024·i …, and these sixteen blocks tile the array: it ends holding that function at every index.
-/
import proofs.«107928_j84456236909326_1_alg».proof.Proof.KernelIdeal.Region0.Data
import proofs.«107928_j84456236909326_1_alg».proof.Proof.KernelIdeal.Pay
import proofs.«107928_j84456236909326_1_alg».proof.Proof.Blocks
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Cert.Spec (rowAt colAt)

variable (V : (c : Dev nD) → (b : Ref sig .tc) → Buf (Elt Ideal) ((c : Thread nD τ).loc b))

/-- The adjacency, the features and the weights as the region finds them, at their literal shapes. -/
abbrev arrA_r0 (c : Dev nD) : Vec Ideal S16384x16384 .f32 := V c (Pipeline.arrRef spec0 0)
abbrev arrM_r0 (c : Dev nD) : Vec Ideal S16384x128 .f32 := V c (Pipeline.arrRef spec0 1)
abbrev arrW_r0 (c : Dev nD) : Vec Ideal S128x128 .f32 := V c (Pipeline.arrRef spec0 2)

/-- What the output array ends holding: the call's function of ((A·M)·W) at every index. -/
def outArr_r0 (c : Dev nD) : Vec Ideal S16384x128 .f32 :=
  fun j => post_r0 (Cert.Spec.aggProj (arrA_r0 V c) (arrM_r0 V c) (arrW_r0 V c) (j 0) (j 1))

/-! ## The blocks the windows stage, read at an index -/

/-- The printed index maps over the grid: the adjacency's block is (t / 8, t % 8), the features' (t % 8, 0), the
    weights' (0, 0), the output's (t / 8, 0). -/
theorem idx_facts_r0 : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

/-- Entry (p, x) of the adjacency block of point n is the adjacency at row p of row block n / 8, column x of column
    block n % 8. -/
theorem blkA_at_r0 (c : Dev nD) (n : ℕ) (hn : n < cfg0.N) (p : Fin 1024) (x : Fin 2048) :
    blkA_r0 (F := Ideal) V c ⟨n, hn⟩ (ix2 p x) = arrA_r0 V c (ix2 (rowAt (n / 8) p) (colAt (n % 8) x)) := by
  obtain ⟨e0, e1, -⟩ := idx_facts_r0 ⟨n, hn⟩
  have hN : n < 128 := lt_of_lt_of_eq hn (show cfg0.N = 128 from N_0)
  show V c (Pipeline.arrRef spec0 0) (((cfg0.win 0).blk ⟨n, hn⟩).view.emb (ix2 p x)) = V c (Pipeline.arrRef spec0 0) (ix2 (rowAt (n / 8) p) (colAt (n % 8) x))
  refine congrArg (V c (Pipeline.arrRef spec0 0)) ?_
  funext a; apply Fin.ext
  match a with
  | ⟨0, _⟩ =>
    show win0_0.index ⟨n, hn⟩ (0 : Fin 2) * 1024 + 1 * p.val = (rowAt (n / 8) p).val
    rw [Cert.Spec.rowAt_val _ (by omega), e0]; show n / 8 * 1024 + 1 * p.val = n / 8 * 1024 + p.val; omega
  | ⟨1, _⟩ =>
    show win0_0.index ⟨n, hn⟩ (1 : Fin 2) * 2048 + 1 * x.val = (colAt (n % 8) x).val
    rw [Cert.Spec.colAt_val _ (by omega), e1]; show n % 8 * 2048 + 1 * x.val = n % 8 * 2048 + x.val; omega

/-- Entry (x, q) of the feature block of point n is the features at column-block row x of block n % 8, column q. -/
theorem blkM_at_r0 (c : Dev nD) (n : ℕ) (hn : n < cfg0.N) (x : Fin 2048) (q : Fin 128) :
    blkM_r0 (F := Ideal) V c ⟨n, hn⟩ (ix2 x q) = arrM_r0 V c (ix2 (colAt (n % 8) x) q) := by
  obtain ⟨-, -, e2, e3, -⟩ := idx_facts_r0 ⟨n, hn⟩
  have hN : n < 128 := lt_of_lt_of_eq hn (show cfg0.N = 128 from N_0)
  show V c (Pipeline.arrRef spec0 1) (((cfg0.win 1).blk ⟨n, hn⟩).view.emb (ix2 x q)) = V c (Pipeline.arrRef spec0 1) (ix2 (colAt (n % 8) x) q)
  refine congrArg (V c (Pipeline.arrRef spec0 1)) ?_
  funext a; apply Fin.ext
  match a with
  | ⟨0, _⟩ =>
    show win0_1.index ⟨n, hn⟩ (0 : Fin 2) * 2048 + 1 * x.val = (colAt (n % 8) x).val
    rw [Cert.Spec.colAt_val _ (by omega), e2]; show n % 8 * 2048 + 1 * x.val = n % 8 * 2048 + x.val; omega
  | ⟨1, _⟩ =>
    show win0_1.index ⟨n, hn⟩ (1 : Fin 2) * 128 + 1 * q.val = q.val
    rw [e3]; omega

/-- The weight block of every point is the whole weight matrix. -/
theorem blkW_at_r0 (c : Dev nD) (t : Fin cfg0.N) (q : Fin 128) (d : Fin 128) :
    blkW_r0 (F := Ideal) V c t (ix2 q d) = arrW_r0 V c (ix2 q d) := by
  obtain ⟨-, -, -, -, e4, e5, -⟩ := idx_facts_r0 t
  show V c (Pipeline.arrRef spec0 2) (((cfg0.win 2).blk t).view.emb (ix2 q d)) = V c (Pipeline.arrRef spec0 2) (ix2 q d)
  refine congrArg (V c (Pipeline.arrRef spec0 2)) ?_
  funext a; apply Fin.ext
  match a with
  | ⟨0, _⟩ =>
    show win0_2.index t (0 : Fin 2) * 128 + 1 * q.val = q.val
    rw [e4]; omega
  | ⟨1, _⟩ =>
    show win0_2.index t (1 : Fin 2) * 128 + 1 * d.val = d.val
    rw [e5]; omega

/-! ## The accumulator in closed form -/

/-- One accumulation step at point n, over the arrays: s(p, q) plus column block n % 8's share of row
    1024·(n / 8) + p of A·M. -/
theorem step_at_r0 (c : Dev nD) (n : ℕ) (hn : n < cfg0.N) (s : Vec Ideal S1024x128 .f32) (p : Fin 1024) (q : Fin 128) :
    k0_pay2 (blkA_r0 (F := Ideal) V c ⟨n, hn⟩) (blkM_r0 (F := Ideal) V c ⟨n, hn⟩) s (ix2 p q)
      = s (ix2 p q) + ∑ x : Fin 2048, arrA_r0 V c (ix2 (rowAt (n / 8) p) (colAt (n % 8) x)) * arrM_r0 V c (ix2 (colAt (n % 8) x) q) := by
  refine (pay2_apply_r0 (blkA_r0 (F := Ideal) V c ⟨n, hn⟩) (blkM_r0 (F := Ideal) V c ⟨n, hn⟩) s p q).trans ?_
  refine congrArg (s (ix2 p q) + ·) (Finset.sum_congr rfl fun x _ => ?_)
  rw [blkA_at_r0 V c n hn p x, blkM_at_r0 V c n hn x q]

/-- The share of row 1024·(n / 8) + p of A·M, column q, that the column blocks up to n % 8 contribute. -/
def partial_r0 (c : Dev nD) (n : ℕ) (p : Fin 1024) (q : Fin 128) : EReal :=
  ∑ kb ∈ Finset.range (n % 8 + 1), ∑ x : Fin 2048, arrA_r0 V c (ix2 (rowAt (n / 8) p) (colAt kb x)) * arrM_r0 V c (ix2 (colAt kb x) q)

/-- The accumulator after point n is that share. -/
theorem acc_at_r0 (c : Dev nD) : ∀ (n : ℕ) (hn : n < cfg0.N) (p : Fin 1024) (q : Fin 128),
    accAt_r0 (F := Ideal) V c n hn (ix2 p q) = partial_r0 V c n p q := by
  intro n
  induction n with
  | zero =>
    intro hn p q
    have e : accAt_r0 (F := Ideal) V c 0 hn = k0_pay2 (blkA_r0 V c ⟨0, hn⟩) (blkM_r0 V c ⟨0, hn⟩) (k0_pay1 (F := Ideal)) := rfl
    rw [e, step_at_r0 V c 0 hn _ p q, pay1_apply_r0, zero_add]
    unfold partial_r0
    rw [show 0 % 8 + 1 = 1 from rfl, Finset.sum_range_one]
  | succ k ih =>
    intro hn p q
    have e : accAt_r0 (F := Ideal) V c (k + 1) hn
        = if (k + 1) % 8 = 0 then k0_pay2 (blkA_r0 V c ⟨k + 1, hn⟩) (blkM_r0 V c ⟨k + 1, hn⟩) (k0_pay1 (F := Ideal))
          else k0_pay2 (blkA_r0 V c ⟨k + 1, hn⟩) (blkM_r0 V c ⟨k + 1, hn⟩) (accAt_r0 V c k (Nat.lt_of_succ_lt hn)) := rfl
    rw [e]
    by_cases h : (k + 1) % 8 = 0
    · rw [if_pos h, step_at_r0 V c (k + 1) hn _ p q, pay1_apply_r0, zero_add]
      unfold partial_r0
      rw [h, show 0 + 1 = 1 from rfl, Finset.sum_range_one]
    · rw [if_neg h, step_at_r0 V c (k + 1) hn _ p q, ih (Nat.lt_of_succ_lt hn) p q]
      unfold partial_r0
      have h1 : (k + 1) % 8 = k % 8 + 1 := by omega
      have h2 : (k + 1) / 8 = k / 8 := by omega
      rw [h1, h2]
      exact (Finset.sum_range_succ (fun kb => ∑ x : Fin 2048, arrA_r0 V c (ix2 (rowAt (k / 8) p) (colAt kb x)) * arrM_r0 V c (ix2 (colAt kb x) q)) (k % 8 + 1)).symm

/-! ## The tile at a last step -/

/-- At a last step of row block t / 8 the tile holds, at (p, d), the call's function of ((A·M)·W) at row p of that
    row block, column d. -/
theorem tile_at_r0 (c : Dev nD) (t : Fin cfg0.N) (h7 : t.val % 8 = 7) (p : Fin 1024) (d : Fin 128) :
    tileAt_r0 (F := Ideal) V c t (ix2 p d)
      = post_r0 (Cert.Spec.aggProj (arrA_r0 V c) (arrM_r0 V c) (arrW_r0 V c) (rowAt (t.val / 8) p) d) := by
  unfold tileAt_r0
  refine (pay3_apply_r0 (accAt_r0 (F := Ideal) V c t.val t.isLt) (blkW_r0 (F := Ideal) V c t) p d).trans ?_
  refine congrArg post_r0 ?_
  unfold Cert.Spec.aggProj
  refine Finset.sum_congr rfl fun q _ => ?_
  rw [acc_at_r0 V c t.val t.isLt p q, blkW_at_r0 V c t q d]
  refine congrArg (· * arrW_r0 V c (ix2 q d)) ?_
  unfold partial_r0
  rw [h7]
  exact Cert.Spec.sum_col_blocks fun k => arrA_r0 V c (ix2 (rowAt (t.val / 8) p) k) * arrM_r0 V c (ix2 k q)

/-! ## From the tiles to the array -/

/-- The output's block is written back exactly at the last steps. -/
theorem flush_iff_r0 : ∀ t : Fin cfg0.N, (cfg0.win 3).flush t = true ↔ t.val % 8 = 7 :=
  (by decide +kernel : ∀ t : Fin grid0.N, win0_3.flush t = true ↔ t.val % 8 = 7)

/-- What a last step t writes back is block t of `outArr_r0`. -/
theorem flushed_eq_r0 (c : Dev nD) (t : Fin cfg0.N) (hf : (cfg0.win 3).flush t = true) :
    (dat_r0 (F := Ideal) V c).flushed 3 t = ((cfg0.win 3).blk t).view.read (Elt Ideal) (outArr_r0 V c) := by
  have h7 : t.val % 8 = 7 := (flush_iff_r0 t).mp hf
  obtain ⟨-, -, -, -, -, -, e6, e7⟩ := idx_facts_r0 t
  have hN : t.val < 128 := lt_of_lt_of_eq t.isLt (show cfg0.N = 128 from N_0)
  show (cfg0.win 3).cut (grid0.coords t) ((dat_r0 (F := Ideal) V c).after 3 t) = _
  rw [after3_r0]
  funext j
  obtain ⟨p, d, rfl⟩ : ∃ (p : Fin 1024) (d : Fin 128), j = ix2 p d := ⟨j 0, j 1, eq_ix2 j⟩
  show tileAt_r0 (F := Ideal) V c t (ix2 p d) = outArr_r0 V c (((cfg0.win 3).blk t).view.emb (ix2 p d))
  rw [tile_at_r0 V c t h7 p d]
  have he : ((cfg0.win 3).blk t).view.emb (ix2 p d) = ix2 (rowAt (t.val / 8) p) d := by
    funext a; apply Fin.ext
    match a with
    | ⟨0, _⟩ =>
      show win0_3.index t (0 : Fin 2) * 1024 + 1 * p.val = (rowAt (t.val / 8) p).val
      rw [Cert.Spec.rowAt_val _ (by omega), e6]; show t.val / 8 * 1024 + 1 * p.val = t.val / 8 * 1024 + p.val; omega
    | ⟨1, _⟩ =>
      show win0_3.index t (1 : Fin 2) * 128 + 1 * d.val = d.val
      rw [e7]; omega
  rw [he]
  rfl

/-- An index of the output array is in point t's block iff each coordinate is in the block's range on its axis. -/
theorem mem_blk_r0 (t : Fin cfg0.N) (i : S16384x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole (Pipeline.arrRef spec0 3)).slice (win0_3.rect t)).set ↔ _
  rw [View.set_slice_whole, Rect.mem_set_unit]
  exact Iff.rfl

/-- Every index of the output array is in the block some last step writes back: row n is in row block n / 1024, whose
    last step is point 8·(n / 1024) + 7. -/
theorem cover_r0 (i : S16384x128.Idx) :
    ∃ t : Fin cfg0.N, (cfg0.win 3).flush t = true ∧ i ∈ ((cfg0.win 3).blk t).view.set := by
  have hi0 : (i 0).val < 16384 := (i 0).isLt
  have hi1 : (i 1).val < 128 := (i 1).isLt
  have hlt : (i 0).val / 1024 * 8 + 7 < cfg0.N := by rw [show cfg0.N = 128 from N_0]; omega
  refine ⟨⟨(i 0).val / 1024 * 8 + 7, hlt⟩, (flush_iff_r0 _).mpr (by show ((i 0).val / 1024 * 8 + 7) % 8 = 7; omega), ?_⟩
  rw [mem_blk_r0]
  obtain ⟨-, -, -, -, -, -, e6, e7⟩ := idx_facts_r0 ⟨(i 0).val / 1024 * 8 + 7, hlt⟩
  intro a
  match a with
  | ⟨0, _⟩ =>
    show win0_3.index ⟨(i 0).val / 1024 * 8 + 7, hlt⟩ (0 : Fin 2) * 1024 ≤ (i 0).val ∧ (i 0).val < win0_3.index ⟨(i 0).val / 1024 * 8 + 7, hlt⟩ (0 : Fin 2) * 1024 + 1024
    rw [e6]; show ((i 0).val / 1024 * 8 + 7) / 8 * 1024 ≤ (i 0).val ∧ (i 0).val < ((i 0).val / 1024 * 8 + 7) / 8 * 1024 + 1024; omega
  | ⟨1, _⟩ =>
    show win0_3.index ⟨(i 0).val / 1024 * 8 + 7, hlt⟩ (1 : Fin 2) * 128 ≤ (i 1).val ∧ (i 1).val < win0_3.index ⟨(i 0).val / 1024 * 8 + 7, hlt⟩ (1 : Fin 2) * 128 + 128
    rw [e7]; omega

/-- THE OUTPUT ARRAY after the call: the call's function of ((A·M)·W) at every index. -/
theorem out_array_r0 (c : Dev nD) : (dat_r0 (F := Ideal) V c).arrAt 3 cfg0.N = outArr_r0 V c :=
  (dat_r0 (F := Ideal) V c).arrAt_eq_of_cover 3 (outArr_r0 V c) (fun t hf => flushed_eq_r0 V c t hf) (cover_r0)

end Cert.KernelIdeal.Hand

end
-- ==== Proof.KernelIdeal.Region1.Value.lean ====
/-
  What an aggregate-and-project call (pipeline 1) leaves in its output array, over the extended reals.

  Point t = 8·i + k stages rows 1024·i … of the adjacency against columns 2048·k …, and rows 2048·k … of the features.
  By induction on the point, the accumulator after point n holds, at (p, q),

      Σ_{kb ≤ n % 8} Σ_{x < 2048} A(1024·(n / 8) + p, 2048·kb + x) · M(2048·kb + x, q):

  a first step starts from 0 + the block's sum, every other step adds its block's sum to the sum of the blocks before
  it. At a last step (n % 8 = 7) all eight column blocks are in, which is the sum over every column. The tile stored
  there is the call's projection of those 128 sums through the weights, so tile entry (p, d) is the call's function of
  ((A·M)·W)(1024·i + p, d). The output's blocks are written back exactly at the last steps, block i at rows
  1024·i …, and these sixteen blocks tile the array: it ends holding that function at every index.
-/
import proofs.«107928_j84456236909326_1_alg».proof.Proof.KernelIdeal.Region1.Data
import proofs.«107928_j84456236909326_1_alg».proof.Proof.KernelIdeal.Pay
import proofs.«107928_j84456236909326_1_alg».proof.Proof.Blocks
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Cert.Spec (rowAt colAt)

variable (V : (c : Dev nD) → (b : Ref sig .tc) → Buf (Elt Ideal) ((c : Thread nD τ).loc b))

/-- The adjacency, the features and the weights as the region finds them, at their literal shapes. -/
abbrev arrA_r1 (c : Dev nD) : Vec Ideal S16384x16384 .f32 := V c (Pipeline.arrRef spec1 0)
abbrev arrM_r1 (c : Dev nD) : Vec Ideal S16384x128 .f32 := V c (Pipeline.arrRef spec1 1)
abbrev arrW_r1 (c : Dev nD) : Vec Ideal S128x128 .f32 := V c (Pipeline.arrRef spec1 2)

/-- What the output array ends holding: the call's function of ((A·M)·W) at every index. -/
def outArr_r1 (c : Dev nD) : Vec Ideal S16384x128 .f32 :=
  fun j => post_r1 (Cert.Spec.aggProj (arrA_r1 V c) (arrM_r1 V c) (arrW_r1 V c) (j 0) (j 1))

/-! ## The blocks the windows stage, read at an index -/

/-- The printed index maps over the grid: the adjacency's block is (t / 8, t % 8), the features' (t % 8, 0), the
    weights' (0, 0), the output's (t / 8, 0). -/
theorem idx_facts_r1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

/-- Entry (p, x) of the adjacency block of point n is the adjacency at row p of row block n / 8, column x of column
    block n % 8. -/
theorem blkA_at_r1 (c : Dev nD) (n : ℕ) (hn : n < cfg1.N) (p : Fin 1024) (x : Fin 2048) :
    blkA_r1 (F := Ideal) V c ⟨n, hn⟩ (ix2 p x) = arrA_r1 V c (ix2 (rowAt (n / 8) p) (colAt (n % 8) x)) := by
  obtain ⟨e0, e1, -⟩ := idx_facts_r1 ⟨n, hn⟩
  have hN : n < 128 := lt_of_lt_of_eq hn (show cfg1.N = 128 from N_1)
  show V c (Pipeline.arrRef spec1 0) (((cfg1.win 0).blk ⟨n, hn⟩).view.emb (ix2 p x)) = V c (Pipeline.arrRef spec1 0) (ix2 (rowAt (n / 8) p) (colAt (n % 8) x))
  refine congrArg (V c (Pipeline.arrRef spec1 0)) ?_
  funext a; apply Fin.ext
  match a with
  | ⟨0, _⟩ =>
    show win1_0.index ⟨n, hn⟩ (0 : Fin 2) * 1024 + 1 * p.val = (rowAt (n / 8) p).val
    rw [Cert.Spec.rowAt_val _ (by omega), e0]; show n / 8 * 1024 + 1 * p.val = n / 8 * 1024 + p.val; omega
  | ⟨1, _⟩ =>
    show win1_0.index ⟨n, hn⟩ (1 : Fin 2) * 2048 + 1 * x.val = (colAt (n % 8) x).val
    rw [Cert.Spec.colAt_val _ (by omega), e1]; show n % 8 * 2048 + 1 * x.val = n % 8 * 2048 + x.val; omega

/-- Entry (x, q) of the feature block of point n is the features at column-block row x of block n % 8, column q. -/
theorem blkM_at_r1 (c : Dev nD) (n : ℕ) (hn : n < cfg1.N) (x : Fin 2048) (q : Fin 128) :
    blkM_r1 (F := Ideal) V c ⟨n, hn⟩ (ix2 x q) = arrM_r1 V c (ix2 (colAt (n % 8) x) q) := by
  obtain ⟨-, -, e2, e3, -⟩ := idx_facts_r1 ⟨n, hn⟩
  have hN : n < 128 := lt_of_lt_of_eq hn (show cfg1.N = 128 from N_1)
  show V c (Pipeline.arrRef spec1 1) (((cfg1.win 1).blk ⟨n, hn⟩).view.emb (ix2 x q)) = V c (Pipeline.arrRef spec1 1) (ix2 (colAt (n % 8) x) q)
  refine congrArg (V c (Pipeline.arrRef spec1 1)) ?_
  funext a; apply Fin.ext
  match a with
  | ⟨0, _⟩ =>
    show win1_1.index ⟨n, hn⟩ (0 : Fin 2) * 2048 + 1 * x.val = (colAt (n % 8) x).val
    rw [Cert.Spec.colAt_val _ (by omega), e2]; show n % 8 * 2048 + 1 * x.val = n % 8 * 2048 + x.val; omega
  | ⟨1, _⟩ =>
    show win1_1.index ⟨n, hn⟩ (1 : Fin 2) * 128 + 1 * q.val = q.val
    rw [e3]; omega

/-- The weight block of every point is the whole weight matrix. -/
theorem blkW_at_r1 (c : Dev nD) (t : Fin cfg1.N) (q : Fin 128) (d : Fin 128) :
    blkW_r1 (F := Ideal) V c t (ix2 q d) = arrW_r1 V c (ix2 q d) := by
  obtain ⟨-, -, -, -, e4, e5, -⟩ := idx_facts_r1 t
  show V c (Pipeline.arrRef spec1 2) (((cfg1.win 2).blk t).view.emb (ix2 q d)) = V c (Pipeline.arrRef spec1 2) (ix2 q d)
  refine congrArg (V c (Pipeline.arrRef spec1 2)) ?_
  funext a; apply Fin.ext
  match a with
  | ⟨0, _⟩ =>
    show win1_2.index t (0 : Fin 2) * 128 + 1 * q.val = q.val
    rw [e4]; omega
  | ⟨1, _⟩ =>
    show win1_2.index t (1 : Fin 2) * 128 + 1 * d.val = d.val
    rw [e5]; omega

/-! ## The accumulator in closed form -/

/-- One accumulation step at point n, over the arrays: s(p, q) plus column block n % 8's share of row
    1024·(n / 8) + p of A·M. -/
theorem step_at_r1 (c : Dev nD) (n : ℕ) (hn : n < cfg1.N) (s : Vec Ideal S1024x128 .f32) (p : Fin 1024) (q : Fin 128) :
    k1_pay2 (blkA_r1 (F := Ideal) V c ⟨n, hn⟩) (blkM_r1 (F := Ideal) V c ⟨n, hn⟩) s (ix2 p q)
      = s (ix2 p q) + ∑ x : Fin 2048, arrA_r1 V c (ix2 (rowAt (n / 8) p) (colAt (n % 8) x)) * arrM_r1 V c (ix2 (colAt (n % 8) x) q) := by
  refine (pay2_apply_r1 (blkA_r1 (F := Ideal) V c ⟨n, hn⟩) (blkM_r1 (F := Ideal) V c ⟨n, hn⟩) s p q).trans ?_
  refine congrArg (s (ix2 p q) + ·) (Finset.sum_congr rfl fun x _ => ?_)
  rw [blkA_at_r1 V c n hn p x, blkM_at_r1 V c n hn x q]

/-- The share of row 1024·(n / 8) + p of A·M, column q, that the column blocks up to n % 8 contribute. -/
def partial_r1 (c : Dev nD) (n : ℕ) (p : Fin 1024) (q : Fin 128) : EReal :=
  ∑ kb ∈ Finset.range (n % 8 + 1), ∑ x : Fin 2048, arrA_r1 V c (ix2 (rowAt (n / 8) p) (colAt kb x)) * arrM_r1 V c (ix2 (colAt kb x) q)

/-- The accumulator after point n is that share. -/
theorem acc_at_r1 (c : Dev nD) : ∀ (n : ℕ) (hn : n < cfg1.N) (p : Fin 1024) (q : Fin 128),
    accAt_r1 (F := Ideal) V c n hn (ix2 p q) = partial_r1 V c n p q := by
  intro n
  induction n with
  | zero =>
    intro hn p q
    have e : accAt_r1 (F := Ideal) V c 0 hn = k1_pay2 (blkA_r1 V c ⟨0, hn⟩) (blkM_r1 V c ⟨0, hn⟩) (k1_pay1 (F := Ideal)) := rfl
    rw [e, step_at_r1 V c 0 hn _ p q, pay1_apply_r1, zero_add]
    unfold partial_r1
    rw [show 0 % 8 + 1 = 1 from rfl, Finset.sum_range_one]
  | succ k ih =>
    intro hn p q
    have e : accAt_r1 (F := Ideal) V c (k + 1) hn
        = if (k + 1) % 8 = 0 then k1_pay2 (blkA_r1 V c ⟨k + 1, hn⟩) (blkM_r1 V c ⟨k + 1, hn⟩) (k1_pay1 (F := Ideal))
          else k1_pay2 (blkA_r1 V c ⟨k + 1, hn⟩) (blkM_r1 V c ⟨k + 1, hn⟩) (accAt_r1 V c k (Nat.lt_of_succ_lt hn)) := rfl
    rw [e]
    by_cases h : (k + 1) % 8 = 0
    · rw [if_pos h, step_at_r1 V c (k + 1) hn _ p q, pay1_apply_r1, zero_add]
      unfold partial_r1
      rw [h, show 0 + 1 = 1 from rfl, Finset.sum_range_one]
    · rw [if_neg h, step_at_r1 V c (k + 1) hn _ p q, ih (Nat.lt_of_succ_lt hn) p q]
      unfold partial_r1
      have h1 : (k + 1) % 8 = k % 8 + 1 := by omega
      have h2 : (k + 1) / 8 = k / 8 := by omega
      rw [h1, h2]
      exact (Finset.sum_range_succ (fun kb => ∑ x : Fin 2048, arrA_r1 V c (ix2 (rowAt (k / 8) p) (colAt kb x)) * arrM_r1 V c (ix2 (colAt kb x) q)) (k % 8 + 1)).symm

/-! ## The tile at a last step -/

/-- At a last step of row block t / 8 the tile holds, at (p, d), the call's function of ((A·M)·W) at row p of that
    row block, column d. -/
theorem tile_at_r1 (c : Dev nD) (t : Fin cfg1.N) (h7 : t.val % 8 = 7) (p : Fin 1024) (d : Fin 128) :
    tileAt_r1 (F := Ideal) V c t (ix2 p d)
      = post_r1 (Cert.Spec.aggProj (arrA_r1 V c) (arrM_r1 V c) (arrW_r1 V c) (rowAt (t.val / 8) p) d) := by
  unfold tileAt_r1
  refine (pay3_apply_r1 (accAt_r1 (F := Ideal) V c t.val t.isLt) (blkW_r1 (F := Ideal) V c t) p d).trans ?_
  refine congrArg post_r1 ?_
  unfold Cert.Spec.aggProj
  refine Finset.sum_congr rfl fun q _ => ?_
  rw [acc_at_r1 V c t.val t.isLt p q, blkW_at_r1 V c t q d]
  refine congrArg (· * arrW_r1 V c (ix2 q d)) ?_
  unfold partial_r1
  rw [h7]
  exact Cert.Spec.sum_col_blocks fun k => arrA_r1 V c (ix2 (rowAt (t.val / 8) p) k) * arrM_r1 V c (ix2 k q)

/-! ## From the tiles to the array -/

/-- The output's block is written back exactly at the last steps. -/
theorem flush_iff_r1 : ∀ t : Fin cfg1.N, (cfg1.win 3).flush t = true ↔ t.val % 8 = 7 :=
  (by decide +kernel : ∀ t : Fin grid1.N, win1_3.flush t = true ↔ t.val % 8 = 7)

/-- What a last step t writes back is block t of `outArr_r1`. -/
theorem flushed_eq_r1 (c : Dev nD) (t : Fin cfg1.N) (hf : (cfg1.win 3).flush t = true) :
    (dat_r1 (F := Ideal) V c).flushed 3 t = ((cfg1.win 3).blk t).view.read (Elt Ideal) (outArr_r1 V c) := by
  have h7 : t.val % 8 = 7 := (flush_iff_r1 t).mp hf
  obtain ⟨-, -, -, -, -, -, e6, e7⟩ := idx_facts_r1 t
  have hN : t.val < 128 := lt_of_lt_of_eq t.isLt (show cfg1.N = 128 from N_1)
  show (cfg1.win 3).cut (grid1.coords t) ((dat_r1 (F := Ideal) V c).after 3 t) = _
  rw [after3_r1]
  funext j
  obtain ⟨p, d, rfl⟩ : ∃ (p : Fin 1024) (d : Fin 128), j = ix2 p d := ⟨j 0, j 1, eq_ix2 j⟩
  show tileAt_r1 (F := Ideal) V c t (ix2 p d) = outArr_r1 V c (((cfg1.win 3).blk t).view.emb (ix2 p d))
  rw [tile_at_r1 V c t h7 p d]
  have he : ((cfg1.win 3).blk t).view.emb (ix2 p d) = ix2 (rowAt (t.val / 8) p) d := by
    funext a; apply Fin.ext
    match a with
    | ⟨0, _⟩ =>
      show win1_3.index t (0 : Fin 2) * 1024 + 1 * p.val = (rowAt (t.val / 8) p).val
      rw [Cert.Spec.rowAt_val _ (by omega), e6]; show t.val / 8 * 1024 + 1 * p.val = t.val / 8 * 1024 + p.val; omega
    | ⟨1, _⟩ =>
      show win1_3.index t (1 : Fin 2) * 128 + 1 * d.val = d.val
      rw [e7]; omega
  rw [he]
  rfl

/-- An index of the output array is in point t's block iff each coordinate is in the block's range on its axis. -/
theorem mem_blk_r1 (t : Fin cfg1.N) (i : S16384x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole (Pipeline.arrRef spec1 3)).slice (win1_3.rect t)).set ↔ _
  rw [View.set_slice_whole, Rect.mem_set_unit]
  exact Iff.rfl

/-- Every index of the output array is in the block some last step writes back: row n is in row block n / 1024, whose
    last step is point 8·(n / 1024) + 7. -/
theorem cover_r1 (i : S16384x128.Idx) :
    ∃ t : Fin cfg1.N, (cfg1.win 3).flush t = true ∧ i ∈ ((cfg1.win 3).blk t).view.set := by
  have hi0 : (i 0).val < 16384 := (i 0).isLt
  have hi1 : (i 1).val < 128 := (i 1).isLt
  have hlt : (i 0).val / 1024 * 8 + 7 < cfg1.N := by rw [show cfg1.N = 128 from N_1]; omega
  refine ⟨⟨(i 0).val / 1024 * 8 + 7, hlt⟩, (flush_iff_r1 _).mpr (by show ((i 0).val / 1024 * 8 + 7) % 8 = 7; omega), ?_⟩
  rw [mem_blk_r1]
  obtain ⟨-, -, -, -, -, -, e6, e7⟩ := idx_facts_r1 ⟨(i 0).val / 1024 * 8 + 7, hlt⟩
  intro a
  match a with
  | ⟨0, _⟩ =>
    show win1_3.index ⟨(i 0).val / 1024 * 8 + 7, hlt⟩ (0 : Fin 2) * 1024 ≤ (i 0).val ∧ (i 0).val < win1_3.index ⟨(i 0).val / 1024 * 8 + 7, hlt⟩ (0 : Fin 2) * 1024 + 1024
    rw [e6]; show ((i 0).val / 1024 * 8 + 7) / 8 * 1024 ≤ (i 0).val ∧ (i 0).val < ((i 0).val / 1024 * 8 + 7) / 8 * 1024 + 1024; omega
  | ⟨1, _⟩ =>
    show win1_3.index ⟨(i 0).val / 1024 * 8 + 7, hlt⟩ (1 : Fin 2) * 128 ≤ (i 1).val ∧ (i 1).val < win1_3.index ⟨(i 0).val / 1024 * 8 + 7, hlt⟩ (1 : Fin 2) * 128 + 128
    rw [e7]; omega

/-- THE OUTPUT ARRAY after the call: the call's function of ((A·M)·W) at every index. -/
theorem out_array_r1 (c : Dev nD) : (dat_r1 (F := Ideal) V c).arrAt 3 cfg1.N = outArr_r1 V c :=
  (dat_r1 (F := Ideal) V c).arrAt_eq_of_cover 3 (outArr_r1 V c) (fun t hf => flushed_eq_r1 V c t hf) (cover_r1)

end Cert.KernelIdeal.Hand

end
-- ==== Proof.KernelIdeal.Result.lean ====
/-
  The result array of the whole program, over the extended reals.

  The host stretch leaves the two weight matrices transposed. Call 0 is entered with the adjacency, the features and
  the first transposed weights as launched, and leaves the hidden layer max((A·X)·W1ᵀ, 0) in its output array. Call 1 is
  entered with the adjacency as launched, that hidden layer as its features and the second transposed weights, and
  leaves (A·H)·W2ᵀ: the two-layer network of the launch contents.
-/
import proofs.«107928_j84456236909326_1_alg».proof.Proof.KernelIdeal.Launch
import proofs.«107928_j84456236909326_1_alg».proof.Proof.KernelIdeal.Region0.Value
import proofs.«107928_j84456236909326_1_alg».proof.Proof.KernelIdeal.Region1.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- After the host stretch the first weight buffer holds the first weights transposed, -/
theorem entry0_main_v0 (c : Dev nD) :
    entry0 m c main_v0 = transpose S128x128 [1, 0] (m ((c : Thread nD τ).loc main_arg2)) transposes_S128x128_S128x128_1_0 := by
  show StableHlo.after hostOps0 (fun b => m (c, b)) (Proc.devRef .tc main_v0) = _
  after_results
/-- and the second the second weights transposed. -/
theorem entry0_main_v1 (c : Dev nD) :
    entry0 m c main_v1 = transpose S128x128 [1, 0] (m ((c : Thread nD τ).loc main_arg3)) transposes_S128x128_S128x128_1_0 := by
  show StableHlo.after hostOps0 (fun b => m (c, b)) (Proc.devRef .tc main_v1) = _
  after_results

/-- Call 0's output array is the hidden layer of the launch contents. -/
theorem hidden_layer (c : Dev nD) :
    (dat_r0 (F := Ideal) (entry0 m) c).arrAt 3 cfg0.N
      = Cert.Spec.hidden (m ((c : Thread nD τ).loc main_arg0)) (m ((c : Thread nD τ).loc main_arg1))
          (transpose S128x128 [1, 0] (m ((c : Thread nD τ).loc main_arg2)) transposes_S128x128_S128x128_1_0) := by
  rw [out_array_r0]
  unfold outArr_r0
  have hA : arrA_r0 (entry0 m) c = m ((c : Thread nD τ).loc main_arg0) := entry0_main_arg0 m c
  have hM : arrM_r0 (entry0 m) c = m ((c : Thread nD τ).loc main_arg1) := entry0_main_arg1 m c
  have hW : arrW_r0 (entry0 m) c = transpose S128x128 [1, 0] (m ((c : Thread nD τ).loc main_arg2)) transposes_S128x128_S128x128_1_0 := entry0_main_v0 m c
  rw [hA, hM, hW]
  rfl

/-- THE RESULT: the program's result array ends at the two-layer network of the launch contents. -/
theorem result_network (c : Dev nD) :
    cont3 (F := Ideal) m c (Proc.devRef .tc main_v3)
      = Cert.Spec.network (m ((c : Thread nD τ).loc main_arg0)) (m ((c : Thread nD τ).loc main_arg1))
          (transpose S128x128 [1, 0] (m ((c : Thread nD τ).loc main_arg2)) transposes_S128x128_S128x128_1_0)
          (transpose S128x128 [1, 0] (m ((c : Thread nD τ).loc main_arg3)) transposes_S128x128_S128x128_1_0) := by
  rw [cont3_main_v3, out_array_r1]
  unfold outArr_r1
  have hA : arrA_r1 (entry1 m) c = m ((c : Thread nD τ).loc main_arg0) := entry1_main_arg0 m c
  have hM : arrM_r1 (entry1 m) c = Cert.Spec.hidden (m ((c : Thread nD τ).loc main_arg0)) (m ((c : Thread nD τ).loc main_arg1))
      (transpose S128x128 [1, 0] (m ((c : Thread nD τ).loc main_arg2)) transposes_S128x128_S128x128_1_0) :=
    (entry1_main_v2 m c).trans (hidden_layer m c)
  have hW : arrW_r1 (entry1 m) c = transpose S128x128 [1, 0] (m ((c : Thread nD τ).loc main_arg3)) transposes_S128x128_S128x128_1_0 :=
    (entry1_main_v1 m c).trans (entry0_main_v1 m c)
  rw [hA, hM, hW]
  rfl

end Cert.KernelIdeal.Hand

end
-- ==== Proof.Ref.lean ====
/-
  The reference's result as the two-layer network of plain sums.

  The reference computes, over the extended reals, in this order:
    P  = A · X          (16384 x 16384 times 16384 x 128),
    H0 = P · W1ᵀ        (times 128 x 128),
    H  = max(H0, 0)     (the clamp at zero, entry by entry),
    Q  = A · H,
    R  = Q · W2ᵀ.
  Each product, read at an entry (n, d), is the plain sum over the contracted coordinate of the products of the two
  factors' entries; nothing is regrouped and nothing is distributed. Reading R at (n, d) and opening the five stages one
  after the other gives

      R(n, d) = Σ_q ( Σ_k A(n, k) · max( Σ_q' ( Σ_k' A(k, k') · X(k', q') ) · W1ᵀ(q', q), 0 ) ) · W2ᵀ(q, d),

  which is the network of the specification, term for term. The two transposed weight matrices are carried as they are:
  the specification takes them already transposed, so they are never opened here.
-/
import proofs.«107928_j84456236909326_1_alg».proof.Proof.Gen.ReferenceIdeal.Run
import proofs.«107928_j84456236909326_1_alg».proof.Proof.Gen.ReferenceIdeal.Read
import proofs.«107928_j84456236909326_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## Where each product reads its factors

  At the entry (n, d) and the contracted coordinate k, the left factor is read at (n, k) and the right one at (k, d). -/

/-- A · X reads A at (n, k). -/
theorem left_AX (n : Fin 16384) (q : Fin 128) (k : Fin 16384) : lidx_main_v0 (ix2 n q) k = ix2 n k :=
  funext fun a => by match a with | ⟨0, _⟩ => rfl | ⟨1, _⟩ => rfl
/-- A · X reads X at (k, q). -/
theorem right_AX (n : Fin 16384) (q : Fin 128) (k : Fin 16384) : ridx_main_v0 (ix2 n q) k = ix2 k q :=
  funext fun a => by match a with | ⟨0, _⟩ => rfl | ⟨1, _⟩ => rfl
/-- P · W1ᵀ reads P at (n, q). -/
theorem left_PW (n : Fin 16384) (d : Fin 128) (q : Fin 128) : lidx_main_v2 (ix2 n d) q = ix2 n q :=
  funext fun a => by match a with | ⟨0, _⟩ => rfl | ⟨1, _⟩ => rfl
/-- P · W1ᵀ reads W1ᵀ at (q, d). -/
theorem right_PW (n : Fin 16384) (d : Fin 128) (q : Fin 128) : ridx_main_v2 (ix2 n d) q = ix2 q d :=
  funext fun a => by match a with | ⟨0, _⟩ => rfl | ⟨1, _⟩ => rfl
/-- A · H reads A at (n, k). -/
theorem left_AH (n : Fin 16384) (q : Fin 128) (k : Fin 16384) : lidx_main_v4 (ix2 n q) k = ix2 n k :=
  funext fun a => by match a with | ⟨0, _⟩ => rfl | ⟨1, _⟩ => rfl
/-- A · H reads H at (k, q). -/
theorem right_AH (n : Fin 16384) (q : Fin 128) (k : Fin 16384) : ridx_main_v4 (ix2 n q) k = ix2 k q :=
  funext fun a => by match a with | ⟨0, _⟩ => rfl | ⟨1, _⟩ => rfl
/-- Q · W2ᵀ reads Q at (n, q). -/
theorem left_QW (n : Fin 16384) (d : Fin 128) (q : Fin 128) : lidx_main_v6 (ix2 n d) q = ix2 n q :=
  funext fun a => by match a with | ⟨0, _⟩ => rfl | ⟨1, _⟩ => rfl
/-- Q · W2ᵀ reads W2ᵀ at (q, d). -/
theorem right_QW (n : Fin 16384) (d : Fin 128) (q : Fin 128) : ridx_main_v6 (ix2 n d) q = ix2 q d :=
  funext fun a => by match a with | ⟨0, _⟩ => rfl | ⟨1, _⟩ => rfl

/-! ## The five stages, each at one entry -/

section stages

variable (x0 : (⟨S16384x16384, .f32⟩ : BufTy).Contents (Elt Ideal)) (x1 : (⟨S16384x128, .f32⟩ : BufTy).Contents (Elt Ideal))
  (x2 x3 : (⟨S128x128, .f32⟩ : BufTy).Contents (Elt Ideal))

/-- P = A · X as a plain sum: P(n, q) = Σ_k A(n, k) · X(k, q). -/
theorem AX_apply (n : Fin 16384) (q : Fin 128) :
    val_main_v0 (F := Ideal) x0 x1 (ix2 n q) = ∑ k : Fin 16384, x0 (ix2 n k) * x1 (ix2 k q) := by
  rw [val_main_v0_apply]
  refine Finset.sum_congr rfl fun k _ => ?_
  rw [left_AX, right_AX]

/-- H0 = P · W1ᵀ as a plain sum, P opened: H0(n, d) = Σ_q ( Σ_k A(n, k) · X(k, q) ) · W1ᵀ(q, d). -/
theorem PW_apply (n : Fin 16384) (d : Fin 128) :
    val_main_v2 (F := Ideal) x0 x1 x2 (ix2 n d)
      = ∑ q : Fin 128, (∑ k : Fin 16384, x0 (ix2 n k) * x1 (ix2 k q)) * val_main_v1 (F := Ideal) x2 (ix2 q d) := by
  rw [val_main_v2_apply]
  refine Finset.sum_congr rfl fun q _ => ?_
  rw [left_PW, right_PW, AX_apply]

/-- The constant the clamp compares with is zero at every entry. -/
theorem zero_apply (i : S16384x128.Idx) : val_main_call0_v0 (F := Ideal) i = (0 : EReal) := by
  rw [val_main_call0_v0_apply, val_main_call0_cst_apply, Ideal.ofBits_def, Ideal.ofBits_zero_f32]

/-- H = max(H0, 0), entry by entry. -/
theorem H_apply (n : Fin 16384) (d : Fin 128) :
    val_main_v3 (F := Ideal) x0 x1 x2 (ix2 n d)
      = max (∑ q : Fin 128, (∑ k : Fin 16384, x0 (ix2 n k) * x1 (ix2 k q)) * val_main_v1 (F := Ideal) x2 (ix2 q d)) 0 := by
  rw [val_main_v3_apply, Ideal.maximumf_def, zero_apply, PW_apply]

/-- Q = A · H as a plain sum: Q(n, q) = Σ_k A(n, k) · H(k, q). -/
theorem AH_apply (n : Fin 16384) (q : Fin 128) :
    val_main_v4 (F := Ideal) x0 x1 x2 (ix2 n q)
      = ∑ k : Fin 16384, x0 (ix2 n k) * val_main_v3 (F := Ideal) x0 x1 x2 (ix2 k q) := by
  rw [val_main_v4_apply]
  refine Finset.sum_congr rfl fun k _ => ?_
  rw [left_AH, right_AH]

/-- R = Q · W2ᵀ as a plain sum, Q opened: R(n, d) = Σ_q ( Σ_k A(n, k) · H(k, q) ) · W2ᵀ(q, d). -/
theorem QW_apply (n : Fin 16384) (d : Fin 128) :
    val_main_v6 (F := Ideal) x0 x1 x2 x3 (ix2 n d)
      = ∑ q : Fin 128, (∑ k : Fin 16384, x0 (ix2 n k) * val_main_v3 (F := Ideal) x0 x1 x2 (ix2 k q))
          * val_main_v5 (F := Ideal) x3 (ix2 q d) := by
  rw [val_main_v6_apply]
  refine Finset.sum_congr rfl fun q _ => ?_
  rw [left_QW, right_QW, AH_apply]

end stages

/-! ## The whole network -/

/-- The clamped stage is the specification's hidden layer over the launch contents, the first weights transposed. -/
theorem H_eq_hidden (x0 : (⟨S16384x16384, .f32⟩ : BufTy).Contents (Elt Ideal)) (x1 : (⟨S16384x128, .f32⟩ : BufTy).Contents (Elt Ideal))
    (x2 : (⟨S128x128, .f32⟩ : BufTy).Contents (Elt Ideal)) (k : Fin 16384) (q : Fin 128) :
    val_main_v3 (F := Ideal) x0 x1 x2 (ix2 k q) = Cert.Spec.hidden x0 x1 (val_main_v1 (F := Ideal) x2) (ix2 k q) := by
  rw [H_apply]
  rfl

/-- The reference's result is the network of plain sums over the launch contents, its two weight matrices transposed. -/
theorem result_eq (x0 : (⟨S16384x16384, .f32⟩ : BufTy).Contents (Elt Ideal)) (x1 : (⟨S16384x128, .f32⟩ : BufTy).Contents (Elt Ideal))
    (x2 x3 : (⟨S128x128, .f32⟩ : BufTy).Contents (Elt Ideal)) :
    val_main_v6 (F := Ideal) x0 x1 x2 x3 = Cert.Spec.network x0 x1 (val_main_v1 (F := Ideal) x2) (val_main_v5 (F := Ideal) x3) := by
  funext i
  obtain ⟨n, d, rfl⟩ : ∃ (n : Fin 16384) (d : Fin 128), i = ix2 n d := ⟨i 0, i 1, eq_ix2 i⟩
  rw [QW_apply]
  show _ = ∑ q : Fin 128, (∑ k : Fin 16384, x0 (ix2 n k)
      * Cert.Spec.hidden x0 x1 (val_main_v1 (F := Ideal) x2) (ix2 k q)) * val_main_v5 (F := Ideal) x3 (ix2 q d)
  refine Finset.sum_congr rfl fun q _ => ?_
  refine congrArg (· * val_main_v5 (F := Ideal) x3 (ix2 q d)) ?_
  refine Finset.sum_congr rfl fun k _ => ?_
  rw [H_eq_hidden]

end Cert.ReferenceIdeal.RefValue

end
-- ==== Proof.lean ====
/-
  A two-layer graph convolution, Out = (A · max((A·X)·W1ᵀ, 0)) · W2ᵀ, as a Pallas kernel against its jnp reference.

  The kernel runs each layer as one call over a grid of 16 row blocks by 8 reduction steps: a step multiplies a
  1024 x 2048 block of the adjacency with a 2048 x 128 block of the features into an accumulator kept between steps,
  and the last step of a row block projects the accumulator through the 128 x 128 weights (the first layer then clamps
  at zero) into the output tile. Over the extended reals the casts to a narrower float format are the identity, so the
  accumulator after the eight steps is the sum over all 16384 columns taken block by block from zero, which is the
  reference's single sum because addition of extended reals is commutative and associative. Both programs group the
  products alike, so nothing is distributed and no input needs to be finite.

  The frames: both calls terminate at every point without a fault; the arguments are only ever read.
-/
import proofs.«107928_j84456236909326_1_alg».proof.Defs
import proofs.«107928_j84456236909326_1_alg».proof.Proof.Gen.Kernel
import proofs.«107928_j84456236909326_1_alg».proof.Proof.Gen.KernelIdeal
import proofs.«107928_j84456236909326_1_alg».proof.Proof.Gen.ReferenceIdeal
import proofs.«107928_j84456236909326_1_alg».proof.Proof.Gen.Pre_finite_inputs
import proofs.«107928_j84456236909326_1_alg».proof.Proof.Gen.ReferenceIdeal.Run
import proofs.«107928_j84456236909326_1_alg».proof.Proof.Gen.ReferenceIdeal.Read
import proofs.«107928_j84456236909326_1_alg».proof.Proof.Kernel.Launch
import proofs.«107928_j84456236909326_1_alg».proof.Proof.KernelIdeal.Launch
import proofs.«107928_j84456236909326_1_alg».proof.Proof.KernelIdeal.Result
import proofs.«107928_j84456236909326_1_alg».proof.Proof.Ref
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as launched. -/
theorem frame_kernel : Cert.frame_Kernel := fun m ρ _ => Cert.Kernel.Hand.frame (F := Bits) m ρ

/-- So does its idealization. -/
theorem frame_kernelIdeal : Cert.frame_KernelIdeal := fun m ρ _ => Cert.KernelIdeal.Hand.frame (F := Ideal) m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the two-layer network of the launch contents in their result array. -/
theorem algebraic : Cert.algebraic_KernelIdeal_ReferenceIdeal := by
  intro m ρ m' ρ' _ hagree
  refine ⟨fun c => Cert.Spec.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (transpose Cert.KernelIdeal.S128x128 [1, 0] (m ((c.tc : Thread Cert.KernelIdeal.nD Cert.KernelIdeal.τ).loc Cert.KernelIdeal.main_arg2)) Cert.KernelIdeal.Facts₀.transposes_S128x128_S128x128_1_0)
      (transpose Cert.KernelIdeal.S128x128 [1, 0] (m ((c.tc : Thread Cert.KernelIdeal.nD Cert.KernelIdeal.τ).loc Cert.KernelIdeal.main_arg3)) Cert.KernelIdeal.Facts₀.transposes_S128x128_S128x128_1_0), ?_, ?_⟩
  · exact Cert.KernelIdeal.Hand.run_all (F := Ideal) m ρ fun s h c =>
      ⟨(h c _ (Cert.KernelIdeal.Hand.mem_uc Cert.KernelIdeal.main_v3 (by decide))).trans (Cert.KernelIdeal.Hand.result_network m c),
       (h c _ (Cert.KernelIdeal.Hand.mem_uc Cert.KernelIdeal.main_arg0 (by decide))).trans (Cert.KernelIdeal.Hand.cont3_main_arg0 m c),
       (h c _ (Cert.KernelIdeal.Hand.mem_uc Cert.KernelIdeal.main_arg1 (by decide))).trans (Cert.KernelIdeal.Hand.cont3_main_arg1 m c),
       (h c _ (Cert.KernelIdeal.Hand.mem_uc Cert.KernelIdeal.main_arg2 (by decide))).trans (Cert.KernelIdeal.Hand.cont3_main_arg2 m c),
       (h c _ (Cert.KernelIdeal.Hand.mem_uc Cert.KernelIdeal.main_arg3 (by decide))).trans (Cert.KernelIdeal.Hand.cont3_main_arg3 m c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v6_eq, Cert.ReferenceIdeal.RefValue.result_eq,
      (hagree c).1, (hagree c).2.1, (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
